-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x1024x768 .f32) (main_arg1 : FVec F S2304x768 .f32) (main_arg2 : FVec F S2304 .f32) (main_arg3 : FVec F S768x768 .f32) (main_arg4 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x1024x768 : Shape := ⟨3, ![8, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S768x2304 : Shape := ⟨2, ![768, 2304]⟩
abbrev S1x2304 : Shape := ⟨2, ![1, 2304]⟩
abbrev S8192x768 : Shape := ⟨2, ![8192, 768]⟩
abbrev S8192x2304 : Shape := ⟨2, ![8192, 2304]⟩
abbrev S8x1024x2304 : Shape := ⟨3, ![8, 1024, 2304]⟩
abbrev S1x768 : Shape := ⟨2, ![1, 768]⟩
abbrev S8x12x1024x1024 : Shape := ⟨4, ![8, 12, 1024, 1024]⟩
abbrev S1024x768 : Shape := ⟨2, ![1024, 768]⟩
abbrev S1024x2304 : Shape := ⟨2, ![1024, 2304]⟩
abbrev S1x1024x128 : Shape := ⟨3, ![1, 1024, 128]⟩
abbrev S128x768 : Shape := ⟨2, ![128, 768]⟩
abbrev S1x2x1024x1024 : Shape := ⟨4, ![1, 2, 1024, 1024]⟩
abbrev S1x1024x768 : Shape := ⟨3, ![1, 1024, 768]⟩
abbrev S1024x128 : Shape := ⟨2, ![1024, 128]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S1x1x1024x1024 : Shape := ⟨4, ![1, 1, 1024, 1024]⟩
abbrev S64x768 : Shape := ⟨2, ![64, 768]⟩

abbrev nBuf : Space → Nat
  | .hbm => 16
  | .vmem => 20
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S768x2304, .f32⟩
  | .hbm, ⟨6, _⟩ => ⟨S768x2304, .bf16⟩
  | .hbm, ⟨7, _⟩ => ⟨S1x2304, .f32⟩
  | .hbm, ⟨8, _⟩ => ⟨S8192x768, .f32⟩
  | .hbm, ⟨9, _⟩ => ⟨S8192x2304, .bf16⟩
  | .hbm, ⟨10, _⟩ => ⟨S8x1024x2304, .bf16⟩
  | .hbm, ⟨11, _⟩ => ⟨S768x768, .f32⟩
  | .hbm, ⟨12, _⟩ => ⟨S768x768, .bf16⟩
  | .hbm, ⟨13, _⟩ => ⟨S1x768, .f32⟩
  | .hbm, ⟨14, _⟩ => ⟨S8x12x1024x1024, .f32⟩
  | .hbm, ⟨15, _⟩ => ⟨S8x1024x768, .f32⟩
  | .local _ .vmem, ⟨0, _⟩ => ⟨S1024x768, .f32⟩
  | .local _ .vmem, ⟨1, _⟩ => ⟨S1024x768, .f32⟩
  | .local _ .vmem, ⟨2, _⟩ => ⟨S768x2304, .bf16⟩
  | .local _ .vmem, ⟨3, _⟩ => ⟨S1x2304, .f32⟩
  | .local _ .vmem, ⟨4, _⟩ => ⟨S1024x2304, .bf16⟩
  | .local _ .vmem, ⟨5, _⟩ => ⟨S1024x2304, .bf16⟩
  | .local _ .vmem, ⟨6, _⟩ => ⟨S1x1024x128, .bf16⟩
  | .local _ .vmem, ⟨7, _⟩ => ⟨S1x1024x128, .bf16⟩
  | .local _ .vmem, ⟨8, _⟩ => ⟨S1x1024x128, .bf16⟩
  | .local _ .vmem, ⟨9, _⟩ => ⟨S1x1024x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S128x768, .bf16⟩
  | .local _ .vmem, ⟨13, _⟩ => ⟨S128x768, .bf16⟩
  | .local _ .vmem, ⟨14, _⟩ => ⟨S1x768, .f32⟩
  | .local _ .vmem, ⟨15, _⟩ => ⟨S1x2x1024x1024, .f32⟩
  | .local _ .vmem, ⟨16, _⟩ => ⟨S1x2x1024x1024, .f32⟩
  | .local _ .vmem, ⟨17, _⟩ => ⟨S1x1024x768, .f32⟩
  | .local _ .vmem, ⟨18, _⟩ => ⟨S1x1024x768, .f32⟩
  | .local _ .vmem, ⟨19, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_v0_1 : Ref sig .tc := ⟨.hbm, 14, rfl⟩
abbrev main_v0_0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 6], ![false, false]⟩

def k1_cond2 (i : grid1.Coords) : BitVec 1 :=
  let arg1 : BitVec 32 := BitVec.ofNat 32 (i 1).val
  let c5_i32 : BitVec 32 := 5#32
  let v67 : BitVec 1 := Scalar.cmpi .eq arg1 c5_i32
  let v68 : BitVec 32 := Scalar.extui v67
  let c0_i32_37 : BitVec 32 := 0#32
  let v69 : BitVec 1 := Scalar.cmpi .ne v68 c0_i32_37
  v69

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2x1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  transposes_S2304x768_S768x2304_1_0 : S2304x768.Transposes [1, 0] S768x2304
  bitsLt_bf16_f32 : FTy.bits .bf16 < FTy.bits .f32
  shapeCasts_S2304_S1x2304 : S2304.ShapeCasts S1x2304
  shapeCasts_S8x1024x768_S8192x768 : S8x1024x768.ShapeCasts S8192x768
  shapeCasts_S8192x2304_S8x1024x2304 : S8192x2304.ShapeCasts S8x1024x2304
  transposes_S768x768_S768x768_1_0 : S768x768.Transposes [1, 0] S768x768
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S1024x2304 : S1x2304.Broadcasts S1024x2304
  inb_S1024x2304_S1024x2304_0_0 : ∀ a, (![0, 0] : Fin 2 → Nat) a + S1024x2304.size a ≤ S1024x2304.size a
  h_S1024x2304 : 0 < S1024x2304.numel
  packedbf16_S1024x2304_S1024x2304_0_0 : (Rect.unit (s := S1024x2304) ![0, 0] S1024x2304.size inb_S1024x2304_S1024x2304_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x768_S128x768_0_0 : ∀ a, (![0, 0] : Fin 2 → Nat) a + S128x768.size a ≤ S128x768.size a
  h_S128x768 : 0 < S128x768.numel
  shapeCasts_S128x768_S128x768 : S128x768.ShapeCasts S128x768
  slices_S1024x128_o0_0_S1024x64 : S1024x128.Slices ![0, 0] S1024x64
  reduces_S1024x1024_S1024 : S1024x1024.Reduces [1] S1024
  shapeCasts_S1024_S1024x1 : S1024.ShapeCasts S1024x1
  broadcasts_S1024x1_S1024x1024 : S1024x1.Broadcasts S1024x1024
  inb_S1x2x1024x1024_S1x1x1024x1024_0_0_0_0 : ∀ a, (![0, 0, 0, 0] : Fin 4 → Nat) a + S1x1x1024x1024.size a ≤ S1x2x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  slices_S128x768_o0_0_S64x768 : S128x768.Slices ![0, 0] S64x768
  slices_S1024x128_o0_64_S1024x64 : S1024x128.Slices ![0, 64] S1024x64
  inb_S1x2x1024x1024_S1x1x1024x1024_0_1_0_0 : ∀ a, (![0, 1, 0, 0] : Fin 4 → Nat) a + S1x1x1024x1024.size a ≤ S1x2x1024x1024.size a
  slices_S128x768_o64_0_S64x768 : S128x768.Slices ![64, 0] S64x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S1x1024x768 : S1024x768.ShapeCasts S1x1024x768
  dot_S1024x768_S768x2304_S1024x2304_1_0_0_1_n_n_wf : DotDims.WF S1024x768 S768x2304 S1024x2304 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S1024x64_S64x768_S1024x768_1_0_0_1_n_n_wf : DotDims.WF S1024x64 S64x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2304.size a ≤ S8192x2304.size a
  hwx0_3 : ∀ i : grid0.Coords, EltTy.bits .bf16 = 32 ∨ (Rect.block (s := S8192x2304) S1024x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S8x1024x2304.size a
  hwx1_0 : ∀ i : grid1.Coords, EltTy.bits .bf16 = 32 ∨ (Rect.block (s := S8x1024x2304) S1x1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x2304.size a
  hwx1_1 : ∀ i : grid1.Coords, EltTy.bits .bf16 = 32 ∨ (Rect.block (s := S8x1024x2304) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S8x1024x2304.size a
  hwx1_2 : ∀ i : grid1.Coords, EltTy.bits .bf16 = 32 ∨ (Rect.block (s := S8x1024x2304) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x768.size a ≤ S768x768.size a
  hwx1_3 : ∀ i : grid1.Coords, EltTy.bits .bf16 = 32 ∨ (Rect.block (s := S768x768) S128x768.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2x1024x1024.size a ≤ S8x12x1024x1024.size a
  hwx1_5 : ∀ i : grid1.Coords, EltTy.bits .f32 = 32 ∨ (Rect.block (s := S8x12x1024x1024) S1x2x1024x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x768.size a ≤ S8x1024x768.size a
  hwx1_6 : ∀ i : grid1.Coords, EltTy.bits .f32 = 32 ∨ (Rect.block (s := S8x1024x768) S1x1024x768.size (cc1_transform_6 i) (hinb1_6 i)).WholeWords (EltTy.packing .f32)

variable [Facts₀]

def dot_S1024x768_S768x2304_S1024x2304_1_0_0_1_n_n : DotDims S1024x768 S768x2304 S1024x2304 where
  lhsContracting := [1]
  rhsContracting := [0]
  lhsNonContracting := [0]
  rhsNonContracting := [1]
  lhsBatch := []
  rhsBatch := []
  wf := dot_S1024x768_S768x2304_S1024x2304_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x768_S1024x768_1_0_0_1_n_n : DotDims S1024x64 S64x768 S1024x768 where
  lhsContracting := [1]
  rhsContracting := [0]
  lhsNonContracting := [0]
  rhsNonContracting := [1]
  lhsBatch := []
  rhsBatch := []
  wf := dot_S1024x64_S64x768_S1024x768_1_0_0_1_n_n_wf

abbrev win0_0 : Pipeline.Window sig grid0 :=
  Pipeline.Window.ofSpec (Memref.whole main_call0_v3) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1024x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v5) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v5) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v7) S128x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v8) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0_1) S1x2x1024x1024.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0_0) S1x1024x768.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S8x1024x2304 : Shape := ⟨3, ![8, 1024, 2304]⟩
abbrev S1x1x2304 : Shape := ⟨3, ![1, 1, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S8x12x1024x1024 : Shape := ⟨4, ![8, 12, 1024, 1024]⟩
abbrev S_ : Shape := ⟨0, ![]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S8x1024x2304, .f32⟩
  | .hbm, ⟨6, _⟩ => ⟨S1x1x2304, .f32⟩
  | .hbm, ⟨7, _⟩ => ⟨S8x1024x2304, .f32⟩
  | .hbm, ⟨8, _⟩ => ⟨S8x1024x2304, .f32⟩
  | .hbm, ⟨9, _⟩ => ⟨S8x1024x3x12x64, .f32⟩
  | .hbm, ⟨10, _⟩ => ⟨S3x8x12x1024x64, .f32⟩
  | .hbm, ⟨11, _⟩ => ⟨S1x8x12x1024x64, .f32⟩
  | .hbm, ⟨12, _⟩ => ⟨S8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S8x12x1024x1024, .f32⟩
  | .hbm, ⟨18, _⟩ => ⟨S_, .f32⟩
  | .hbm, ⟨19, _⟩ => ⟨S8x12x1024x1024, .f32⟩
  | .hbm, ⟨20, _⟩ => ⟨S8x12x1024x1024, .f32⟩
  | .hbm, ⟨21, _⟩ => ⟨S_, .f32⟩
  | .hbm, ⟨22, _⟩ => ⟨S8x12x1024, .f32⟩
  | .hbm, ⟨23, _⟩ => ⟨S_, .f32⟩
  | .hbm, ⟨24, _⟩ => ⟨S8x12x1024, .f32⟩
  | .hbm, ⟨25, _⟩ => ⟨S8x12x1024, .f32⟩
  | .hbm, ⟨26, _⟩ => ⟨S8x12x1024x1, .f32⟩
  | .hbm, ⟨27, _⟩ => ⟨S8x12x1024x1024, .f32⟩
  | .hbm, ⟨28, _⟩ => ⟨S8x12x1024x1024, .f32⟩
  | .hbm, ⟨29, _⟩ => ⟨S8x12x1024x1024, .f32⟩
  | .hbm, ⟨30, _⟩ => ⟨S_, .f32⟩
  | .hbm, ⟨31, _⟩ => ⟨S8x12x1024, .f32⟩
  | .hbm, ⟨32, _⟩ => ⟨S8x12x1024x1, .f32⟩
  | .hbm, ⟨33, _⟩ => ⟨S8x12x1024x1024, .f32⟩
  | .hbm, ⟨34, _⟩ => ⟨S8x12x1024x1024, .f32⟩
  | .hbm, ⟨35, _⟩ => ⟨S8x12x1024x64, .f32⟩
  | .hbm, ⟨36, _⟩ => ⟨S8x1024x12x64, .f32⟩
  | .hbm, ⟨37, _⟩ => ⟨S8x1024x768, .f32⟩
  | .hbm, ⟨38, _⟩ => ⟨S8x1024x768, .f32⟩
  | .hbm, ⟨39, _⟩ => ⟨S1x1x768, .f32⟩
  | .hbm, ⟨40, _⟩ => ⟨S8x1024x768, .f32⟩
  | .hbm, ⟨41, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S8x1024x2304_0_1_2 : S1x1x2304.BroadcastsInDim S8x1024x2304 (![0, 1, 2] : Fin 3 → Fin S8x1024x2304.rank)
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  bcast_S_S8x12x1024x1024 : S_.BroadcastsInDim S8x12x1024x1024 (![] : Fin 0 → Fin S8x12x1024x1024.rank)
  reducesTo_S8x12x1024x1024_S8x12x1024_d3 : S8x12x1024x1024.ReducesTo [3] S8x12x1024
  h_S_ : 0 < S_.numel
  bcast_S_S8x12x1024 : S_.BroadcastsInDim S8x12x1024 (![] : Fin 0 → Fin S8x12x1024.rank)
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.HRegion0.lean ====
/- Region 0 of the program: the tiled linear layer. At each of the 8 grid points the body takes a
   1024x768 block of the activations (f32), the whole 768x2304 weight matrix (bf16) and the 1x2304 bias row (f32),
   and leaves bf16(block · weights + bias) in the 1024x2304 output block. This module states that half of the frame
   at arbitrary buffer contents `V` on entry to the region: what each window's block is, what the body leaves in the
   output block as a closed function of the three input blocks, and that the body, run on buffers holding those
   blocks, runs to the end and leaves exactly that. -/
import proofs.«402962_j1709396984003_3_alg».proof.Proof.Gen.KernelIdeal.Launch
import proofs.«402962_j1709396984003_3_alg».proof.Proof.Gen.KernelIdeal.Skeleton
import proofs.«402962_j1709396984003_3_alg».proof.Proof.Gen.KernelIdeal.Points
import Idealize.ShloMosaic.Lib.Pipeline.FrameBody
import Idealize.ShloMosaic.Lib.Ring
import Idealize.ShloMosaic.Lib.Tactic

-- deciding that one rectangle of 1024 x 2304 entries fills its shape walks the long axes coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects there. For window 0 the `t`-th band of 1024 rows of the activations; for windows 1
    and 2 the whole weight matrix and the whole bias row at every point; for window 3 the `t`-th band of 1024 rows
    of the output array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each is the whole of its buffer -/

abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S1024x2304 := Rect.unit (s := S1024x2304) ![0, 0] S1024x2304.size inb_S1024x2304_S1024x2304_0_0

/-! ## What the body leaves in the output block -/

/-- The output buffer after the body, from the three input blocks: one store over the whole buffer, whose payload
    is the matrix product of the activations (rounded to bf16) with the weights, accumulated in f32, plus the bias
    row repeated down the 1024 rows, rounded to bf16. -/
def out0_3 (x0 : Vec F S1024x768 .f32) (x1 : Vec F S768x2304 .bf16) (x2 : Vec F S1x2304 .f32) : Vec F S1024x2304 .bf16 :=
  View.canon [⟨r0_3, k0_pay1 (View.ld x0 r0_0) (View.ld x1 r0_1) (View.ld x2 r0_2)⟩]

/-- The one store's rectangle is the whole 1024 x 2304 buffer, so every index of the buffer lies under it. -/
theorem cover0_3 (p0 : Vec F S1024x2304 .bf16) (y : S1024x2304.Idx) :
    ∃ pc ∈ ([⟨r0_3, p0⟩] : List (View.Piece (Elt F) S1024x2304 .bf16)), y ∈ pc.1.set :=
  View.cover_of_tiled [⟨r0_3, p0⟩] S1024x2304.size (by rfl) y

/-! ## The body's triple -/

set_option maxHeartbeats 1000000 in
/-- The body on four whole buffers — the three inputs' reading `x0`, `x1`, `x2`, the output's anything — runs to
    the end: it loads the three inputs whole, loads the output buffer too (a value it never uses), and stores the
    payload over the whole output buffer. The inputs are left as they were; the output buffer reads `out0_3 x0 x1 x2`. -/
theorem sound_kernel0 (c : Dev nD) (E : Set ℕ) (i : grid0.Coords)
    (arg1 : Memref sig .tc .vmem S1024x768 .f32) (harg1 : arg1.IsWhole)
    (arg2 : Memref sig .tc .vmem S768x2304 .bf16) (harg2 : arg2.IsWhole)
    (arg3 : Memref sig .tc .vmem S1x2304 .f32) (harg3 : arg3.IsWhole)
    (arg4 : Memref sig .tc .vmem S1024x2304 .bf16) (harg4 : arg4.IsWhole)
    (x0 : Vec F S1024x768 .f32) (x1 : Vec F S768x2304 .bf16) (x2 : Vec F S1x2304 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the pipeline -/

/-- The arrays are what the region finds; after the body at point `t` the three input buffers still hold their
    blocks and the output buffer holds `out0_3` of them; the invariant carried from point to point is the rest of
    the core's scoped memory and the generator register, none of which the body touches; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by
  dsimp only [dat0]

/-! ## What the body finds in the input buffers -/

/-- The activations' buffer holds the block of the current point: the window's row band moves at every point and is
    fetched at every point, the body only reads it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights' buffer holds the whole weight matrix at every point, although it is copied in at the first point
    only: its block index never moves and the body leaves the buffer as it finds it. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Likewise the bias row's buffer: copied in once, never moved, never written. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation -/

/-- What the body is handed at point `t`: the invariant, the core's debts, and the four current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's triple applies at those blocks; the invariant
    and the debts do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0: the four windows written out one by one, then `sound_body0`. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.HRegion1Kernel.lean ====
/- Region 1's kernel body (two attention heads and the accumulated output projection at one grid point) as one
   separation-logic triple, covering every case of its two conditions: whether the point is the first of its batch
   (the accumulator is zeroed) and whether it is the last (the accumulator plus the bias is written out). -/
import proofs.«402962_j1709396984003_3_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two conditions -/

/-- The condition under which the accumulator is zeroed, as the body computes it from the second grid coordinate:
    `(j == 0)` widened to a word and compared with zero. -/
def k1_cond1 (i : grid1.Coords) : BitVec 1 :=
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  v2

/-- It holds exactly at the first head pair of a batch. -/
theorem k1_cond1_iff (i : grid1.Coords) : k1_cond1 i = 1#1 ↔ (i 1).val = 0 := by
  have h : ∀ j : Fin 6, (Scalar.cmpi .ne (Scalar.extui (Scalar.cmpi .eq (BitVec.ofNat 32 j.val) 0#32)) 0#32) = 1#1 ↔ j.val = 0 := by decide
  exact h (i 1)

/-- The write-out condition holds exactly at the last head pair of a batch. -/
theorem k1_cond2_iff (i : grid1.Coords) : k1_cond2 i = 1#1 ↔ (i 1).val = 5 := by
  have h : ∀ j : Fin 6, (Scalar.cmpi .ne (Scalar.extui (Scalar.cmpi .eq (BitVec.ofNat 32 j.val) 5#32)) 0#32) = 1#1 ↔ j.val = 5 := by decide
  exact h (i 1)

/-! ## What the body leaves -/

/-- Where the first head's attention weights go in the two-head block: `[0, 0, :, :]`. -/
abbrev r1a0 : Rect S1x2x1024x1024 := Rect.unit (s := S1x2x1024x1024) ![0, 0, 0, 0] S1x1x1024x1024.size inb_S1x2x1024x1024_S1x1x1024x1024_0_0_0_0
/-- Where the second head's go: `[0, 1, :, :]`. -/
abbrev r1a1 : Rect S1x2x1024x1024 := Rect.unit (s := S1x2x1024x1024) ![0, 1, 0, 0] S1x1x1024x1024.size inb_S1x2x1024x1024_S1x1x1024x1024_0_1_0_0

/-- The attention block after the body, from the query and key blocks: each head's softmax weights in its own
    half (the pieces last store first). -/
def attn1 (x0 x1 : Vec F S1x1024x128 .bf16) : Vec F S1x2x1024x1024 .f32 :=
  View.canon [⟨r1a1, k1_pay13 (k1_pay3 x0) (k1_pay4 x1)⟩, ⟨r1a0, k1_pay8 x0 x1⟩]

theorem attn1_eq (x0 x1 : Vec F S1x1024x128 .bf16) :
    attn1 x0 x1 = View.canon [⟨r1a1, k1_pay13 (k1_pay3 x0) (k1_pay4 x1)⟩, ⟨r1a0, k1_pay8 x0 x1⟩] := rfl

/-- The accumulator after the body, from the accumulator before it: zero in its place at the first head pair of a
    batch, then the two heads' projected outputs added in turn. -/
def acc1 (i : grid1.Coords) (x0 x1 x2 : Vec F S1x1024x128 .bf16) (x3 : Vec F S128x768 .bf16) (s : Vec F S1024x768 .f32) :
    Vec F S1024x768 .f32 :=
  k1_pay14 (k1_pay3 x0) (k1_pay4 x1) (k1_pay5 x2) (k1_pay6 x3)
    (k1_pay11 (k1_pay9 x0 x1 x2) (k1_pay10 x3) (if k1_cond1 i = 1#1 then k1_pay2 else s))

theorem acc1_eq (i : grid1.Coords) (x0 x1 x2 : Vec F S1x1024x128 .bf16) (x3 : Vec F S128x768 .bf16) (s : Vec F S1024x768 .f32) :
    acc1 i x0 x1 x2 x3 s = k1_pay14 (k1_pay3 x0) (k1_pay4 x1) (k1_pay5 x2) (k1_pay6 x3)
      (k1_pay11 (k1_pay9 x0 x1 x2) (k1_pay10 x3) (if k1_cond1 i = 1#1 then k1_pay2 else s)) := rfl

/-- The output block written at the last head pair of a batch: the finished accumulator plus the bias row. -/
def outb1 (i : grid1.Coords) (x0 x1 x2 : Vec F S1x1024x128 .bf16) (x3 : Vec F S128x768 .bf16) (x4 : Vec F S1x768 .f32)
    (s : Vec F S1024x768 .f32) : Vec F S1x1024x768 .f32 :=
  k1_pay1 (acc1 i x0 x1 x2 x3 s) x4

theorem outb1_eq (i : grid1.Coords) (x0 x1 x2 : Vec F S1x1024x128 .bf16) (x3 : Vec F S128x768 .bf16) (x4 : Vec F S1x768 .f32)
    (s : Vec F S1024x768 .f32) : outb1 i x0 x1 x2 x3 x4 s = k1_pay1 (acc1 i x0 x1 x2 x3 s) x4 := rfl

/-! ## Loads and stores of a whole buffer -/

theorem hz2 : (![0, 0] : Fin 2 → ℕ) = fun _ => 0 := by funext a; fin_cases a <;> rfl
theorem hz3 : (![0, 0, 0] : Fin 3 → ℕ) = fun _ => 0 := by funext a; fin_cases a <;> rfl

section Whole
variable {S : Shape} {e : EltTy}

/-- A load of the whole buffer, through a whole memref whose contents read `X`, reads `X`. -/
theorem readAt_whole (m : Memref sig .tc .vmem S e) (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- A load of the whole buffer after a store of the whole buffer reads what was stored, whatever came before. -/
theorem readCov_cons_whole (v : View sig .tc .vmem S e) {off : Fin S.rank → ℕ} (hz : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero hz inb y⟩),
    View.canon_cons_unit_zero hz, View.ld_unit_zero hz]

/-- After a last store of the whole buffer the buffer reads what was stored. -/
theorem read_writes_cons_whole (v : View sig .tc .vmem S e) (f : v.ty.Contents (Elt F)) {off : Fin S.rank → ℕ}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

/-- The two heads' stores tile the attention block. -/
theorem cover7 (p1 p0 : Vec F S1x1x1024x1024 .f32) (y : S1x2x1024x1024.Idx) :
    ∃ pc ∈ ([⟨r1a1, p1⟩, ⟨r1a0, p0⟩] : List (View.Piece (Elt F) S1x2x1024x1024 .f32)), y ∈ pc.1.set :=
  View.cover_of_tiled [⟨r1a1, p1⟩, ⟨r1a0, p0⟩] S1x1x1024x1024.size (by rfl) y

/-! ## The body's triple -/

/-- The triple, as a proposition of the point and the operands: on whole staging memrefs — the five inputs' at their
    contents, the attention block's at anything, the output block's at `d6`, the accumulator at `s` — the body runs to
    the continuation holding the inputs as they were, the attention block at `attn1`, the accumulator at `acc1`, and
    the output block written (`outb1`) at the last head pair of a batch and untouched elsewhere. -/
def Sound1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄) : Prop :=
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d6 ∗ owns (c : Thread nD τ) (Memref.whole cc1_scratch0) fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare (attn1 x0 x1)
              ∗ owns (c : Thread nD τ) arg8 fullShare (if k1_cond2 i = 1#1 then outb1 i x0 x1 x2 x3 x4 s else d6)
              ∗ owns (c : Thread nD τ) (Memref.whole cc1_scratch0) fullShare (acc1 i x0 x1 x2 x3 s)) -∗ K ⟨⟩))
      ⊢ wp frame (wpE (defs₀ (F := F)) Variants.none c none) E
          (cc1__attn_outproj_kernel i arg2 harg2 arg3 harg3 arg4 harg4 arg5 harg5 arg6 harg6 arg7 harg7 arg8 harg8 (Memref.whole cc1_scratch0) (Memref.isWhole_whole _)) K

set_option maxHeartbeats 1000000 in
/-- The body where the accumulator is zeroed and the output block written (both conditions hold): every load of the
    accumulator reads the store before it, from the zero fill on, so what it held before does not matter. -/
theorem run1_first_last (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : k1_cond1 i = 1#1) (h2 : k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr
    swap; · iexact H6
    ipureintro
    rw [if_pos h2, read_writes_cons_whole (S := S1x1024x768) _ _ hz3]
    sl_unfold_run_names
    rw [readCov_cons_whole (S := S1024x768) _ hz2, readCov_cons_whole (S := S1024x768) _ hz2, readCov_cons_whole (S := S1024x768) _ hz2,
      readAt_whole _ harg2 hz3, readAt_whole _ harg3 hz3, readAt_whole _ harg4 hz3, readAt_whole _ harg5 hz2, readAt_whole _ harg6 hz2]
    unfold outb1 acc1; rw [if_pos h1]
  iexists _; isplitr
  swap; · iexact HS
  ipureintro
  sl_unfold_run_names
  rw [read_writes_cons_whole (S := S1024x768) _ _ hz2, readCov_cons_whole (S := S1024x768) _ hz2, readCov_cons_whole (S := S1024x768) _ hz2,
    readAt_whole _ harg2 hz3, readAt_whole _ harg3 hz3, readAt_whole _ harg4 hz3, readAt_whole _ harg5 hz2]
  unfold acc1; rw [if_pos h1]

set_option maxHeartbeats 1000000 in
/-- The body where the accumulator is zeroed and the output block left alone: the first head pair of a batch. -/
theorem run1_first (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : k1_cond1 i = 1#1) (h2 : ¬k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr; · ipureintro; rw [if_neg h2]; exact harg8.read_unread _
    iexact H6
  iexists _; isplitr
  swap; · iexact HS
  ipureintro
  sl_unfold_run_names
  rw [read_writes_cons_whole (S := S1024x768) _ _ hz2, readCov_cons_whole (S := S1024x768) _ hz2, readCov_cons_whole (S := S1024x768) _ hz2,
    readAt_whole _ harg2 hz3, readAt_whole _ harg3 hz3, readAt_whole _ harg4 hz3, readAt_whole _ harg5 hz2]
  unfold acc1; rw [if_pos h1]

set_option maxHeartbeats 1000000 in
/-- The body where the accumulator is carried in and the output block written: the last head pair of a batch. The
    first load of the accumulator reads what the point before left. -/
theorem run1_last (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : ¬k1_cond1 i = 1#1) (h2 : k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr
    swap; · iexact H6
    ipureintro
    rw [if_pos h2, read_writes_cons_whole (S := S1x1024x768) _ _ hz3]
    sl_unfold_run_names
    rw [readCov_cons_whole (S := S1024x768) _ hz2, readCov_cons_whole (S := S1024x768) _ hz2,
      readAt_whole _ harg2 hz3, readAt_whole _ harg3 hz3, readAt_whole _ harg4 hz3, readAt_whole _ harg5 hz2, readAt_whole _ harg6 hz2,
      readAt_whole (S := S1024x768) (e := .f32) _ (Memref.isWhole_whole cc1_scratch0) hz2]
    unfold outb1 acc1; rw [if_neg h1]
  iexists _; isplitr
  swap; · iexact HS
  ipureintro
  sl_unfold_run_names
  rw [read_writes_cons_whole (S := S1024x768) _ _ hz2, readCov_cons_whole (S := S1024x768) _ hz2,
    readAt_whole _ harg2 hz3, readAt_whole _ harg3 hz3, readAt_whole _ harg4 hz3, readAt_whole _ harg5 hz2,
    readAt_whole (S := S1024x768) (e := .f32) _ (Memref.isWhole_whole cc1_scratch0) hz2]
  unfold acc1; rw [if_neg h1]

set_option maxHeartbeats 1000000 in
/-- The body where the accumulator is carried in and the output block left alone: a head pair in the middle of a batch. -/
theorem run1_mid (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : ¬k1_cond1 i = 1#1) (h2 : ¬k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr; · ipureintro; rw [if_neg h2]; exact harg8.read_unread _
    iexact H6
  iexists _; isplitr
  swap; · iexact HS
  ipureintro
  sl_unfold_run_names
  rw [read_writes_cons_whole (S := S1024x768) _ _ hz2, readCov_cons_whole (S := S1024x768) _ hz2,
    readAt_whole _ harg2 hz3, readAt_whole _ harg3 hz3, readAt_whole _ harg4 hz3, readAt_whole _ harg5 hz2,
    readAt_whole (S := S1024x768) (e := .f32) _ (Memref.isWhole_whole cc1_scratch0) hz2]
  unfold acc1; rw [if_neg h1]

/-- On whole staging memrefs — the five inputs' at their contents, the attention block's at anything, the output
    block's at `d6`, the accumulator at `s` — the body runs to the continuation holding the inputs as they were, the
    attention block at `attn1`, the accumulator at `acc1`, and the output block written (`outb1`) at the last head pair
    of a batch and untouched elsewhere: the four cases of its two conditions. -/
theorem sound_kernel1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d6 ∗ owns (c : Thread nD τ) (Memref.whole cc1_scratch0) fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare (attn1 x0 x1)
              ∗ owns (c : Thread nD τ) arg8 fullShare (if k1_cond2 i = 1#1 then outb1 i x0 x1 x2 x3 x4 s else d6)
              ∗ owns (c : Thread nD τ) (Memref.whole cc1_scratch0) fullShare (acc1 i x0 x1 x2 x3 s)) -∗ K ⟨⟩))
      ⊢ wp frame (wpE (defs₀ (F := F)) Variants.none c none) E
          (cc1__attn_outproj_kernel i arg2 harg2 arg3 harg3 arg4 harg4 arg5 harg5 arg6 harg6 arg7 harg7 arg8 harg8 (Memref.whole cc1_scratch0) (Memref.isWhole_whole _)) K := by
  by_cases h1 : k1_cond1 i = 1#1 <;> by_cases h2 : k1_cond2 i = 1#1
  · exact run1_first_last c E i arg2 harg2 arg3 harg3 arg4 harg4 arg5 harg5 arg6 harg6 arg7 harg7 arg8 harg8 x0 x1 x2 x3 x4 d6 s K h1 h2
  · exact run1_first c E i arg2 harg2 arg3 harg3 arg4 harg4 arg5 harg5 arg6 harg6 arg7 harg7 arg8 harg8 x0 x1 x2 x3 x4 d6 s K h1 h2
  · exact run1_last c E i arg2 harg2 arg3 harg3 arg4 harg4 arg5 harg5 arg6 harg6 arg7 harg7 arg8 harg8 x0 x1 x2 x3 x4 d6 s K h1 h2
  · exact run1_mid c E i arg2 harg2 arg3 harg3 arg4 harg4 arg5 harg5 arg6 harg6 arg7 harg7 arg8 harg8 x0 x1 x2 x3 x4 d6 s K h1 h2

end Cert.KernelIdeal.Hand

end
-- ==== Proof.HRegion1.lean ====
/- Region 1 of the program: attention over one pair of heads per grid point, with the output projection accumulated
   over the six head pairs of a batch. The grid is 8 batches by 6 head pairs, walked batch by batch; point t has
   batch t / 6 and head pair t % 6. At each point the body reads the query, key and value blocks of the pair (three
   windows onto one array), the 128 x 768 slice of the projection weights and the bias row, writes the pair's
   attention weights to their output block, and adds the pair's projected output into an accumulator that lives in
   the core's own scratch memory: zeroed at the first pair of a batch, carried from point to point, and written out,
   with the bias added, at the last pair only. This module states that half of the frame at arbitrary buffer contents
   V on entry to the region: the blocks, the accumulator after each point (by recursion on the point), the proof
   data — whose invariant between points holds the accumulator at exactly that value — and the body obligation. -/
import proofs.«402962_j1709396984003_3_alg».proof.Proof.HRegion1Kernel
import proofs.«402962_j1709396984003_3_alg».proof.Proof.Gen.KernelIdeal.Launch
import proofs.«402962_j1709396984003_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator after each point -/

/-- The accumulator after the body at position `n` of the walk: at position 0 the body zeroes it first (so what it
    held before does not matter, and zero stands in for it); at a later position the body starts from what the
    position before left — and zeroes that too if the position is the first pair of a batch, which `acc1` decides
    from the point's coordinates. -/
def accAt1 (c : Dev nD) : (n : ℕ) → n < cfg1.N → Vec F S1024x768 .f32
  | 0, h => acc1 (grid1.coords ⟨0, h⟩) (iblk1 V c 0 ⟨0, h⟩) (iblk1 V c 1 ⟨0, h⟩) (iblk1 V c 2 ⟨0, h⟩) (iblk1 V c 3 ⟨0, h⟩) k1_pay2
  | n + 1, h => acc1 (grid1.coords ⟨n + 1, h⟩) (iblk1 V c 0 ⟨n + 1, h⟩) (iblk1 V c 1 ⟨n + 1, h⟩) (iblk1 V c 2 ⟨n + 1, h⟩) (iblk1 V c 3 ⟨n + 1, h⟩)
      (accAt1 c n (Nat.lt_of_succ_lt h))

theorem accAt1_zero (c : Dev nD) (h : 0 < cfg1.N) :
    accAt1 V c 0 h = acc1 (grid1.coords ⟨0, h⟩) (iblk1 V c 0 ⟨0, h⟩) (iblk1 V c 1 ⟨0, h⟩) (iblk1 V c 2 ⟨0, h⟩) (iblk1 V c 3 ⟨0, h⟩) k1_pay2 := rfl

theorem accAt1_succ (c : Dev nD) (n : ℕ) (h : n + 1 < cfg1.N) :
    accAt1 V c (n + 1) h = acc1 (grid1.coords ⟨n + 1, h⟩) (iblk1 V c 0 ⟨n + 1, h⟩) (iblk1 V c 1 ⟨n + 1, h⟩) (iblk1 V c 2 ⟨n + 1, h⟩) (iblk1 V c 3 ⟨n + 1, h⟩)
      (accAt1 V c n (by omega)) := rfl

/-! ## The invariant between points -/

/-- The accumulator's memory: the whole of the core's scratch buffer. -/
abbrev scM1 : Memref sig .tc .vmem S1024x768 .f32 := Memref.whole cc1_scratch0

/-- The scoped memory of the core that this region neither stages through nor accumulates in: the six staging
    buffers of the other region, each whole at some contents. The body never touches them. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The invariant before position `n`. Before the first point: the core's scoped memory that no window of this region
    stages (the other region's staging buffers and the accumulator's buffer), each part at some contents, and the
    generator register at some state. Before a later point, and after the last: the same, but with the accumulator's
    buffer holding exactly what the point before left in it. -/
def Phi1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(rest1 (F := F) c ∗ owns (c : Thread nD τ) scM1 fullShare (accAt1 V c (n - 1) (by omega)) ∗ (∃ r, prngReg c r)) := by
  cases n with
  | zero => exact absurd rfl hz
  | succ n => rfl

/-- The scoped memory outside this region's staging buffers, taken apart: the other region's buffers, then the
    accumulator's buffer at some contents. -/
theorem PhiA1_open (c : Dev nD) :
    (Pipeline.ΦA spec1 c : sProp 𝕄) ⊢ iprop(rest1 (F := F) c ∗ (∃ s, owns (c : Thread nD τ) scM1 fullShare s) ∗ (∃ r, prngReg c r)) := by
  unfold Pipeline.ΦA rest1; rw [scopedRest1_eq]; simp only [scM1, owns_whole]
  iintro ⟨⟨A0, A1, A2, A3, A4, A5, HS⟩, Hg⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [HS]; · iexact HS
  iexact Hg

/-- And put together again. -/
theorem PhiA1_close (c : Dev nD) :
    iprop(rest1 (F := F) c ∗ (∃ s, owns (c : Thread nD τ) scM1 fullShare s) ∗ (∃ r, prngReg c r)) ⊢ (Pipeline.ΦA spec1 c : sProp 𝕄) := by
  unfold Pipeline.ΦA rest1; rw [scopedRest1_eq]; simp only [scM1, owns_whole]
  iintro ⟨⟨A0, A1, A2, A3, A4, A5⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexact HS
  iexact Hg

/-! ## The proof data of the pipeline -/

/-- The arrays are what the region finds. After the body at point `t`: the five input buffers still hold their blocks;
    the attention block holds the pair's weights; the output block holds the accumulator after the point plus the bias
    row (which is consulted only at the last pair of a batch, where the body stores it). The query, key and value
    windows read one array, so its full share is dealt among the three; every other array is held whole. Nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => attn1 (iblk1 V c 0 t) (iblk1 V c 1 t)
    | ⟨6, _⟩ => k1_pay1 (accAt1 V c t.val t.isLt) (iblk1 V c 4 t)
  Φ t := Phi1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]

theorem owed1 (c : Dev nD) (t : Fin (cfg1.N + 1)) : (dat1 V c).owed t = 0 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = attn1 (iblk1 V c 0 t) (iblk1 V c 1 t) := by dsimp only [dat1]
theorem after1_6 (c : Dev nD) (t : Fin cfg1.N) :
    (dat1 V c).after 6 t = k1_pay1 (accAt1 V c t.val t.isLt) (iblk1 V c 4 t) := by dsimp only [dat1]

/-- Before the first point the invariant is the core's scoped memory outside this region's staging buffers, at any
    contents, and the generator register. -/
theorem Φ1_first (c : Dev nD) : (dat1 V c).Φ 0 = Pipeline.ΦA spec1 c := by
  rw [show (dat1 V c).Φ 0 = Phi1 V c 0 (Nat.zero_le _) from rfl]; rfl

/-- The invariant at a point's start and at its end, restated at the point's position. -/
theorem Φ1_castSucc (c : Dev nD) (t : Fin cfg1.N) : (dat1 V c).Φ t.castSucc = Phi1 V c t.val (Nat.le_of_lt t.isLt) := by
  dsimp only [dat1]; simp only [Fin.coe_castSucc]

theorem Φ1_succ (c : Dev nD) (t : Fin cfg1.N) :
    (dat1 V c).Φ t.succ = iprop(rest1 (F := F) c ∗ owns (c : Thread nD τ) scM1 fullShare (accAt1 V c t.val t.isLt) ∗ (∃ r, prngReg c r)) := rfl

/-- After the last point the accumulator's named contents are forgotten again. -/
theorem Φ1_last (c : Dev nD) : (dat1 V c).Φ (Fin.last cfg1.N) ⊢ Pipeline.ΦA spec1 c := by
  have hN : cfg1.N = 48 := N_1
  rw [show (dat1 V c).Φ (Fin.last cfg1.N) = Phi1 V c (Fin.last cfg1.N).val (Nat.le_of_lt_succ (Fin.last cfg1.N).isLt) from rfl,
    Phi1_pos V c _ _ (by rw [Fin.val_last]; omega)]
  refine BIBase.Entails.trans ?_ (PhiA1_close c)
  iintro ⟨HR, HS, Hg⟩
  isplitl [HR]; · iexact HR
  isplitl [HS]; · iexists _; iexact HS
  iexact Hg

/-- What the body is handed of the invariant at point `t`, with the accumulator's contents `s` named only as far as
    they matter: after the first point they are what the point before left. -/
theorem Φ1_open (c : Dev nD) (t : Fin cfg1.N) :
    (dat1 V c).Φ t.castSucc ⊢ iprop(rest1 (F := F) c
      ∗ (∃ s, ⌜∀ hn : t.val ≠ 0, s = accAt1 V c (t.val - 1) (Nat.lt_of_le_of_lt (Nat.sub_le _ _) t.isLt)⌝ ∗ owns (c : Thread nD τ) scM1 fullShare s)
      ∗ (∃ r, prngReg c r)) := by
  rw [Φ1_castSucc]
  by_cases hz : t.val = 0
  · rw [Phi1_zero V c _ _ hz]
    refine (PhiA1_open c).trans ?_
    iintro ⟨HR, ⟨%s, HS⟩, Hg⟩
    isplitl [HR]; · iexact HR
    isplitl [HS]
    · iexists s; isplitr; · ipureintro; exact fun hn => absurd hz hn
      iexact HS
    iexact Hg
  · rw [Phi1_pos V c _ _ hz]
    iintro ⟨HR, HS, Hg⟩
    isplitl [HR]; · iexact HR
    isplitl [HS]
    · iexists _; isplitr; · ipureintro; exact fun _ => rfl
      iexact HS
    iexact Hg

/-! ## Where a point lies in its batch -/

/-- The second coordinate of point `t` — the head pair — is `t` modulo 6: the pairs of a batch are consecutive. -/
theorem coord1_1 (t : Fin cfg1.N) : ((grid1.coords t) 1).val = t.val % 6 := by
  show t.val / grid1.stride 1 % grid1.bound 1 = t.val % 6
  rw [show grid1.stride 1 = 1 from by decide, Nat.div_one]
  rfl

/-- The accumulator is zeroed exactly at the points that are 0 modulo 6, -/
theorem cond1_mod (t : Fin cfg1.N) : k1_cond1 (grid1.coords t) = 1#1 ↔ t.val % 6 = 0 := by
  rw [k1_cond1_iff, coord1_1]

/-- and the output block is written exactly at those that are 5 modulo 6. -/
theorem cond2_mod (t : Fin cfg1.N) : k1_cond2 (grid1.coords t) = 1#1 ↔ t.val % 6 = 5 := by
  rw [k1_cond2_iff, coord1_1]

/-- Elsewhere the configuration calls the output block idle, -/
theorem idle1_6 (t : Fin cfg1.N) (h : ¬t.val % 6 = 5) : cfg1.idle 6 (cfg1.grid.coords t) = true := by
  show (!(k1_cond2 (grid1.coords t) == 1#1)) = true
  rw [Bool.not_eq_true', beq_eq_false_iff_ne]
  exact fun e => h ((cond2_mod t).mp e)

/-- there it is live, -/
theorem live1_6 (t : Fin cfg1.N) (h : t.val % 6 = 5) : cfg1.idle 6 (cfg1.grid.coords t) = false := by
  show (!(k1_cond2 (grid1.coords t) == 1#1)) = false
  rw [Bool.not_eq_false', beq_iff_eq]
  exact (cond2_mod t).mpr h

/-- and elsewhere the pipeline does not write it back. -/
theorem noflush1_6 (t : Fin cfg1.N) (h : ¬t.val % 6 = 5) : (cfg1.win 6).flush t = false := by
  rw [← Bool.not_eq_true]; exact fun e => h ((flush1_6 t).mp e)

/-! ## One step of the accumulation -/

/-- At the first pair of a batch the body zeroes the accumulator before adding to it, so what it held does not matter. -/
theorem acc1_of_first (i : grid1.Coords) (h : k1_cond1 i = 1#1) (x0 x1 x2 : Vec F S1x1024x128 .bf16) (x3 : Vec F S128x768 .bf16)
    (s s' : Vec F S1024x768 .f32) : acc1 i x0 x1 x2 x3 s = acc1 i x0 x1 x2 x3 s' := by
  rw [acc1_eq, acc1_eq, if_pos h, if_pos h]

/-- The body at point `t`, started on an accumulator that — after the first point — holds what the point before left,
    leaves the accumulator of point `t`. At the first point the start value is arbitrary and is zeroed. -/
theorem acc_step (c : Dev nD) (t : Fin cfg1.N) (s : Vec F S1024x768 .f32)
    (hs : ∀ hn : t.val ≠ 0, s = accAt1 V c (t.val - 1) (Nat.lt_of_le_of_lt (Nat.sub_le _ _) t.isLt)) :
    acc1 (grid1.coords t) (iblk1 V c 0 t) (iblk1 V c 1 t) (iblk1 V c 2 t) (iblk1 V c 3 t) s = accAt1 V c t.val t.isLt := by
  obtain ⟨n, hn⟩ := t
  cases n with
  | zero =>
    rw [accAt1_zero]
    exact acc1_of_first _ ((cond1_mod ⟨0, hn⟩).mpr (Nat.zero_mod _)) _ _ _ _ _ _
  | succ n =>
    have e := hs (Nat.succ_ne_zero n)
    subst e
    exact (accAt1_succ V c n hn).symm

/-! ## What the body finds in the input buffers -/

/-- The query block's buffer holds the block of the current point: it is copied in at every point. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; rfl

/-- Likewise the key block's, -/
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; rfl

/-- the value block's, -/
theorem before1_2 (c : Dev nD) (t : Fin cfg1.N) (d) : (dat1 V c).before 2 t d = iblk1 V c 2 t := by
  rw [(dat1 V c).before_fetched 2 t (fetch1_2 t) d]
  unfold Dat.fetched Dat.blockOf iblk1; rw [A_eq1]; rfl

/-- and the buffer of the projection weights' slice. -/
theorem before1_3 (c : Dev nD) (t : Fin cfg1.N) (d) : (dat1 V c).before 3 t d = iblk1 V c 3 t := by
  rw [(dat1 V c).before_fetched 3 t (fetch1_3 t) d]
  unfold Dat.fetched Dat.blockOf iblk1; rw [A_eq1]; rfl

/-- The bias row's buffer holds the whole row at every point although it is copied in at the first point only: its
    block index never moves, and the body leaves the buffer as it finds it. -/
theorem before1_4 (c : Dev nD) (t : Fin cfg1.N) (d) : (dat1 V c).before 4 t d = iblk1 V c 4 t := by
  rw [(dat1 V c).before_in_eq_fetched 4 rfl (fun _ => rfl) (fun _ _ _ => rfl)
    (fun u => by rw [after1_4]; unfold Dat.blockOf iblk1; rw [A_eq1]) t d]
  unfold Dat.fetched Dat.blockOf iblk1; rw [A_eq1]; rfl

/-! ## What the body leaves in the output block's buffer -/

/-- Whatever the point: the buffer the body hands back for the output block is what the proof data ask of it. At the
    last pair of a batch the body has stored the finished accumulator plus the bias row, which is the stated contents;
    elsewhere it has not touched the buffer, and the point is idle for the block and does not write it back. -/
theorem leaves1_6 (c : Dev nD) (t : Fin cfg1.N) (s : Vec F S1024x768 .f32)
    (hs : ∀ hn : t.val ≠ 0, s = accAt1 V c (t.val - 1) (Nat.lt_of_le_of_lt (Nat.sub_le _ _) t.isLt)) (d6) :
    owns (c : Thread nD τ) (st1_6 t) fullShare
        (if k1_cond2 (grid1.coords t) = 1#1 then
          outb1 (grid1.coords t) (iblk1 V c 0 t) (iblk1 V c 1 t) (iblk1 V c 2 t) (iblk1 V c 3 t) (iblk1 V c 4 t) s
        else (dat1 V c).before 6 t d6)
      ⊢ ((dat1 V c).leavesExact 6 t : sProp 𝕄) := by
  by_cases h5 : t.val % 6 = 5
  · rw [if_pos ((cond2_mod t).mpr h5), outb1_eq, acc_step V c t s hs]
    rw [show (dat1 V c).leavesExact 6 t = owns (c : Thread nD τ) (st1_6 t) fullShare ((dat1 V c).after 6 t) from by
      unfold Dat.leavesExact; rw [live1_6 t h5], after1_6]
  · rw [if_neg (fun e => h5 ((cond2_mod t).mp e)), Dat.leavesExact_idle (dat1 V c) 6 t (idle1_6 t h5) (noflush1_6 t h5)]
    iintro H; iexists d6; iexact H

/-! ## The body obligation -/

/-- What the body is handed at point `t`: the invariant, the core's debts, and the seven current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- At any point: the five input buffers hold their blocks, the invariant yields the accumulator's buffer (after the
    first point at what the point before left), so the body's triple applies; it returns the inputs untouched, the
    attention block, the accumulator of this point — which the invariant takes back — and the output block's buffer
    as the proof data ask. The other region's buffers, the generator register and the debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, Φ1_succ,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from rfl,
    show (dat1 V c).leavesExact 4 t = owns (c : Thread nD τ) (st1_4 t) fullShare ((dat1 V c).after 4 t) from rfl,
    show (dat1 V c).leavesExact 5 t = owns (c : Thread nD τ) (st1_5 t) fullShare ((dat1 V c).after 5 t) from rfl,
    after1_0, after1_1, after1_2, after1_3, after1_4, after1_5]
  refine (sep_mono (Φ1_open V c t) Entails.rfl).trans ?_
  iintro ⟨⟨HR, ⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) ((dat1 V c).before 6 t d6) s _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  rw [acc_step V c t s hs]
  isplitl [HR HS Hg]
  · isplitl [HR]; · iexact HR
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves1_6 V c t s hs d6)
  iexact H6

/-- The library's body obligation for region 1: the seven windows written out one by one, then `sound_body1`. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HRun.lean ====
/- The run of the two-region program. The buffer contents of the core at each of the five boundaries of @main
   (launch; after the first stretch of host operations; after the linear layer's region; after the second stretch;
   after the attention region), the proof data of both pipelines at their regions' entry contents, each region as a
   segment over the thread state "every unscoped buffer whole at the boundary's contents, the generator register at
   some state, nothing owed", and the launch over the four segments. The last theorem of the run says that every
   final state holds every unscoped buffer at the last boundary's contents; the frame claim and the value claim
   are both read off it.

   The second region is handed ONE array (the packed q/k/v activations) through three of its windows. Its entry
   therefore deals that array's full share among the three windows (a half and two quarters), and its exit joins
   the three parts again: no window writes the array, so the three parts still agree on its contents. -/
import proofs.«402962_j1709396984003_3_alg».proof.Proof.HRegion0
import proofs.«402962_j1709396984003_3_alg».proof.Proof.HRegion1
import proofs.«402962_j1709396984003_3_alg».proof.Proof.Gen.KernelIdeal.Launch
import proofs.«402962_j1709396984003_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- The core's buffers at launch. -/
abbrev W0 (m : (ℓ : Loc nD τ sig) → Buf (Elt F) ℓ) (ρ : Dev nD → PrngReg) : Dev nD → Valuation τ sig (Elt F) :=
  fun c b => m (c, b)
/-- After the first stretch of host operations: the weights transposed and rounded to bf16, the bias as a row, the
    activations as one 8192-row matrix. The linear layer's region is entered from here. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the linear layer's region: its four arrays at what the write-backs of all 8 points leave (the three
    inputs as entered), every other buffer as entered. -/
def W2 (c : Dev nD) : Valuation τ sig (Elt F) :=
  Pipeline.withArrays spec0 c (W1 m ρ c) fun w => (dat0 (V1 m ρ) c).arrAt w cfg0.N
/-- After the second stretch of host operations: the layer's output as a batch of 8, the projection weights
    transposed and rounded to bf16, the projection bias as a row. The attention region is entered from here. -/
abbrev W3 : Dev nD → Valuation τ sig (Elt F) := fun c => StableHlo.after hostOps1 (W2 m ρ c)
/-- The same, read at the core's own references. -/
abbrev V3 : (c : Dev nD) → (b : Ref sig .tc) → Buf (Elt F) ((c : Thread nD τ).loc b) := fun c b => W3 m ρ c b
/-- After the attention region: its two output arrays at what the write-backs of all 48 points leave, every other
    buffer (the five input arrays among them) as entered. -/
def W4 (c : Dev nD) : Valuation τ sig (Elt F) :=
  Function.update (Function.update (W3 m ρ c) (Proc.devRef .tc main_v0_1) ((dat1 (V3 m ρ) c).arrAt 5 cfg1.N))
    (Proc.devRef .tc main_v0_0) ((dat1 (V3 m ρ) c).arrAt 6 cfg1.N)

/-- Each array of the linear layer's region at the region's exit. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the four is as the region found it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The core's own references at the linear layer's exit. -/
abbrev V2 : (c : Dev nD) → (b : Ref sig .tc) → Buf (Elt F) ((c : Thread nD τ).loc b) := fun c b => W2 m ρ c b
/-- The core's own references at the attention region's exit. -/
abbrev V4 : (c : Dev nD) → (b : Ref sig .tc) → Buf (Elt F) ((c : Thread nD τ).loc b) := fun c b => W4 m ρ c b

/-- The linear layer's output array at the region's exit. -/
theorem W2_v4 (c : Dev nD) : W2 m ρ c (Proc.devRef .tc main_call0_v4) = (dat0 (V1 m ρ) c).arrAt 3 cfg0.N :=
  W2_arr m ρ c 3

/-- The projected output's array at the end: the last update of the two. -/
theorem W4_v0_0 (c : Dev nD) : W4 m ρ c (Proc.devRef .tc main_v0_0) = (dat1 (V3 m ρ) c).arrAt 6 cfg1.N := by
  unfold W4; exact Function.update_self _ _ _
/-- The attention weights' array at the end: the second update is at another buffer. -/
theorem W4_v0_1 (c : Dev nD) : W4 m ρ c (Proc.devRef .tc main_v0_1) = (dat1 (V3 m ρ) c).arrAt 5 cfg1.N := by
  unfold W4
  rw [Function.update_of_ne (StableHlo.devRef_ne_of_ne (by decide))]
  exact Function.update_self _ _ _
/-- Off the two output arrays the attention region changes nothing. -/
theorem W4_of_ne (c : Dev nD) (b : Ref sig .tc) (h1 : b ≠ main_v0_1) (h0 : b ≠ main_v0_0) :
    W4 m ρ c (Proc.devRef .tc b) = W3 m ρ c (Proc.devRef .tc b) := by
  unfold W4
  rw [Function.update_of_ne (StableHlo.devRef_ne_of_ne h0), Function.update_of_ne (StableHlo.devRef_ne_of_ne h1)]

/-- A buffer that no host operation writes and that is no array of the first region nor an output of the second
    holds at the end what it held at launch: each of the four steps of the fold leaves it alone. -/
theorem W4_untouched (c : Dev nD) (b : Ref sig .tc) (h1 : b ≠ main_v0_1) (h0 : b ≠ main_v0_0)
    (hB : b ∉ (hostOps1_W : List (Ref sig .tc))) (hR : ∀ w, Pipeline.arrRef spec0 w ≠ b)
    (hA : b ∉ (hostOps0_W : List (Ref sig .tc))) :
    W4 m ρ c (Proc.devRef .tc b) = m ((c : Thread nD τ).loc b) :=
  (W4_of_ne m ρ c b h1 h0).trans <|
    (StableHlo.after_of_writes_sub hostOps1 _ hostOps1_writes hB).trans <|
      (W2_of_ne m ρ c b hR).trans <|
        (StableHlo.after_of_writes_sub hostOps0 _ hostOps0_writes hA).trans rfl

theorem W4_main_arg0 (c : Dev nD) : W4 m ρ c (Proc.devRef .tc main_arg0) = m ((c : Thread nD τ).loc main_arg0) :=
  W4_untouched m ρ c main_arg0 (by decide) (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide) (by decide)

/-! ## The attention region's arrays: seven windows on five buffers

The query, key and value windows all read the packed activations; the other four windows have a buffer each. The
proof data hold the packed array at a half and two quarters of the full share, one per window. -/

section Shared

variable (V : (c : Dev nD) → (b : Ref sig .tc) → Buf (Elt F) ((c : Thread nD τ).loc b))

theorem share1_0 (c : Dev nD) : (dat1 V c).share 0 = fullShare.left := (if_neg (by decide)).trans (q1_0 V c)
theorem share1_1 (c : Dev nD) : (dat1 V c).share 1 = fullShare.right.left := (if_neg (by decide)).trans (q1_1 V c)
theorem share1_2 (c : Dev nD) : (dat1 V c).share 2 = fullShare.right.right := (if_neg (by decide)).trans (q1_2 V c)
theorem share1_3 (c : Dev nD) : (dat1 V c).share 3 = fullShare := (if_neg (by decide)).trans (q1_3 V c)
theorem share1_4 (c : Dev nD) : (dat1 V c).share 4 = fullShare := (if_neg (by decide)).trans (q1_4 V c)
theorem share1_5 (c : Dev nD) : (dat1 V c).share 5 = fullShare := if_pos (by decide)
theorem share1_6 (c : Dev nD) : (dat1 V c).share 6 = fullShare := if_pos (by decide)

/-- The five distinct buffers behind the seven windows, each whole. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_call0_v5) ↦{fullShare} V' main_call0_v5)
          ∗ (((c : Thread nD τ).loc main_call0_v7) ↦{fullShare} V' main_call0_v7)
          ∗ (((c : Thread nD τ).loc main_call0_v8) ↦{fullShare} V' main_call0_v8)
          ∗ (((c : Thread nD τ).loc main_v0_1) ↦{fullShare} V' main_v0_1)
          ∗ (((c : Thread nD τ).loc main_v0_0) ↦{fullShare} V' main_v0_0)) := by
  unfold Pipeline.arrBufs
  exact bigSep_eq_bigSepL_of_eq [main_call0_v5, main_call0_v7, main_call0_v8, main_v0_1, main_v0_0] (by decide) (by decide) _

/-- The pipeline's seven arrays window by window: the packed activations three times, at the three parts of the
    full share, then the four buffers held whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_call0_v5) ↦{fullShare.left} G 0)
          ∗ (((c : Thread nD τ).loc main_call0_v5) ↦{fullShare.right.left} G 1)
          ∗ (((c : Thread nD τ).loc main_call0_v5) ↦{fullShare.right.right} G 2)
          ∗ (((c : Thread nD τ).loc main_call0_v7) ↦{fullShare} G 3)
          ∗ (((c : Thread nD τ).loc main_call0_v8) ↦{fullShare} G 4)
          ∗ (((c : Thread nD τ).loc main_v0_1) ↦{fullShare} G 5)
          ∗ (((c : Thread nD τ).loc main_v0_0) ↦{fullShare} G 6)) := by
  -- the first three windows read one array, so one equation covers the three
  have h0 : (cfg1.win 0).arr.view.set = Finset.univ := (arr_whole1 0).set_eq_univ
  have h3 : (cfg1.win 3).arr.view.set = Finset.univ := (arr_whole1 3).set_eq_univ
  have h4 : (cfg1.win 4).arr.view.set = Finset.univ := (arr_whole1 4).set_eq_univ
  have h5 : (cfg1.win 5).arr.view.set = Finset.univ := (arr_whole1 5).set_eq_univ
  have h6 : (cfg1.win 6).arr.view.set = Finset.univ := (arr_whole1 6).set_eq_univ
  unfold Dat.arrays
  rw [bigSep_W1, h0, h3, h4, h5, h6, share1_0, share1_1, share1_2, share1_3, share1_4, share1_5, share1_6]

end Shared

/-! ## The entries and exits of the two regions, the buffers' part -/

/-- The full share of a buffer as a half and two quarters, and back: the full share is its two halves, and the
    right half its own two halves. -/
theorem pointsTo_deal3 {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) :=
  ⟨(pointsTo_share (PosShare.mem_left_op_right fullShare)).mp.trans
      (sep_mono .rfl (pointsTo_share (PosShare.mem_left_op_right fullShare.right)).mp),
    (sep_mono .rfl (pointsTo_share (PosShare.mem_left_op_right fullShare.right)).mpr).trans
      (pointsTo_share (PosShare.mem_left_op_right fullShare)).mpr⟩

section Shared

variable (V : (c : Dev nD) → (b : Ref sig .tc) → Buf (Elt F) ((c : Thread nD τ).loc b))

/-- The five buffers whole at contents `V'` make the seven arrays at any contents `G` that read `V'` window by
    window: the packed activations are dealt among their three windows. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (h0 : G 0 = V' main_call0_v5) (h1 : G 1 = V' main_call0_v5) (h2 : G 2 = V' main_call0_v5)
    (h3 : G 3 = V' main_call0_v7) (h4 : G 4 = V' main_call0_v8) (h5 : G 5 = V' main_v0_1) (h6 : G 6 = V' main_v0_0) :
    (Pipeline.arrBufs (Ix := Unit) (Name := ℕ) (U := UR sig nD τ) (Lvl := ℕ) spec1 c V' : sProp 𝕄) ⊢ (dat1 V c).arrays G := by
  rw [arrBufs1_eq, arrays1_eq, h0, h1, h2, h3, h4, h5, h6]
  exact sep_mono (pointsTo_deal3 _).mp .rfl |>.trans sep_assoc.mp |>.trans (sep_mono .rfl sep_assoc.mp)

/-- Back: the three parts of the packed activations, which agree on the contents, join to the whole buffer. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_call0_v5) (h1 : G 1 = V' main_call0_v5) (h2 : G 2 = V' main_call0_v5)
    (h3 : G 3 = V' main_call0_v7) (h4 : G 4 = V' main_call0_v8) (h5 : G 5 = V' main_v0_1) (h6 : G 6 = V' main_v0_0) :
    ((dat1 V c).arrays G : sProp 𝕄) ⊢ Pipeline.arrBufs (Ix := Unit) (Name := ℕ) (U := UR sig nD τ) (Lvl := ℕ) spec1 c V' := by
  rw [arrBufs1_eq, arrays1_eq, h0, h1, h2, h3, h4, h5, h6]
  exact (sep_mono .rfl sep_assoc.mpr) |>.trans sep_assoc.mpr |>.trans (sep_mono (pointsTo_deal3 _).mpr .rfl)

end Shared

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no level is ever assigned. -/
abbrev L : GSem nD τ sig → Finset Unit := fun _ => ∅
abbrev lv : GSem nD τ sig → Unit → ℕ := fun _ _ => 0
/-- What the core holds beside its buffers between any two segments: its generator register at some state, and
    that it owes no other core anything. -/
abbrev R (c : Dev nD) : sProp 𝕄 := iprop((∃ r, prngReg c r) ∗ ∃ W, owes (c : Thread nD τ) (0 : CellTallies nD τ sig Unit) W)
/-- A stretch of host operations as a segment: the unscoped buffers go from contents `W` to what the operations
    leave, `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-- A core that owes nothing holds its debts as the pipeline wants them at a point where the proof data owe
    nothing and bound the recorded pairs by nothing. -/
theorem owesAt_intro {cfg : Pipeline.Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, HO⟩
  iexists W
  isplitr
  · ipureintro; exact fun _ _ => Or.inl trivial
  · iexact HO
/-- And back, the bound forgotten. -/
theorem owesAt_elim {cfg : Pipeline.Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO
/-- A pipeline with no prefetched table holds none. -/
theorem prefHeld_none (c : Dev nD) (q : Fin (Pipeline.Prefetch.none (sig := sig)).K → PosShare TreeShare) (v) :
    (BI.emp : sProp 𝕄) ⊢ Pipeline.prefHeld Pipeline.Prefetch.none c q v := by
  unfold Pipeline.prefHeld
  rw [show (Finset.univ : Finset (Fin 0)) = ∅ from rfl, BI.bigSep_empty]

/-- ENTRY of the attention region, the buffers' part: every unscoped buffer at the entry contents is the region's
    seven arrays at their entry contents and the buffers that bypass the region. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [← Pipeline.unscopedBufs_held c (W3 m ρ c), Pipeline.unscopedBufs_split₀ cfgs 1 winFacts₀1.arr_unscoped c]
  exact sep_mono (arrays1_of_bufs (V3 m ρ) c (V3 m ρ c) _ (A_eq1 (V3 m ρ) c 0) (A_eq1 (V3 m ρ) c 1) (A_eq1 (V3 m ρ) c 2)
    (A_eq1 (V3 m ρ) c 3) (A_eq1 (V3 m ρ) c 4) (A_eq1 (V3 m ρ) c 5) (A_eq1 (V3 m ρ) c 6)) .rfl

/-- EXIT of the attention region, the buffers' part: the five input windows' arrays are as entered (an input array is
    never written back), the two outputs hold what the write-backs of all points leave; with the bypassing buffers
    they are every unscoped buffer at the last boundary's contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have hin : ∀ w : Fin cfg1.W, (cfg1.win w).isOut = false → Pipeline.arrRef spec1 w ≠ main_v0_1 →
      Pipeline.arrRef spec1 w ≠ main_v0_0 → (dat1 (V3 m ρ) c).arrAt w cfg1.N = V4 m ρ c (Pipeline.arrRef spec1 w) :=
    fun w hw h1 h0 =>
      ((dat1 (V3 m ρ) c).arrAt_in w hw _).trans ((A_eq1 (V3 m ρ) c w).trans (W4_of_ne m ρ c _ h1 h0).symm)
  rw [← Pipeline.unscopedBufs_held c (W4 m ρ c), Pipeline.unscopedBufs_split₀ cfgs 1 winFacts₀1.arr_unscoped c]
  refine sep_mono (bufs_of_arrays1 (V3 m ρ) c (V4 m ρ c) _ (hin 0 rfl (by decide) (by decide))
    (hin 1 rfl (by decide) (by decide)) (hin 2 rfl (by decide) (by decide))
    (hin 3 rfl (by decide) (by decide)) (hin 4 rfl (by decide) (by decide))
    (W4_v0_1 m ρ c).symm (W4_v0_0 m ρ c).symm) (Entails.of_eq ?_)
  unfold Pipeline.unscopedRest
  refine bigSep_congr fun b hb => ?_
  have hb' := (Finset.mem_sdiff.mp hb).2
  exact congrArg (pointsTo ((c : Thread nD τ).loc b) Finset.univ fullShare) (W4_of_ne m ρ c b
    (fun e => hb' (Finset.mem_image.mpr ⟨5, Finset.mem_univ _, e.symm⟩))
    (fun e => hb' (Finset.mem_image.mpr ⟨6, Finset.mem_univ _, e.symm⟩))).symm

/-- ENTRY of the linear layer's region, the buffers' part: its four arrays are distinct buffers, each held whole. -/
theorem entry0 (c : Dev nD) :
    (StableHlo.held (c : Thread nD τ) (Pipeline.ucRefs τ sig) (W1 m ρ c) : sProp 𝕄)
      ⊢ iprop((pdats m ρ 0 c).arrays ((pdats m ρ 0 c).arrAt · 0)
          ∗ Pipeline.unscopedRest (Ix := Unit) (Name := ℕ) (U := UR sig nD τ) (Lvl := ℕ) spec0 c (V1 m ρ c)) := by
  rw [← Pipeline.unscopedBufs_held c (W1 m ρ c)]
  exact Pipeline.arrays_of_unscopedBufs (p := 0) (pcfgs (F := F)) adm (pdats m ρ) launch0.win launch0.arr_whole c
    ((pdats m ρ 0 c).share_full fun _ => rfl) (V1 m ρ c) fun _ => rfl

/-- EXIT of the linear layer's region, the buffers' part: the arrays at what the write-backs leave and the bypassing
    buffers as entered are every unscoped buffer at the second boundary's contents. -/
theorem exit0 (c : Dev nD) :
    iprop((pdats m ρ 0 c).arrays ((pdats m ρ 0 c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c)]
  exact Pipeline.unscopedBufs_of_arrays (p := 0) (pcfgs (F := F)) adm (Ix := Unit) (Name := ℕ) (U := UR sig nD τ) (Lvl := ℕ)
    launch0.win launch0.arr_whole c (pdats m ρ) ((pdats m ρ 0 c).share_full fun _ => rfl)
    (V1 m ρ c) (V2 m ρ c) ((pdats m ρ 0 c).arrAt · cfg0.N) (fun w => (W2_arr m ρ c w).symm)
    (fun b hb => W2_of_ne m ρ c b fun w e => hb (Finset.mem_image.mpr ⟨w, Finset.mem_univ _, e⟩))

/-! ## The regions as segments -/

set_option backward.isDefEq.respectTransparency.types false in
/-- The linear layer's region over the thread state: entered from every unscoped buffer at the first boundary's
    contents, left at the second's. The generator register goes into the region's invariant and comes back; nothing
    is owed at either end; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    iintro ⟨⟨Hh, Hp, HO⟩, -, -⟩
    ihave Ha := (entry0 m ρ c) $$ Hh
    icases Ha with ⟨Ha, Hz⟩
    ihave HO := (owesAt_intro (pdats m ρ 0 c) 0 rfl rfl) $$ HO
    imodintro
    isplitl [Ha]; · iexact Ha
    isplitr
    · iapply (prefHeld_none c _ _); iempintro
    isplitl [HO]; · iexact HO
    isplitl [Hp]; · iexact Hp
    iexact Hz
  hin c := by
    show _ ⊢ Pipeline.ΦA spec0 c
    unfold Pipeline.ΦA
    iintro ⟨Hp, -, Hs⟩
    isplitl [Hs]; · iexact Hs
    iexact Hp
  hout c := by
    rw [Pipeline.ownSems0_none]
    show Pipeline.ΦA spec0 c ⊢ _
    unfold Pipeline.ΦA
    iintro ⟨Hs, Hp⟩
    isplitl [Hp]; · iexact Hp
    isplitr; · iempintro
    iexact Hs
  hexit c := by
    iintro ⟨Ha, HO, Hp, Hz⟩
    ihave Hh := (exit0 m ρ c) $$ [Ha Hz]
    · isplitl [Ha]; · iexact Ha
      iexact Hz
    ihave HO := (owesAt_elim (pdats m ρ 0 c) (Fin.last _) rfl) $$ HO
    imodintro
    isplitl [Hh]; · iexact Hh
    isplitl [Hp]; · iexact Hp
    iexact HO

set_option backward.isDefEq.respectTransparency.types false in
/-- The attention region over the thread state: entered from every unscoped buffer at the third boundary's
    contents, left at the last's. At the entry the packed activations' full share is dealt among the three windows
    that read it, at the exit the three parts are joined again. The region's invariant starts as the core's scoped
    memory outside this region's staging buffers and the generator register, carries the accumulator from point to
    point, and ends as it started. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    iintro ⟨⟨Hh, Hp, HO⟩, -, -⟩
    ihave Ha := (entry1 m ρ c) $$ Hh
    icases Ha with ⟨Ha, Hz⟩
    ihave HO := (owesAt_intro (dat1 (V3 m ρ) c) 0 (owed1 (V3 m ρ) c 0) rfl) $$ HO
    imodintro
    isplitl [Ha]; · iexact Ha
    isplitr
    · iapply (prefHeld_none c _ _); iempintro
    isplitl [HO]; · iexact HO
    isplitl [Hp]; · iexact Hp
    iexact Hz
  hin c := by
    show _ ⊢ (dat1 (V3 m ρ) c).Φ 0
    rw [Φ1_first]
    unfold Pipeline.ΦA
    iintro ⟨Hp, -, Hs⟩
    isplitl [Hs]; · iexact Hs
    iexact Hp
  hout c := by
    rw [Pipeline.ownSems0_none]
    refine (show (pdats m ρ 1 c).Φ (Fin.last _) ⊢ Pipeline.ΦA spec1 c from Φ1_last (V3 m ρ) c).trans ?_
    unfold Pipeline.ΦA
    iintro ⟨Hs, Hp⟩
    isplitl [Hp]; · iexact Hp
    isplitr; · iempintro
    iexact Hs
  hexit c := by
    iintro ⟨Ha, HO, Hp, Hz⟩
    ihave Hh := (exit1 m ρ c) $$ [Ha Hz]
    · isplitl [Ha]; · iexact Ha
      iexact Hz
    ihave HO := (owesAt_elim (pdats m ρ 1 c) (Fin.last _) (owed1 (V3 m ρ) c _)) $$ HO
    imodintro
    isplitl [Hh Hp]
    · isplitl [Hh]; · iexact Hh
      iexact Hp
    iexact HO

/-! ## @main as segments, and the launch -/

/-- The launch's ghost element is the pipelines' own, and no core is dealt a ghost resource beside it. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

/-- The last thread state beside a final state's interpretation: that state's memory holds every unscoped buffer
    of the core at the last boundary's contents. -/
theorem read_end (c : Dev nD) (s' : Phys nD τ sig (Elt F)) :
    iprop(Tₙ m ρ c ∗ SI s')
      ⊢ (|={Set.univ}=> iprop(⌜∀ b ∈ Pipeline.ucRefs τ sig, s'.mem.mem (((c : Thread nD τ)).1, b) = W4 m ρ c b⌝ ∗ SI s') : sProp 𝕄) := by
  iintro ⟨⟨Hh, -⟩, HSI⟩
  imodintro
  iapply (pointsTo_read_all (Pipeline.ucRefs τ sig) (fun b => (((c : Thread nD τ)).1, b)) (W4 m ρ c) s')
  isplitl [Hh]
  · unfold StableHlo.held; iexact Hh
  · iexact HSI

/-- @main's four segments in order: the first host stretch, the linear layer, the second host stretch, attention. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the four segments. -/
theorem main_run (c : Dev nD) : main (F := F) c = Pipeline.Seg.run (segs m ρ) := (main_chain c).trans (by chain_rfl)

set_option backward.isDefEq.respectTransparency.types false in
/-- THE RUN. Every weakly fair execution of @main from memory `m` with zero counters terminates, and in every final
    state each unscoped buffer of the core holds the last boundary's contents: the launch makes the first thread
    state on the core, the four segments chain by name, and the last thread state is read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := read_end m ρ)
    (hQ := fun s h => h)

/-- The frame claim: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

/-- The value claim's run: the two result arrays end at what the attention region's write-backs leave, the five
    argument arrays as launched. -/
theorem run_values : θ_run defs (onTc (τ := τ) (main (F := F))) ⟨m, fun _ => 0, ρ⟩ (fun r => ∀ c : Dev nD,
      r.2.mem ((c.tc : Thread nD τ).loc main_v0_0) = (dat1 (V3 m ρ) c).arrAt 6 cfg1.N
      ∧ r.2.mem ((c.tc : Thread nD τ).loc main_v0_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v0_0 (by decide))).trans (W4_v0_0 m ρ c),
      (h c _ (mem_uc main_v0_1 (by decide))).trans (W4_v0_1 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

end Cert.KernelIdeal.Hand

end
-- ==== Proof.BRegion0.lean ====
/- Region 0 of the program: the tiled linear layer. At each of the 8 grid points the body takes a
   1024x768 block of the activations (f32), the whole 768x2304 weight matrix (bf16) and the 1x2304 bias row (f32),
   and leaves bf16(block · weights + bias) in the 1024x2304 output block. This module states that half of the frame
   at arbitrary buffer contents `V` on entry to the region: what each window's block is, what the body leaves in the
   output block as a closed function of the three input blocks, and that the body, run on buffers holding those
   blocks, runs to the end and leaves exactly that. -/
import proofs.«402962_j1709396984003_3_alg».proof.Proof.Gen.Kernel.Launch
import proofs.«402962_j1709396984003_3_alg».proof.Proof.Gen.Kernel.Skeleton
import proofs.«402962_j1709396984003_3_alg».proof.Proof.Gen.Kernel.Points
import Idealize.ShloMosaic.Lib.Pipeline.FrameBody
import Idealize.ShloMosaic.Lib.Ring
import Idealize.ShloMosaic.Lib.Tactic

-- deciding that one rectangle of 1024 x 2304 entries fills its shape walks the long axes coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects there. For window 0 the `t`-th band of 1024 rows of the activations; for windows 1
    and 2 the whole weight matrix and the whole bias row at every point; for window 3 the `t`-th band of 1024 rows
    of the output array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body touches: each is the whole of its buffer -/

abbrev r0_0 : Rect S1024x768 := Rect.unit (s := S1024x768) ![0, 0] S1024x768.size inb_S1024x768_S1024x768_0_0
abbrev r0_1 : Rect S768x2304 := Rect.unit (s := S768x2304) ![0, 0] S768x2304.size inb_S768x2304_S768x2304_0_0
abbrev r0_2 : Rect S1x2304 := Rect.unit (s := S1x2304) ![0, 0] S1x2304.size inb_S1x2304_S1x2304_0_0
abbrev r0_3 : Rect S1024x2304 := Rect.unit (s := S1024x2304) ![0, 0] S1024x2304.size inb_S1024x2304_S1024x2304_0_0

/-! ## What the body leaves in the output block -/

/-- The output buffer after the body, from the three input blocks: one store over the whole buffer, whose payload
    is the matrix product of the activations (rounded to bf16) with the weights, accumulated in f32, plus the bias
    row repeated down the 1024 rows, rounded to bf16. -/
def out0_3 (x0 : Vec F S1024x768 .f32) (x1 : Vec F S768x2304 .bf16) (x2 : Vec F S1x2304 .f32) : Vec F S1024x2304 .bf16 :=
  View.canon [⟨r0_3, k0_pay1 (View.ld x0 r0_0) (View.ld x1 r0_1) (View.ld x2 r0_2)⟩]

/-- The one store's rectangle is the whole 1024 x 2304 buffer, so every index of the buffer lies under it. -/
theorem cover0_3 (p0 : Vec F S1024x2304 .bf16) (y : S1024x2304.Idx) :
    ∃ pc ∈ ([⟨r0_3, p0⟩] : List (View.Piece (Elt F) S1024x2304 .bf16)), y ∈ pc.1.set :=
  View.cover_of_tiled [⟨r0_3, p0⟩] S1024x2304.size (by rfl) y

/-! ## The body's triple -/

set_option maxHeartbeats 1000000 in
/-- The body on four whole buffers — the three inputs' reading `x0`, `x1`, `x2`, the output's anything — runs to
    the end: it loads the three inputs whole, loads the output buffer too (a value it never uses), and stores the
    payload over the whole output buffer. The inputs are left as they were; the output buffer reads `out0_3 x0 x1 x2`. -/
theorem sound_kernel0 (c : Dev nD) (E : Set ℕ) (i : grid0.Coords)
    (arg1 : Memref sig .tc .vmem S1024x768 .f32) (harg1 : arg1.IsWhole)
    (arg2 : Memref sig .tc .vmem S768x2304 .bf16) (harg2 : arg2.IsWhole)
    (arg3 : Memref sig .tc .vmem S1x2304 .f32) (harg3 : arg3.IsWhole)
    (arg4 : Memref sig .tc .vmem S1024x2304 .bf16) (harg4 : arg4.IsWhole)
    (x0 : Vec F S1024x768 .f32) (x1 : Vec F S768x2304 .bf16) (x2 : Vec F S1x2304 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the pipeline -/

/-- The arrays are what the region finds; after the body at point `t` the three input buffers still hold their
    blocks and the output buffer holds `out0_3` of them; the invariant carried from point to point is the rest of
    the core's scoped memory and the generator register, none of which the body touches; full shares, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by
  dsimp only [dat0]

/-! ## What the body finds in the input buffers -/

/-- The activations' buffer holds the block of the current point: the window's row band moves at every point and is
    fetched at every point, the body only reads it. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The weights' buffer holds the whole weight matrix at every point, although it is copied in at the first point
    only: its block index never moves and the body leaves the buffer as it finds it. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Likewise the bias row's buffer: copied in once, never moved, never written. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body obligation -/

/-- What the body is handed at point `t`: the invariant, the core's debts, and the four current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the input buffers hold their blocks, so the body's triple applies at those blocks; the invariant
    and the debts do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0: the four windows written out one by one, then `sound_body0`. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BRegion1Kernel.lean ====
/- Region 1's kernel body (two attention heads and the accumulated output projection at one grid point) as one
   separation-logic triple, covering every case of its two conditions: whether the point is the first of its batch
   (the accumulator is zeroed) and whether it is the last (the accumulator plus the bias is written out). -/
import proofs.«402962_j1709396984003_3_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The two conditions -/

/-- The condition under which the accumulator is zeroed, as the body computes it from the second grid coordinate:
    `(j == 0)` widened to a word and compared with zero. -/
def k1_cond1 (i : grid1.Coords) : BitVec 1 :=
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  v2

/-- It holds exactly at the first head pair of a batch. -/
theorem k1_cond1_iff (i : grid1.Coords) : k1_cond1 i = 1#1 ↔ (i 1).val = 0 := by
  have h : ∀ j : Fin 6, (Scalar.cmpi .ne (Scalar.extui (Scalar.cmpi .eq (BitVec.ofNat 32 j.val) 0#32)) 0#32) = 1#1 ↔ j.val = 0 := by decide
  exact h (i 1)

/-- The write-out condition holds exactly at the last head pair of a batch. -/
theorem k1_cond2_iff (i : grid1.Coords) : k1_cond2 i = 1#1 ↔ (i 1).val = 5 := by
  have h : ∀ j : Fin 6, (Scalar.cmpi .ne (Scalar.extui (Scalar.cmpi .eq (BitVec.ofNat 32 j.val) 5#32)) 0#32) = 1#1 ↔ j.val = 5 := by decide
  exact h (i 1)

/-! ## What the body leaves -/

/-- Where the first head's attention weights go in the two-head block: `[0, 0, :, :]`. -/
abbrev r1a0 : Rect S1x2x1024x1024 := Rect.unit (s := S1x2x1024x1024) ![0, 0, 0, 0] S1x1x1024x1024.size inb_S1x2x1024x1024_S1x1x1024x1024_0_0_0_0
/-- Where the second head's go: `[0, 1, :, :]`. -/
abbrev r1a1 : Rect S1x2x1024x1024 := Rect.unit (s := S1x2x1024x1024) ![0, 1, 0, 0] S1x1x1024x1024.size inb_S1x2x1024x1024_S1x1x1024x1024_0_1_0_0

/-- The attention block after the body, from the query and key blocks: each head's softmax weights in its own
    half (the pieces last store first). -/
def attn1 (x0 x1 : Vec F S1x1024x128 .bf16) : Vec F S1x2x1024x1024 .f32 :=
  View.canon [⟨r1a1, k1_pay13 (k1_pay3 x0) (k1_pay4 x1)⟩, ⟨r1a0, k1_pay8 x0 x1⟩]

theorem attn1_eq (x0 x1 : Vec F S1x1024x128 .bf16) :
    attn1 x0 x1 = View.canon [⟨r1a1, k1_pay13 (k1_pay3 x0) (k1_pay4 x1)⟩, ⟨r1a0, k1_pay8 x0 x1⟩] := rfl

/-- The accumulator after the body, from the accumulator before it: zero in its place at the first head pair of a
    batch, then the two heads' projected outputs added in turn. -/
def acc1 (i : grid1.Coords) (x0 x1 x2 : Vec F S1x1024x128 .bf16) (x3 : Vec F S128x768 .bf16) (s : Vec F S1024x768 .f32) :
    Vec F S1024x768 .f32 :=
  k1_pay14 (k1_pay3 x0) (k1_pay4 x1) (k1_pay5 x2) (k1_pay6 x3)
    (k1_pay11 (k1_pay9 x0 x1 x2) (k1_pay10 x3) (if k1_cond1 i = 1#1 then k1_pay2 else s))

theorem acc1_eq (i : grid1.Coords) (x0 x1 x2 : Vec F S1x1024x128 .bf16) (x3 : Vec F S128x768 .bf16) (s : Vec F S1024x768 .f32) :
    acc1 i x0 x1 x2 x3 s = k1_pay14 (k1_pay3 x0) (k1_pay4 x1) (k1_pay5 x2) (k1_pay6 x3)
      (k1_pay11 (k1_pay9 x0 x1 x2) (k1_pay10 x3) (if k1_cond1 i = 1#1 then k1_pay2 else s)) := rfl

/-- The output block written at the last head pair of a batch: the finished accumulator plus the bias row. -/
def outb1 (i : grid1.Coords) (x0 x1 x2 : Vec F S1x1024x128 .bf16) (x3 : Vec F S128x768 .bf16) (x4 : Vec F S1x768 .f32)
    (s : Vec F S1024x768 .f32) : Vec F S1x1024x768 .f32 :=
  k1_pay1 (acc1 i x0 x1 x2 x3 s) x4

theorem outb1_eq (i : grid1.Coords) (x0 x1 x2 : Vec F S1x1024x128 .bf16) (x3 : Vec F S128x768 .bf16) (x4 : Vec F S1x768 .f32)
    (s : Vec F S1024x768 .f32) : outb1 i x0 x1 x2 x3 x4 s = k1_pay1 (acc1 i x0 x1 x2 x3 s) x4 := rfl

/-! ## Loads and stores of a whole buffer -/

theorem hz2 : (![0, 0] : Fin 2 → ℕ) = fun _ => 0 := by funext a; fin_cases a <;> rfl
theorem hz3 : (![0, 0, 0] : Fin 3 → ℕ) = fun _ => 0 := by funext a; fin_cases a <;> rfl

section Whole
variable {S : Shape} {e : EltTy}

/-- A load of the whole buffer, through a whole memref whose contents read `X`, reads `X`. -/
theorem readAt_whole (m : Memref sig .tc .vmem S e) (h : m.IsWhole) {off : Fin S.rank → ℕ} (hz : off = fun _ => 0)
    (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-- A load of the whole buffer after a store of the whole buffer reads what was stored, whatever came before. -/
theorem readCov_cons_whole (v : View sig .tc .vmem S e) {off : Fin S.rank → ℕ} (hz : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero hz inb y⟩),
    View.canon_cons_unit_zero hz, View.ld_unit_zero hz]

/-- After a last store of the whole buffer the buffer reads what was stored. -/
theorem read_writes_cons_whole (v : View sig .tc .vmem S e) (f : v.ty.Contents (Elt F)) {off : Fin S.rank → ℕ}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end Whole

/-- The two heads' stores tile the attention block. -/
theorem cover7 (p1 p0 : Vec F S1x1x1024x1024 .f32) (y : S1x2x1024x1024.Idx) :
    ∃ pc ∈ ([⟨r1a1, p1⟩, ⟨r1a0, p0⟩] : List (View.Piece (Elt F) S1x2x1024x1024 .f32)), y ∈ pc.1.set :=
  View.cover_of_tiled [⟨r1a1, p1⟩, ⟨r1a0, p0⟩] S1x1x1024x1024.size (by rfl) y

/-! ## The body's triple -/

/-- The triple, as a proposition of the point and the operands: on whole staging memrefs — the five inputs' at their
    contents, the attention block's at anything, the output block's at `d6`, the accumulator at `s` — the body runs to
    the continuation holding the inputs as they were, the attention block at `attn1`, the accumulator at `acc1`, and
    the output block written (`outb1`) at the last head pair of a batch and untouched elsewhere. -/
def Sound1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄) : Prop :=
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d6 ∗ owns (c : Thread nD τ) (Memref.whole cc1_scratch0) fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare (attn1 x0 x1)
              ∗ owns (c : Thread nD τ) arg8 fullShare (if k1_cond2 i = 1#1 then outb1 i x0 x1 x2 x3 x4 s else d6)
              ∗ owns (c : Thread nD τ) (Memref.whole cc1_scratch0) fullShare (acc1 i x0 x1 x2 x3 s)) -∗ K ⟨⟩))
      ⊢ wp frame (wpE (defs₀ (F := F)) Variants.none c none) E
          (cc1__attn_outproj_kernel i arg2 harg2 arg3 harg3 arg4 harg4 arg5 harg5 arg6 harg6 arg7 harg7 arg8 harg8 (Memref.whole cc1_scratch0) (Memref.isWhole_whole _)) K

set_option maxHeartbeats 1000000 in
/-- The body where the accumulator is zeroed and the output block written (both conditions hold): every load of the
    accumulator reads the store before it, from the zero fill on, so what it held before does not matter. -/
theorem run1_first_last (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : k1_cond1 i = 1#1) (h2 : k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr
    swap; · iexact H6
    ipureintro
    rw [if_pos h2, read_writes_cons_whole (S := S1x1024x768) _ _ hz3]
    sl_unfold_run_names
    rw [readCov_cons_whole (S := S1024x768) _ hz2, readCov_cons_whole (S := S1024x768) _ hz2, readCov_cons_whole (S := S1024x768) _ hz2,
      readAt_whole _ harg2 hz3, readAt_whole _ harg3 hz3, readAt_whole _ harg4 hz3, readAt_whole _ harg5 hz2, readAt_whole _ harg6 hz2]
    unfold outb1 acc1; rw [if_pos h1]
  iexists _; isplitr
  swap; · iexact HS
  ipureintro
  sl_unfold_run_names
  rw [read_writes_cons_whole (S := S1024x768) _ _ hz2, readCov_cons_whole (S := S1024x768) _ hz2, readCov_cons_whole (S := S1024x768) _ hz2,
    readAt_whole _ harg2 hz3, readAt_whole _ harg3 hz3, readAt_whole _ harg4 hz3, readAt_whole _ harg5 hz2]
  unfold acc1; rw [if_pos h1]

set_option maxHeartbeats 1000000 in
/-- The body where the accumulator is zeroed and the output block left alone: the first head pair of a batch. -/
theorem run1_first (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : k1_cond1 i = 1#1) (h2 : ¬k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr; · ipureintro; rw [if_neg h2]; exact harg8.read_unread _
    iexact H6
  iexists _; isplitr
  swap; · iexact HS
  ipureintro
  sl_unfold_run_names
  rw [read_writes_cons_whole (S := S1024x768) _ _ hz2, readCov_cons_whole (S := S1024x768) _ hz2, readCov_cons_whole (S := S1024x768) _ hz2,
    readAt_whole _ harg2 hz3, readAt_whole _ harg3 hz3, readAt_whole _ harg4 hz3, readAt_whole _ harg5 hz2]
  unfold acc1; rw [if_pos h1]

set_option maxHeartbeats 1000000 in
/-- The body where the accumulator is carried in and the output block written: the last head pair of a batch. The
    first load of the accumulator reads what the point before left. -/
theorem run1_last (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : ¬k1_cond1 i = 1#1) (h2 : k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr
    swap; · iexact H6
    ipureintro
    rw [if_pos h2, read_writes_cons_whole (S := S1x1024x768) _ _ hz3]
    sl_unfold_run_names
    rw [readCov_cons_whole (S := S1024x768) _ hz2, readCov_cons_whole (S := S1024x768) _ hz2,
      readAt_whole _ harg2 hz3, readAt_whole _ harg3 hz3, readAt_whole _ harg4 hz3, readAt_whole _ harg5 hz2, readAt_whole _ harg6 hz2,
      readAt_whole (S := S1024x768) (e := .f32) _ (Memref.isWhole_whole cc1_scratch0) hz2]
    unfold outb1 acc1; rw [if_neg h1]
  iexists _; isplitr
  swap; · iexact HS
  ipureintro
  sl_unfold_run_names
  rw [read_writes_cons_whole (S := S1024x768) _ _ hz2, readCov_cons_whole (S := S1024x768) _ hz2,
    readAt_whole _ harg2 hz3, readAt_whole _ harg3 hz3, readAt_whole _ harg4 hz3, readAt_whole _ harg5 hz2,
    readAt_whole (S := S1024x768) (e := .f32) _ (Memref.isWhole_whole cc1_scratch0) hz2]
  unfold acc1; rw [if_neg h1]

set_option maxHeartbeats 1000000 in
/-- The body where the accumulator is carried in and the output block left alone: a head pair in the middle of a batch. -/
theorem run1_mid (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄)
    (h1 : ¬k1_cond1 i = 1#1) (h2 : ¬k1_cond2 i = 1#1) : Sound1 c E i arg2 harg2 arg3 harg3 arg4 harg4 arg5 harg5 arg6 harg6 arg7 harg7 arg8 harg8 x0 x1 x2 x3 x4 d6 s K := by
  unfold Sound1
  simp only [cc1__attn_outproj_kernel_eq_skeleton]; unfold cc1__attn_outproj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg8.eq_unread hf6
  obtain rfl := (Memref.isWhole_whole cc1_scratch0).eq_unread hfs
  sl_exec (disch := first | sl_exact h1 | sl_exact h2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_eq_canon _ _ _ (cover7 _ _)]
    sl_unfold_run_names
    rw [readAt_whole _ harg2 hz3, readAt_whole _ harg3 hz3]
    rfl
  isplitl [H6]
  · iexists _; isplitr; · ipureintro; rw [if_neg h2]; exact harg8.read_unread _
    iexact H6
  iexists _; isplitr
  swap; · iexact HS
  ipureintro
  sl_unfold_run_names
  rw [read_writes_cons_whole (S := S1024x768) _ _ hz2, readCov_cons_whole (S := S1024x768) _ hz2,
    readAt_whole _ harg2 hz3, readAt_whole _ harg3 hz3, readAt_whole _ harg4 hz3, readAt_whole _ harg5 hz2,
    readAt_whole (S := S1024x768) (e := .f32) _ (Memref.isWhole_whole cc1_scratch0) hz2]
  unfold acc1; rw [if_neg h1]

/-- On whole staging memrefs — the five inputs' at their contents, the attention block's at anything, the output
    block's at `d6`, the accumulator at `s` — the body runs to the continuation holding the inputs as they were, the
    attention block at `attn1`, the accumulator at `acc1`, and the output block written (`outb1`) at the last head pair
    of a batch and untouched elsewhere: the four cases of its two conditions. -/
theorem sound_kernel1 (c : Dev nD) (E : Set ℕ) (i : grid1.Coords)
    (arg2 : Memref sig .tc .vmem S1x1024x128 .bf16) (harg2 : arg2.IsWhole) (arg3 : Memref sig .tc .vmem S1x1024x128 .bf16) (harg3 : arg3.IsWhole) (arg4 : Memref sig .tc .vmem S1x1024x128 .bf16) (harg4 : arg4.IsWhole)
    (arg5 : Memref sig .tc .vmem S128x768 .bf16) (harg5 : arg5.IsWhole) (arg6 : Memref sig .tc .vmem S1x768 .f32) (harg6 : arg6.IsWhole)
    (arg7 : Memref sig .tc .vmem S1x2x1024x1024 .f32) (harg7 : arg7.IsWhole) (arg8 : Memref sig .tc .vmem S1x1024x768 .f32) (harg8 : arg8.IsWhole)
    (x0 x1 x2 : Vec F S1x1024x128 .bf16) (x3 : Vec F S128x768 .bf16) (x4 : Vec F S1x768 .f32) (d6 : Vec F S1x1024x768 .f32) (s : Vec F S1024x768 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare d6 ∗ owns (c : Thread nD τ) (Memref.whole cc1_scratch0) fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
              ∗ owns (c : Thread nD τ) arg7 fullShare (attn1 x0 x1)
              ∗ owns (c : Thread nD τ) arg8 fullShare (if k1_cond2 i = 1#1 then outb1 i x0 x1 x2 x3 x4 s else d6)
              ∗ owns (c : Thread nD τ) (Memref.whole cc1_scratch0) fullShare (acc1 i x0 x1 x2 x3 s)) -∗ K ⟨⟩))
      ⊢ wp frame (wpE (defs₀ (F := F)) Variants.none c none) E
          (cc1__attn_outproj_kernel i arg2 harg2 arg3 harg3 arg4 harg4 arg5 harg5 arg6 harg6 arg7 harg7 arg8 harg8 (Memref.whole cc1_scratch0) (Memref.isWhole_whole _)) K := by
  by_cases h1 : k1_cond1 i = 1#1 <;> by_cases h2 : k1_cond2 i = 1#1
  · exact run1_first_last c E i arg2 harg2 arg3 harg3 arg4 harg4 arg5 harg5 arg6 harg6 arg7 harg7 arg8 harg8 x0 x1 x2 x3 x4 d6 s K h1 h2
  · exact run1_first c E i arg2 harg2 arg3 harg3 arg4 harg4 arg5 harg5 arg6 harg6 arg7 harg7 arg8 harg8 x0 x1 x2 x3 x4 d6 s K h1 h2
  · exact run1_last c E i arg2 harg2 arg3 harg3 arg4 harg4 arg5 harg5 arg6 harg6 arg7 harg7 arg8 harg8 x0 x1 x2 x3 x4 d6 s K h1 h2
  · exact run1_mid c E i arg2 harg2 arg3 harg3 arg4 harg4 arg5 harg5 arg6 harg6 arg7 harg7 arg8 harg8 x0 x1 x2 x3 x4 d6 s K h1 h2

end Cert.Kernel.Hand

end
-- ==== Proof.BRegion1.lean ====
/- Region 1 of the program: attention over one pair of heads per grid point, with the output projection accumulated
   over the six head pairs of a batch. The grid is 8 batches by 6 head pairs, walked batch by batch; point t has
   batch t / 6 and head pair t % 6. At each point the body reads the query, key and value blocks of the pair (three
   windows onto one array), the 128 x 768 slice of the projection weights and the bias row, writes the pair's
   attention weights to their output block, and adds the pair's projected output into an accumulator that lives in
   the core's own scratch memory: zeroed at the first pair of a batch, carried from point to point, and written out,
   with the bias added, at the last pair only. This module states that half of the frame at arbitrary buffer contents
   V on entry to the region: the blocks, the accumulator after each point (by recursion on the point), the proof
   data — whose invariant between points holds the accumulator at exactly that value — and the body obligation. -/
import proofs.«402962_j1709396984003_3_alg».proof.Proof.BRegion1Kernel
import proofs.«402962_j1709396984003_3_alg».proof.Proof.Gen.Kernel.Launch
import proofs.«402962_j1709396984003_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The accumulator after each point -/

/-- The accumulator after the body at position `n` of the walk: at position 0 the body zeroes it first (so what it
    held before does not matter, and zero stands in for it); at a later position the body starts from what the
    position before left — and zeroes that too if the position is the first pair of a batch, which `acc1` decides
    from the point's coordinates. -/
def accAt1 (c : Dev nD) : (n : ℕ) → n < cfg1.N → Vec F S1024x768 .f32
  | 0, h => acc1 (grid1.coords ⟨0, h⟩) (iblk1 V c 0 ⟨0, h⟩) (iblk1 V c 1 ⟨0, h⟩) (iblk1 V c 2 ⟨0, h⟩) (iblk1 V c 3 ⟨0, h⟩) k1_pay2
  | n + 1, h => acc1 (grid1.coords ⟨n + 1, h⟩) (iblk1 V c 0 ⟨n + 1, h⟩) (iblk1 V c 1 ⟨n + 1, h⟩) (iblk1 V c 2 ⟨n + 1, h⟩) (iblk1 V c 3 ⟨n + 1, h⟩)
      (accAt1 c n (Nat.lt_of_succ_lt h))

theorem accAt1_zero (c : Dev nD) (h : 0 < cfg1.N) :
    accAt1 V c 0 h = acc1 (grid1.coords ⟨0, h⟩) (iblk1 V c 0 ⟨0, h⟩) (iblk1 V c 1 ⟨0, h⟩) (iblk1 V c 2 ⟨0, h⟩) (iblk1 V c 3 ⟨0, h⟩) k1_pay2 := rfl

theorem accAt1_succ (c : Dev nD) (n : ℕ) (h : n + 1 < cfg1.N) :
    accAt1 V c (n + 1) h = acc1 (grid1.coords ⟨n + 1, h⟩) (iblk1 V c 0 ⟨n + 1, h⟩) (iblk1 V c 1 ⟨n + 1, h⟩) (iblk1 V c 2 ⟨n + 1, h⟩) (iblk1 V c 3 ⟨n + 1, h⟩)
      (accAt1 V c n (by omega)) := rfl

/-! ## The invariant between points -/

/-- The accumulator's memory: the whole of the core's scratch buffer. -/
abbrev scM1 : Memref sig .tc .vmem S1024x768 .f32 := Memref.whole cc1_scratch0

/-- The scoped memory of the core that this region neither stages through nor accumulates in: the six staging
    buffers of the other region, each whole at some contents. The body never touches them. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f))

/-- The invariant before position `n`. Before the first point: the core's scoped memory that no window of this region
    stages (the other region's staging buffers and the accumulator's buffer), each part at some contents, and the
    generator register at some state. Before a later point, and after the last: the same, but with the accumulator's
    buffer holding exactly what the point before left in it. -/
def Phi1 (c : Dev nD) : (n : ℕ) → n ≤ cfg1.N → sProp 𝕄
  | 0, _ => Pipeline.ΦA spec1 c
  | n + 1, hn => iprop(rest1 (F := F) c ∗ owns (c : Thread nD τ) scM1 fullShare (accAt1 V c n hn) ∗ (∃ r, prngReg c r))

theorem Phi1_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(rest1 (F := F) c ∗ owns (c : Thread nD τ) scM1 fullShare (accAt1 V c (n - 1) (by omega)) ∗ (∃ r, prngReg c r)) := by
  cases n with
  | zero => exact absurd rfl hz
  | succ n => rfl

/-- The scoped memory outside this region's staging buffers, taken apart: the other region's buffers, then the
    accumulator's buffer at some contents. -/
theorem PhiA1_open (c : Dev nD) :
    (Pipeline.ΦA spec1 c : sProp 𝕄) ⊢ iprop(rest1 (F := F) c ∗ (∃ s, owns (c : Thread nD τ) scM1 fullShare s) ∗ (∃ r, prngReg c r)) := by
  unfold Pipeline.ΦA rest1; rw [scopedRest1_eq]; simp only [scM1, owns_whole]
  iintro ⟨⟨A0, A1, A2, A3, A4, A5, HS⟩, Hg⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [HS]; · iexact HS
  iexact Hg

/-- And put together again. -/
theorem PhiA1_close (c : Dev nD) :
    iprop(rest1 (F := F) c ∗ (∃ s, owns (c : Thread nD τ) scM1 fullShare s) ∗ (∃ r, prngReg c r)) ⊢ (Pipeline.ΦA spec1 c : sProp 𝕄) := by
  unfold Pipeline.ΦA rest1; rw [scopedRest1_eq]; simp only [scM1, owns_whole]
  iintro ⟨⟨A0, A1, A2, A3, A4, A5⟩, HS, Hg⟩
  isplitr [Hg]
  · isplitl [A0]; · iexact A0
    isplitl [A1]; · iexact A1
    isplitl [A2]; · iexact A2
    isplitl [A3]; · iexact A3
    isplitl [A4]; · iexact A4
    isplitl [A5]; · iexact A5
    iexact HS
  iexact Hg

/-! ## The proof data of the pipeline -/

/-- The arrays are what the region finds. After the body at point `t`: the five input buffers still hold their blocks;
    the attention block holds the pair's weights; the output block holds the accumulator after the point plus the bias
    row (which is consulted only at the last pair of a batch, where the body stores it). The query, key and value
    windows read one array, so its full share is dealt among the three; every other array is held whole. Nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => attn1 (iblk1 V c 0 t) (iblk1 V c 1 t)
    | ⟨6, _⟩ => k1_pay1 (accAt1 V c t.val t.isLt) (iblk1 V c 4 t)
  Φ t := Phi1 V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
theorem q1_4 (c : Dev nD) : (dat1 V c).q 4 = fullShare := by dsimp only [dat1]
theorem q1_5 (c : Dev nD) : (dat1 V c).q 5 = fullShare := by dsimp only [dat1]
theorem q1_6 (c : Dev nD) : (dat1 V c).q 6 = fullShare := by dsimp only [dat1]

theorem owed1 (c : Dev nD) (t : Fin (cfg1.N + 1)) : (dat1 V c).owed t = 0 := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = attn1 (iblk1 V c 0 t) (iblk1 V c 1 t) := by dsimp only [dat1]
theorem after1_6 (c : Dev nD) (t : Fin cfg1.N) :
    (dat1 V c).after 6 t = k1_pay1 (accAt1 V c t.val t.isLt) (iblk1 V c 4 t) := by dsimp only [dat1]

/-- Before the first point the invariant is the core's scoped memory outside this region's staging buffers, at any
    contents, and the generator register. -/
theorem Φ1_first (c : Dev nD) : (dat1 V c).Φ 0 = Pipeline.ΦA spec1 c := by
  rw [show (dat1 V c).Φ 0 = Phi1 V c 0 (Nat.zero_le _) from rfl]; rfl

/-- The invariant at a point's start and at its end, restated at the point's position. -/
theorem Φ1_castSucc (c : Dev nD) (t : Fin cfg1.N) : (dat1 V c).Φ t.castSucc = Phi1 V c t.val (Nat.le_of_lt t.isLt) := by
  dsimp only [dat1]; simp only [Fin.coe_castSucc]

theorem Φ1_succ (c : Dev nD) (t : Fin cfg1.N) :
    (dat1 V c).Φ t.succ = iprop(rest1 (F := F) c ∗ owns (c : Thread nD τ) scM1 fullShare (accAt1 V c t.val t.isLt) ∗ (∃ r, prngReg c r)) := rfl

/-- After the last point the accumulator's named contents are forgotten again. -/
theorem Φ1_last (c : Dev nD) : (dat1 V c).Φ (Fin.last cfg1.N) ⊢ Pipeline.ΦA spec1 c := by
  have hN : cfg1.N = 48 := N_1
  rw [show (dat1 V c).Φ (Fin.last cfg1.N) = Phi1 V c (Fin.last cfg1.N).val (Nat.le_of_lt_succ (Fin.last cfg1.N).isLt) from rfl,
    Phi1_pos V c _ _ (by rw [Fin.val_last]; omega)]
  refine BIBase.Entails.trans ?_ (PhiA1_close c)
  iintro ⟨HR, HS, Hg⟩
  isplitl [HR]; · iexact HR
  isplitl [HS]; · iexists _; iexact HS
  iexact Hg

/-- What the body is handed of the invariant at point `t`, with the accumulator's contents `s` named only as far as
    they matter: after the first point they are what the point before left. -/
theorem Φ1_open (c : Dev nD) (t : Fin cfg1.N) :
    (dat1 V c).Φ t.castSucc ⊢ iprop(rest1 (F := F) c
      ∗ (∃ s, ⌜∀ hn : t.val ≠ 0, s = accAt1 V c (t.val - 1) (Nat.lt_of_le_of_lt (Nat.sub_le _ _) t.isLt)⌝ ∗ owns (c : Thread nD τ) scM1 fullShare s)
      ∗ (∃ r, prngReg c r)) := by
  rw [Φ1_castSucc]
  by_cases hz : t.val = 0
  · rw [Phi1_zero V c _ _ hz]
    refine (PhiA1_open c).trans ?_
    iintro ⟨HR, ⟨%s, HS⟩, Hg⟩
    isplitl [HR]; · iexact HR
    isplitl [HS]
    · iexists s; isplitr; · ipureintro; exact fun hn => absurd hz hn
      iexact HS
    iexact Hg
  · rw [Phi1_pos V c _ _ hz]
    iintro ⟨HR, HS, Hg⟩
    isplitl [HR]; · iexact HR
    isplitl [HS]
    · iexists _; isplitr; · ipureintro; exact fun _ => rfl
      iexact HS
    iexact Hg

/-! ## Where a point lies in its batch -/

/-- The second coordinate of point `t` — the head pair — is `t` modulo 6: the pairs of a batch are consecutive. -/
theorem coord1_1 (t : Fin cfg1.N) : ((grid1.coords t) 1).val = t.val % 6 := by
  show t.val / grid1.stride 1 % grid1.bound 1 = t.val % 6
  rw [show grid1.stride 1 = 1 from by decide, Nat.div_one]
  rfl

/-- The accumulator is zeroed exactly at the points that are 0 modulo 6, -/
theorem cond1_mod (t : Fin cfg1.N) : k1_cond1 (grid1.coords t) = 1#1 ↔ t.val % 6 = 0 := by
  rw [k1_cond1_iff, coord1_1]

/-- and the output block is written exactly at those that are 5 modulo 6. -/
theorem cond2_mod (t : Fin cfg1.N) : k1_cond2 (grid1.coords t) = 1#1 ↔ t.val % 6 = 5 := by
  rw [k1_cond2_iff, coord1_1]

/-- Elsewhere the configuration calls the output block idle, -/
theorem idle1_6 (t : Fin cfg1.N) (h : ¬t.val % 6 = 5) : cfg1.idle 6 (cfg1.grid.coords t) = true := by
  show (!(k1_cond2 (grid1.coords t) == 1#1)) = true
  rw [Bool.not_eq_true', beq_eq_false_iff_ne]
  exact fun e => h ((cond2_mod t).mp e)

/-- there it is live, -/
theorem live1_6 (t : Fin cfg1.N) (h : t.val % 6 = 5) : cfg1.idle 6 (cfg1.grid.coords t) = false := by
  show (!(k1_cond2 (grid1.coords t) == 1#1)) = false
  rw [Bool.not_eq_false', beq_iff_eq]
  exact (cond2_mod t).mpr h

/-- and elsewhere the pipeline does not write it back. -/
theorem noflush1_6 (t : Fin cfg1.N) (h : ¬t.val % 6 = 5) : (cfg1.win 6).flush t = false := by
  rw [← Bool.not_eq_true]; exact fun e => h ((flush1_6 t).mp e)

/-! ## One step of the accumulation -/

/-- At the first pair of a batch the body zeroes the accumulator before adding to it, so what it held does not matter. -/
theorem acc1_of_first (i : grid1.Coords) (h : k1_cond1 i = 1#1) (x0 x1 x2 : Vec F S1x1024x128 .bf16) (x3 : Vec F S128x768 .bf16)
    (s s' : Vec F S1024x768 .f32) : acc1 i x0 x1 x2 x3 s = acc1 i x0 x1 x2 x3 s' := by
  rw [acc1_eq, acc1_eq, if_pos h, if_pos h]

/-- The body at point `t`, started on an accumulator that — after the first point — holds what the point before left,
    leaves the accumulator of point `t`. At the first point the start value is arbitrary and is zeroed. -/
theorem acc_step (c : Dev nD) (t : Fin cfg1.N) (s : Vec F S1024x768 .f32)
    (hs : ∀ hn : t.val ≠ 0, s = accAt1 V c (t.val - 1) (Nat.lt_of_le_of_lt (Nat.sub_le _ _) t.isLt)) :
    acc1 (grid1.coords t) (iblk1 V c 0 t) (iblk1 V c 1 t) (iblk1 V c 2 t) (iblk1 V c 3 t) s = accAt1 V c t.val t.isLt := by
  obtain ⟨n, hn⟩ := t
  cases n with
  | zero =>
    rw [accAt1_zero]
    exact acc1_of_first _ ((cond1_mod ⟨0, hn⟩).mpr (Nat.zero_mod _)) _ _ _ _ _ _
  | succ n =>
    have e := hs (Nat.succ_ne_zero n)
    subst e
    exact (accAt1_succ V c n hn).symm

/-! ## What the body finds in the input buffers -/

/-- The query block's buffer holds the block of the current point: it is copied in at every point. -/
theorem before1_0 (c : Dev nD) (t : Fin cfg1.N) (d) : (dat1 V c).before 0 t d = iblk1 V c 0 t := by
  rw [(dat1 V c).before_fetched 0 t (fetch1_0 t) d]
  unfold Dat.fetched Dat.blockOf iblk1; rw [A_eq1]; rfl

/-- Likewise the key block's, -/
theorem before1_1 (c : Dev nD) (t : Fin cfg1.N) (d) : (dat1 V c).before 1 t d = iblk1 V c 1 t := by
  rw [(dat1 V c).before_fetched 1 t (fetch1_1 t) d]
  unfold Dat.fetched Dat.blockOf iblk1; rw [A_eq1]; rfl

/-- the value block's, -/
theorem before1_2 (c : Dev nD) (t : Fin cfg1.N) (d) : (dat1 V c).before 2 t d = iblk1 V c 2 t := by
  rw [(dat1 V c).before_fetched 2 t (fetch1_2 t) d]
  unfold Dat.fetched Dat.blockOf iblk1; rw [A_eq1]; rfl

/-- and the buffer of the projection weights' slice. -/
theorem before1_3 (c : Dev nD) (t : Fin cfg1.N) (d) : (dat1 V c).before 3 t d = iblk1 V c 3 t := by
  rw [(dat1 V c).before_fetched 3 t (fetch1_3 t) d]
  unfold Dat.fetched Dat.blockOf iblk1; rw [A_eq1]; rfl

/-- The bias row's buffer holds the whole row at every point although it is copied in at the first point only: its
    block index never moves, and the body leaves the buffer as it finds it. -/
theorem before1_4 (c : Dev nD) (t : Fin cfg1.N) (d) : (dat1 V c).before 4 t d = iblk1 V c 4 t := by
  rw [(dat1 V c).before_in_eq_fetched 4 rfl (fun _ => rfl) (fun _ _ _ => rfl)
    (fun u => by rw [after1_4]; unfold Dat.blockOf iblk1; rw [A_eq1]) t d]
  unfold Dat.fetched Dat.blockOf iblk1; rw [A_eq1]; rfl

/-! ## What the body leaves in the output block's buffer -/

/-- Whatever the point: the buffer the body hands back for the output block is what the proof data ask of it. At the
    last pair of a batch the body has stored the finished accumulator plus the bias row, which is the stated contents;
    elsewhere it has not touched the buffer, and the point is idle for the block and does not write it back. -/
theorem leaves1_6 (c : Dev nD) (t : Fin cfg1.N) (s : Vec F S1024x768 .f32)
    (hs : ∀ hn : t.val ≠ 0, s = accAt1 V c (t.val - 1) (Nat.lt_of_le_of_lt (Nat.sub_le _ _) t.isLt)) (d6) :
    owns (c : Thread nD τ) (st1_6 t) fullShare
        (if k1_cond2 (grid1.coords t) = 1#1 then
          outb1 (grid1.coords t) (iblk1 V c 0 t) (iblk1 V c 1 t) (iblk1 V c 2 t) (iblk1 V c 3 t) (iblk1 V c 4 t) s
        else (dat1 V c).before 6 t d6)
      ⊢ ((dat1 V c).leavesExact 6 t : sProp 𝕄) := by
  by_cases h5 : t.val % 6 = 5
  · rw [if_pos ((cond2_mod t).mpr h5), outb1_eq, acc_step V c t s hs]
    rw [show (dat1 V c).leavesExact 6 t = owns (c : Thread nD τ) (st1_6 t) fullShare ((dat1 V c).after 6 t) from by
      unfold Dat.leavesExact; rw [live1_6 t h5], after1_6]
  · rw [if_neg (fun e => h5 ((cond2_mod t).mp e)), Dat.leavesExact_idle (dat1 V c) 6 t (idle1_6 t h5) (noflush1_6 t h5)]
    iintro H; iexists d6; iexact H

/-! ## The body obligation -/

/-- What the body is handed at point `t`: the invariant, the core's debts, and the seven current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- At any point: the five input buffers hold their blocks, the invariant yields the accumulator's buffer (after the
    first point at what the point before left), so the body's triple applies; it returns the inputs untouched, the
    attention block, the accumulator of this point — which the invariant takes back — and the output block's buffer
    as the proof data ask. The other region's buffers, the generator register and the debts pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl, Φ1_succ,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    show (dat1 V c).leavesExact 2 t = owns (c : Thread nD τ) (st1_2 t) fullShare ((dat1 V c).after 2 t) from rfl,
    show (dat1 V c).leavesExact 3 t = owns (c : Thread nD τ) (st1_3 t) fullShare ((dat1 V c).after 3 t) from rfl,
    show (dat1 V c).leavesExact 4 t = owns (c : Thread nD τ) (st1_4 t) fullShare ((dat1 V c).after 4 t) from rfl,
    show (dat1 V c).leavesExact 5 t = owns (c : Thread nD τ) (st1_5 t) fullShare ((dat1 V c).after 5 t) from rfl,
    after1_0, after1_1, after1_2, after1_3, after1_4, after1_5]
  refine (sep_mono (Φ1_open V c t) Entails.rfl).trans ?_
  iintro ⟨⟨HR, ⟨%s, %hs, HS⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _
    (iblk1 V c 0 t) (iblk1 V c 1 t) (iblk1 V c 2 t) (iblk1 V c 3 t) (iblk1 V c 4 t) ((dat1 V c).before 6 t d6) s _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS]; · iexact HS
  iintro ⟨H0, H1, H2, H3, H4, H5, H6, HS⟩
  rw [acc_step V c t s hs]
  isplitl [HR HS Hg]
  · isplitl [HR]; · iexact HR
    isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iapply (leaves1_6 V c t s hs d6)
  iexact H6

/-- The library's body obligation for region 1: the seven windows written out one by one, then `sound_body1`. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/- The run of the two-region program. The buffer contents of the core at each of the five boundaries of @main
   (launch; after the first stretch of host operations; after the linear layer's region; after the second stretch;
   after the attention region), the proof data of both pipelines at their regions' entry contents, each region as a
   segment over the thread state "every unscoped buffer whole at the boundary's contents, the generator register at
   some state, nothing owed", and the launch over the four segments. The last theorem of the run says that every
   final state holds every unscoped buffer at the last boundary's contents; the frame claim and the value claim
   are both read off it.

   The second region is handed ONE array (the packed q/k/v activations) through three of its windows. Its entry
   therefore deals that array's full share among the three windows (a half and two quarters), and its exit joins
   the three parts again: no window writes the array, so the three parts still agree on its contents. -/
import proofs.«402962_j1709396984003_3_alg».proof.Proof.BRegion0
import proofs.«402962_j1709396984003_3_alg».proof.Proof.BRegion1
import proofs.«402962_j1709396984003_3_alg».proof.Proof.Gen.Kernel.Launch
import proofs.«402962_j1709396984003_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary of @main -/

/-- The core's buffers at launch. -/
abbrev W0 (m : (ℓ : Loc nD τ sig) → Buf (Elt F) ℓ) (ρ : Dev nD → PrngReg) : Dev nD → Valuation τ sig (Elt F) :=
  fun c b => m (c, b)
/-- After the first stretch of host operations: the weights transposed and rounded to bf16, the bias as a row, the
    activations as one 8192-row matrix. The linear layer's region is entered from here. -/
abbrev W1 : Dev nD → Valuation τ sig (Elt F) := fun c => StableHlo.after hostOps0 (W0 m ρ c)
/-- The same, read at the core's own references. -/
abbrev V1 : (c : Dev nD) → (b : Ref sig .tc) → Buf (Elt F) ((c : Thread nD τ).loc b) := fun c b => W1 m ρ c b
/-- After the linear layer's region: its four arrays at what the write-backs of all 8 points leave (the three
    inputs as entered), every other buffer as entered. -/
def W2 (c : Dev nD) : Valuation τ sig (Elt F) :=
  Pipeline.withArrays spec0 c (W1 m ρ c) fun w => (dat0 (V1 m ρ) c).arrAt w cfg0.N
/-- After the second stretch of host operations: the layer's output as a batch of 8, the projection weights
    transposed and rounded to bf16, the projection bias as a row. The attention region is entered from here. -/
abbrev W3 : Dev nD → Valuation τ sig (Elt F) := fun c => StableHlo.after hostOps1 (W2 m ρ c)
/-- The same, read at the core's own references. -/
abbrev V3 : (c : Dev nD) → (b : Ref sig .tc) → Buf (Elt F) ((c : Thread nD τ).loc b) := fun c b => W3 m ρ c b
/-- After the attention region: its two output arrays at what the write-backs of all 48 points leave, every other
    buffer (the five input arrays among them) as entered. -/
def W4 (c : Dev nD) : Valuation τ sig (Elt F) :=
  Function.update (Function.update (W3 m ρ c) (Proc.devRef .tc main_v0_1) ((dat1 (V3 m ρ) c).arrAt 5 cfg1.N))
    (Proc.devRef .tc main_v0_0) ((dat1 (V3 m ρ) c).arrAt 6 cfg1.N)

/-- Each array of the linear layer's region at the region's exit. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the four is as the region found it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The core's own references at the linear layer's exit. -/
abbrev V2 : (c : Dev nD) → (b : Ref sig .tc) → Buf (Elt F) ((c : Thread nD τ).loc b) := fun c b => W2 m ρ c b
/-- The core's own references at the attention region's exit. -/
abbrev V4 : (c : Dev nD) → (b : Ref sig .tc) → Buf (Elt F) ((c : Thread nD τ).loc b) := fun c b => W4 m ρ c b

/-- The linear layer's output array at the region's exit. -/
theorem W2_v4 (c : Dev nD) : W2 m ρ c (Proc.devRef .tc main_call0_v4) = (dat0 (V1 m ρ) c).arrAt 3 cfg0.N :=
  W2_arr m ρ c 3

/-- The projected output's array at the end: the last update of the two. -/
theorem W4_v0_0 (c : Dev nD) : W4 m ρ c (Proc.devRef .tc main_v0_0) = (dat1 (V3 m ρ) c).arrAt 6 cfg1.N := by
  unfold W4; exact Function.update_self _ _ _
/-- The attention weights' array at the end: the second update is at another buffer. -/
theorem W4_v0_1 (c : Dev nD) : W4 m ρ c (Proc.devRef .tc main_v0_1) = (dat1 (V3 m ρ) c).arrAt 5 cfg1.N := by
  unfold W4
  rw [Function.update_of_ne (StableHlo.devRef_ne_of_ne (by decide))]
  exact Function.update_self _ _ _
/-- Off the two output arrays the attention region changes nothing. -/
theorem W4_of_ne (c : Dev nD) (b : Ref sig .tc) (h1 : b ≠ main_v0_1) (h0 : b ≠ main_v0_0) :
    W4 m ρ c (Proc.devRef .tc b) = W3 m ρ c (Proc.devRef .tc b) := by
  unfold W4
  rw [Function.update_of_ne (StableHlo.devRef_ne_of_ne h0), Function.update_of_ne (StableHlo.devRef_ne_of_ne h1)]

/-- A buffer that no host operation writes and that is no array of the first region nor an output of the second
    holds at the end what it held at launch: each of the four steps of the fold leaves it alone. -/
theorem W4_untouched (c : Dev nD) (b : Ref sig .tc) (h1 : b ≠ main_v0_1) (h0 : b ≠ main_v0_0)
    (hB : b ∉ (hostOps1_W : List (Ref sig .tc))) (hR : ∀ w, Pipeline.arrRef spec0 w ≠ b)
    (hA : b ∉ (hostOps0_W : List (Ref sig .tc))) :
    W4 m ρ c (Proc.devRef .tc b) = m ((c : Thread nD τ).loc b) :=
  (W4_of_ne m ρ c b h1 h0).trans <|
    (StableHlo.after_of_writes_sub hostOps1 _ hostOps1_writes hB).trans <|
      (W2_of_ne m ρ c b hR).trans <|
        (StableHlo.after_of_writes_sub hostOps0 _ hostOps0_writes hA).trans rfl

theorem W4_main_arg0 (c : Dev nD) : W4 m ρ c (Proc.devRef .tc main_arg0) = m ((c : Thread nD τ).loc main_arg0) :=
  W4_untouched m ρ c main_arg0 (by decide) (by decide) (by decide) (by decide) (by decide)
theorem W4_main_arg1 (c : Dev nD) : W4 m ρ c (Proc.devRef .tc main_arg1) = m ((c : Thread nD τ).loc main_arg1) :=
  W4_untouched m ρ c main_arg1 (by decide) (by decide) (by decide) (by decide) (by decide)
theorem W4_main_arg2 (c : Dev nD) : W4 m ρ c (Proc.devRef .tc main_arg2) = m ((c : Thread nD τ).loc main_arg2) :=
  W4_untouched m ρ c main_arg2 (by decide) (by decide) (by decide) (by decide) (by decide)
theorem W4_main_arg3 (c : Dev nD) : W4 m ρ c (Proc.devRef .tc main_arg3) = m ((c : Thread nD τ).loc main_arg3) :=
  W4_untouched m ρ c main_arg3 (by decide) (by decide) (by decide) (by decide) (by decide)
theorem W4_main_arg4 (c : Dev nD) : W4 m ρ c (Proc.devRef .tc main_arg4) = m ((c : Thread nD τ).loc main_arg4) :=
  W4_untouched m ρ c main_arg4 (by decide) (by decide) (by decide) (by decide) (by decide)

/-! ## The attention region's arrays: seven windows on five buffers

The query, key and value windows all read the packed activations; the other four windows have a buffer each. The
proof data hold the packed array at a half and two quarters of the full share, one per window. -/

section Shared

variable (V : (c : Dev nD) → (b : Ref sig .tc) → Buf (Elt F) ((c : Thread nD τ).loc b))

theorem share1_0 (c : Dev nD) : (dat1 V c).share 0 = fullShare.left := (if_neg (by decide)).trans (q1_0 V c)
theorem share1_1 (c : Dev nD) : (dat1 V c).share 1 = fullShare.right.left := (if_neg (by decide)).trans (q1_1 V c)
theorem share1_2 (c : Dev nD) : (dat1 V c).share 2 = fullShare.right.right := (if_neg (by decide)).trans (q1_2 V c)
theorem share1_3 (c : Dev nD) : (dat1 V c).share 3 = fullShare := (if_neg (by decide)).trans (q1_3 V c)
theorem share1_4 (c : Dev nD) : (dat1 V c).share 4 = fullShare := (if_neg (by decide)).trans (q1_4 V c)
theorem share1_5 (c : Dev nD) : (dat1 V c).share 5 = fullShare := if_pos (by decide)
theorem share1_6 (c : Dev nD) : (dat1 V c).share 6 = fullShare := if_pos (by decide)

/-- The five distinct buffers behind the seven windows, each whole. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_call0_v5) ↦{fullShare} V' main_call0_v5)
          ∗ (((c : Thread nD τ).loc main_call0_v7) ↦{fullShare} V' main_call0_v7)
          ∗ (((c : Thread nD τ).loc main_call0_v8) ↦{fullShare} V' main_call0_v8)
          ∗ (((c : Thread nD τ).loc main_v0_1) ↦{fullShare} V' main_v0_1)
          ∗ (((c : Thread nD τ).loc main_v0_0) ↦{fullShare} V' main_v0_0)) := by
  unfold Pipeline.arrBufs
  exact bigSep_eq_bigSepL_of_eq [main_call0_v5, main_call0_v7, main_call0_v8, main_v0_1, main_v0_0] (by decide) (by decide) _

/-- The pipeline's seven arrays window by window: the packed activations three times, at the three parts of the
    full share, then the four buffers held whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_call0_v5) ↦{fullShare.left} G 0)
          ∗ (((c : Thread nD τ).loc main_call0_v5) ↦{fullShare.right.left} G 1)
          ∗ (((c : Thread nD τ).loc main_call0_v5) ↦{fullShare.right.right} G 2)
          ∗ (((c : Thread nD τ).loc main_call0_v7) ↦{fullShare} G 3)
          ∗ (((c : Thread nD τ).loc main_call0_v8) ↦{fullShare} G 4)
          ∗ (((c : Thread nD τ).loc main_v0_1) ↦{fullShare} G 5)
          ∗ (((c : Thread nD τ).loc main_v0_0) ↦{fullShare} G 6)) := by
  -- the first three windows read one array, so one equation covers the three
  have h0 : (cfg1.win 0).arr.view.set = Finset.univ := (arr_whole1 0).set_eq_univ
  have h3 : (cfg1.win 3).arr.view.set = Finset.univ := (arr_whole1 3).set_eq_univ
  have h4 : (cfg1.win 4).arr.view.set = Finset.univ := (arr_whole1 4).set_eq_univ
  have h5 : (cfg1.win 5).arr.view.set = Finset.univ := (arr_whole1 5).set_eq_univ
  have h6 : (cfg1.win 6).arr.view.set = Finset.univ := (arr_whole1 6).set_eq_univ
  unfold Dat.arrays
  rw [bigSep_W1, h0, h3, h4, h5, h6, share1_0, share1_1, share1_2, share1_3, share1_4, share1_5, share1_6]

end Shared

/-! ## The entries and exits of the two regions, the buffers' part -/

/-- The full share of a buffer as a half and two quarters, and back: the full share is its two halves, and the
    right half its own two halves. -/
theorem pointsTo_deal3 {ℓ : Loc nD τ sig} (f : Buf (Elt F) ℓ) :
    (ℓ ↦{fullShare} f : sProp 𝕄)
      ⊣⊢ iprop((ℓ ↦{fullShare.left} f) ∗ (ℓ ↦{fullShare.right.left} f) ∗ (ℓ ↦{fullShare.right.right} f)) :=
  ⟨(pointsTo_share (PosShare.mem_left_op_right fullShare)).mp.trans
      (sep_mono .rfl (pointsTo_share (PosShare.mem_left_op_right fullShare.right)).mp),
    (sep_mono .rfl (pointsTo_share (PosShare.mem_left_op_right fullShare.right)).mpr).trans
      (pointsTo_share (PosShare.mem_left_op_right fullShare)).mpr⟩

section Shared

variable (V : (c : Dev nD) → (b : Ref sig .tc) → Buf (Elt F) ((c : Thread nD τ).loc b))

/-- The five buffers whole at contents `V'` make the seven arrays at any contents `G` that read `V'` window by
    window: the packed activations are dealt among their three windows. -/
theorem arrays1_of_bufs (c : Dev nD) (V' : (b : Ref sig .tc) → Buf (Elt F) ((c : Thread nD τ).loc b))
    (G : (w : Fin cfg1.W) → Buf (Elt F) ((cfg1.win w).arr.view.loc (c : Thread nD τ)))
    (h0 : G 0 = V' main_call0_v5) (h1 : G 1 = V' main_call0_v5) (h2 : G 2 = V' main_call0_v5)
    (h3 : G 3 = V' main_call0_v7) (h4 : G 4 = V' main_call0_v8) (h5 : G 5 = V' main_v0_1) (h6 : G 6 = V' main_v0_0) :
    (Pipeline.arrBufs (Ix := Unit) (Name := ℕ) (U := UR sig nD τ) (Lvl := ℕ) spec1 c V' : sProp 𝕄) ⊢ (dat1 V c).arrays G := by
  rw [arrBufs1_eq, arrays1_eq, h0, h1, h2, h3, h4, h5, h6]
  exact sep_mono (pointsTo_deal3 _).mp .rfl |>.trans sep_assoc.mp |>.trans (sep_mono .rfl sep_assoc.mp)

/-- Back: the three parts of the packed activations, which agree on the contents, join to the whole buffer. -/
theorem bufs_of_arrays1 (c : Dev nD) (V' : (b : Ref sig .tc) → Buf (Elt F) ((c : Thread nD τ).loc b))
    (G : (w : Fin cfg1.W) → Buf (Elt F) ((cfg1.win w).arr.view.loc (c : Thread nD τ)))
    (h0 : G 0 = V' main_call0_v5) (h1 : G 1 = V' main_call0_v5) (h2 : G 2 = V' main_call0_v5)
    (h3 : G 3 = V' main_call0_v7) (h4 : G 4 = V' main_call0_v8) (h5 : G 5 = V' main_v0_1) (h6 : G 6 = V' main_v0_0) :
    ((dat1 V c).arrays G : sProp 𝕄) ⊢ Pipeline.arrBufs (Ix := Unit) (Name := ℕ) (U := UR sig nD τ) (Lvl := ℕ) spec1 c V' := by
  rw [arrBufs1_eq, arrays1_eq, h0, h1, h2, h3, h4, h5, h6]
  exact (sep_mono .rfl sep_assoc.mpr) |>.trans sep_assoc.mpr |>.trans (sep_mono (pointsTo_deal3 _).mpr .rfl)

end Shared

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything, so no level is ever assigned. -/
abbrev L : GSem nD τ sig → Finset Unit := fun _ => ∅
abbrev lv : GSem nD τ sig → Unit → ℕ := fun _ _ => 0
/-- What the core holds beside its buffers between any two segments: its generator register at some state, and
    that it owes no other core anything. -/
abbrev R (c : Dev nD) : sProp 𝕄 := iprop((∃ r, prngReg c r) ∗ ∃ W, owes (c : Thread nD τ) (0 : CellTallies nD τ sig Unit) W)
/-- A stretch of host operations as a segment: the unscoped buffers go from contents `W` to what the operations
    leave, `R` rides along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the debts: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-- A core that owes nothing holds its debts as the pipeline wants them at a point where the proof data owe
    nothing and bound the recorded pairs by nothing. -/
theorem owesAt_intro {cfg : Pipeline.Cfg sig Λ₀} {c : Dev nD} (dat : Dat τ (Elt F) Unit ℕ (UR sig nD τ) ℕ cfg c)
    (t : Fin (cfg.N + 1)) (h0 : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hrec]
  iintro ⟨%W, HO⟩
  iexists W
  isplitr
  · ipureintro; exact fun _ _ => Or.inl trivial
  · iexact HO
/-- And back, the bound forgotten. -/
theorem owesAt_elim {cfg : Pipeline.Cfg sig Λ₀} {c : Dev nD} (dat : Dat τ (Elt F) Unit ℕ (UR sig nD τ) ℕ cfg c)
    (t : Fin (cfg.N + 1)) (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO
/-- A pipeline with no prefetched table holds none. -/
theorem prefHeld_none (c : Dev nD) (q : Fin (Pipeline.Prefetch.none (sig := sig)).K → PosShare TreeShare) (v) :
    (BI.emp : sProp 𝕄) ⊢ Pipeline.prefHeld Pipeline.Prefetch.none c q v := by
  unfold Pipeline.prefHeld
  rw [show (Finset.univ : Finset (Fin 0)) = ∅ from rfl, BI.bigSep_empty]

/-- ENTRY of the attention region, the buffers' part: every unscoped buffer at the entry contents is the region's
    seven arrays at their entry contents and the buffers that bypass the region. -/
theorem entry1 (c : Dev nD) :
    (StableHlo.held (c : Thread nD τ) (Pipeline.ucRefs τ sig) (W3 m ρ c) : sProp 𝕄)
      ⊢ iprop((dat1 (V3 m ρ) c).arrays ((dat1 (V3 m ρ) c).arrAt · 0)
          ∗ Pipeline.unscopedRest (Ix := Unit) (Name := ℕ) (U := UR sig nD τ) (Lvl := ℕ) spec1 c (V3 m ρ c)) := by
  rw [← Pipeline.unscopedBufs_held c (W3 m ρ c), Pipeline.unscopedBufs_split₀ cfgs 1 winFacts₀1.arr_unscoped c]
  exact sep_mono (arrays1_of_bufs (V3 m ρ) c (V3 m ρ c) _ (A_eq1 (V3 m ρ) c 0) (A_eq1 (V3 m ρ) c 1) (A_eq1 (V3 m ρ) c 2)
    (A_eq1 (V3 m ρ) c 3) (A_eq1 (V3 m ρ) c 4) (A_eq1 (V3 m ρ) c 5) (A_eq1 (V3 m ρ) c 6)) .rfl

/-- EXIT of the attention region, the buffers' part: the five input windows' arrays are as entered (an input array is
    never written back), the two outputs hold what the write-backs of all points leave; with the bypassing buffers
    they are every unscoped buffer at the last boundary's contents. -/
theorem exit1 (c : Dev nD) :
    iprop((dat1 (V3 m ρ) c).arrays ((dat1 (V3 m ρ) c).arrAt · cfg1.N)
        ∗ Pipeline.unscopedRest (Ix := Unit) (Name := ℕ) (U := UR sig nD τ) (Lvl := ℕ) spec1 c (V3 m ρ c))
      ⊢ (StableHlo.held (c : Thread nD τ) (Pipeline.ucRefs τ sig) (W4 m ρ c) : sProp 𝕄) := by
  have hin : ∀ w : Fin cfg1.W, (cfg1.win w).isOut = false → Pipeline.arrRef spec1 w ≠ main_v0_1 →
      Pipeline.arrRef spec1 w ≠ main_v0_0 → (dat1 (V3 m ρ) c).arrAt w cfg1.N = V4 m ρ c (Pipeline.arrRef spec1 w) :=
    fun w hw h1 h0 =>
      ((dat1 (V3 m ρ) c).arrAt_in w hw _).trans ((A_eq1 (V3 m ρ) c w).trans (W4_of_ne m ρ c _ h1 h0).symm)
  rw [← Pipeline.unscopedBufs_held c (W4 m ρ c), Pipeline.unscopedBufs_split₀ cfgs 1 winFacts₀1.arr_unscoped c]
  refine sep_mono (bufs_of_arrays1 (V3 m ρ) c (V4 m ρ c) _ (hin 0 rfl (by decide) (by decide))
    (hin 1 rfl (by decide) (by decide)) (hin 2 rfl (by decide) (by decide))
    (hin 3 rfl (by decide) (by decide)) (hin 4 rfl (by decide) (by decide))
    (W4_v0_1 m ρ c).symm (W4_v0_0 m ρ c).symm) (Entails.of_eq ?_)
  unfold Pipeline.unscopedRest
  refine bigSep_congr fun b hb => ?_
  have hb' := (Finset.mem_sdiff.mp hb).2
  exact congrArg (pointsTo ((c : Thread nD τ).loc b) Finset.univ fullShare) (W4_of_ne m ρ c b
    (fun e => hb' (Finset.mem_image.mpr ⟨5, Finset.mem_univ _, e.symm⟩))
    (fun e => hb' (Finset.mem_image.mpr ⟨6, Finset.mem_univ _, e.symm⟩))).symm

/-- ENTRY of the linear layer's region, the buffers' part: its four arrays are distinct buffers, each held whole. -/
theorem entry0 (c : Dev nD) :
    (StableHlo.held (c : Thread nD τ) (Pipeline.ucRefs τ sig) (W1 m ρ c) : sProp 𝕄)
      ⊢ iprop((pdats m ρ 0 c).arrays ((pdats m ρ 0 c).arrAt · 0)
          ∗ Pipeline.unscopedRest (Ix := Unit) (Name := ℕ) (U := UR sig nD τ) (Lvl := ℕ) spec0 c (V1 m ρ c)) := by
  rw [← Pipeline.unscopedBufs_held c (W1 m ρ c)]
  exact Pipeline.arrays_of_unscopedBufs (p := 0) (pcfgs (F := F)) adm (pdats m ρ) launch0.win launch0.arr_whole c
    ((pdats m ρ 0 c).share_full fun _ => rfl) (V1 m ρ c) fun _ => rfl

/-- EXIT of the linear layer's region, the buffers' part: the arrays at what the write-backs leave and the bypassing
    buffers as entered are every unscoped buffer at the second boundary's contents. -/
theorem exit0 (c : Dev nD) :
    iprop((pdats m ρ 0 c).arrays ((pdats m ρ 0 c).arrAt · cfg0.N)
        ∗ Pipeline.unscopedRest (Ix := Unit) (Name := ℕ) (U := UR sig nD τ) (Lvl := ℕ) spec0 c (V1 m ρ c))
      ⊢ (StableHlo.held (c : Thread nD τ) (Pipeline.ucRefs τ sig) (W2 m ρ c) : sProp 𝕄) := by
  rw [← Pipeline.unscopedBufs_held c (W2 m ρ c)]
  exact Pipeline.unscopedBufs_of_arrays (p := 0) (pcfgs (F := F)) adm (Ix := Unit) (Name := ℕ) (U := UR sig nD τ) (Lvl := ℕ)
    launch0.win launch0.arr_whole c (pdats m ρ) ((pdats m ρ 0 c).share_full fun _ => rfl)
    (V1 m ρ c) (V2 m ρ c) ((pdats m ρ 0 c).arrAt · cfg0.N) (fun w => (W2_arr m ρ c w).symm)
    (fun b hb => W2_of_ne m ρ c b fun w e => hb (Finset.mem_image.mpr ⟨w, Finset.mem_univ _, e⟩))

/-! ## The regions as segments -/

set_option backward.isDefEq.respectTransparency.types false in
/-- The linear layer's region over the thread state: entered from every unscoped buffer at the first boundary's
    contents, left at the second's. The generator register goes into the region's invariant and comes back; nothing
    is owed at either end; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    iintro ⟨⟨Hh, Hp, HO⟩, -, -⟩
    ihave Ha := (entry0 m ρ c) $$ Hh
    icases Ha with ⟨Ha, Hz⟩
    ihave HO := (owesAt_intro (pdats m ρ 0 c) 0 rfl rfl) $$ HO
    imodintro
    isplitl [Ha]; · iexact Ha
    isplitr
    · iapply (prefHeld_none c _ _); iempintro
    isplitl [HO]; · iexact HO
    isplitl [Hp]; · iexact Hp
    iexact Hz
  hin c := by
    show _ ⊢ Pipeline.ΦA spec0 c
    unfold Pipeline.ΦA
    iintro ⟨Hp, -, Hs⟩
    isplitl [Hs]; · iexact Hs
    iexact Hp
  hout c := by
    rw [Pipeline.ownSems0_none]
    show Pipeline.ΦA spec0 c ⊢ _
    unfold Pipeline.ΦA
    iintro ⟨Hs, Hp⟩
    isplitl [Hp]; · iexact Hp
    isplitr; · iempintro
    iexact Hs
  hexit c := by
    iintro ⟨Ha, HO, Hp, Hz⟩
    ihave Hh := (exit0 m ρ c) $$ [Ha Hz]
    · isplitl [Ha]; · iexact Ha
      iexact Hz
    ihave HO := (owesAt_elim (pdats m ρ 0 c) (Fin.last _) rfl) $$ HO
    imodintro
    isplitl [Hh]; · iexact Hh
    isplitl [Hp]; · iexact Hp
    iexact HO

set_option backward.isDefEq.respectTransparency.types false in
/-- The attention region over the thread state: entered from every unscoped buffer at the third boundary's
    contents, left at the last's. At the entry the packed activations' full share is dealt among the three windows
    that read it, at the exit the three parts are joined again. The region's invariant starts as the core's scoped
    memory outside this region's staging buffers and the generator register, carries the accumulator from point to
    point, and ends as it started. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    iintro ⟨⟨Hh, Hp, HO⟩, -, -⟩
    ihave Ha := (entry1 m ρ c) $$ Hh
    icases Ha with ⟨Ha, Hz⟩
    ihave HO := (owesAt_intro (dat1 (V3 m ρ) c) 0 (owed1 (V3 m ρ) c 0) rfl) $$ HO
    imodintro
    isplitl [Ha]; · iexact Ha
    isplitr
    · iapply (prefHeld_none c _ _); iempintro
    isplitl [HO]; · iexact HO
    isplitl [Hp]; · iexact Hp
    iexact Hz
  hin c := by
    show _ ⊢ (dat1 (V3 m ρ) c).Φ 0
    rw [Φ1_first]
    unfold Pipeline.ΦA
    iintro ⟨Hp, -, Hs⟩
    isplitl [Hs]; · iexact Hs
    iexact Hp
  hout c := by
    rw [Pipeline.ownSems0_none]
    refine (show (pdats m ρ 1 c).Φ (Fin.last _) ⊢ Pipeline.ΦA spec1 c from Φ1_last (V3 m ρ) c).trans ?_
    unfold Pipeline.ΦA
    iintro ⟨Hs, Hp⟩
    isplitl [Hp]; · iexact Hp
    isplitr; · iempintro
    iexact Hs
  hexit c := by
    iintro ⟨Ha, HO, Hp, Hz⟩
    ihave Hh := (exit1 m ρ c) $$ [Ha Hz]
    · isplitl [Ha]; · iexact Ha
      iexact Hz
    ihave HO := (owesAt_elim (pdats m ρ 1 c) (Fin.last _) (owed1 (V3 m ρ) c _)) $$ HO
    imodintro
    isplitl [Hh Hp]
    · isplitl [Hh]; · iexact Hh
      iexact Hp
    iexact HO

/-! ## @main as segments, and the launch -/

/-- The launch's ghost element is the pipelines' own, and no core is dealt a ghost resource beside it. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iempintro

/-- The last thread state beside a final state's interpretation: that state's memory holds every unscoped buffer
    of the core at the last boundary's contents. -/
theorem read_end (c : Dev nD) (s' : Phys nD τ sig (Elt F)) :
    iprop(Tₙ m ρ c ∗ SI s')
      ⊢ (|={Set.univ}=> iprop(⌜∀ b ∈ Pipeline.ucRefs τ sig, s'.mem.mem (((c : Thread nD τ)).1, b) = W4 m ρ c b⌝ ∗ SI s') : sProp 𝕄) := by
  iintro ⟨⟨Hh, -⟩, HSI⟩
  imodintro
  iapply (pointsTo_read_all (Pipeline.ucRefs τ sig) (fun b => (((c : Thread nD τ)).1, b)) (W4 m ρ c) s')
  isplitl [Hh]
  · unfold StableHlo.held; iexact Hh
  · iexact HSI

/-- @main's four segments in order: the first host stretch, the linear layer, the second host stretch, attention. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the four segments. -/
theorem main_run (c : Dev nD) : main (F := F) c = Pipeline.Seg.run (segs m ρ) := (main_chain c).trans (by chain_rfl)

set_option backward.isDefEq.respectTransparency.types false in
/-- THE RUN. Every weakly fair execution of @main from memory `m` with zero counters terminates, and in every final
    state each unscoped buffer of the core holds the last boundary's contents: the launch makes the first thread
    state on the core, the four segments chain by name, and the last thread state is read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := read_end m ρ)
    (hQ := fun s h => h)

/-- The frame claim: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

/-- The value claim's run: the two result arrays end at what the attention region's write-backs leave, the five
    argument arrays as launched. -/
theorem run_values : θ_run defs (onTc (τ := τ) (main (F := F))) ⟨m, fun _ => 0, ρ⟩ (fun r => ∀ c : Dev nD,
      r.2.mem ((c.tc : Thread nD τ).loc main_v0_0) = (dat1 (V3 m ρ) c).arrAt 6 cfg1.N
      ∧ r.2.mem ((c.tc : Thread nD τ).loc main_v0_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v0_0 (by decide))).trans (W4_v0_0 m ρ c),
      (h c _ (mem_uc main_v0_1 (by decide))).trans (W4_v0_1 m ρ c),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c)⟩) (run_all m ρ)

end Cert.Kernel.Hand

end
-- ==== Proof.Spec.lean ====
/-
  The mathematics both programs compute, on the extended reals, written once over plain coordinates.

  Inputs: x [8,1024,768], the qkv weight w [2304,768] and bias β [2304], the projection weight pw [768,768]
  and bias pb [768].  With 12 heads of width 64 (768 = 12·64):

    qkv b n o       = (∑ c, x b n c · w o c) + β o                         -- the fused projection, o < 2304
    column (part, h, d) = part·768 + h·64 + d                              -- part 0 = queries, 1 = keys, 2 = values
    score b h n m   = (∑ d, qkv b n (col 0 h d) · qkv b m (col 1 h d)) · 1/8
    attn b h n m    = exp (score n m − max_m' score n m') / ∑_m' exp (score n m' − max_m' score n m')
    ctx b n (h, d)  = ∑ m, attn b h n m · qkv b m (col 2 h d)
    out b n o       = (∑ c, ctx b n (c / 64, c % 64) · pw o c) + pb o

  The row maximum is the fold of `max` from −∞ over the row; a sum is a `Finset` sum; the quotient is the
  extended reals' division with its corners.  Nothing here mentions either program.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The scale 1/√64, as both programs spell it: the f32 word of 0.125. -/
def eighth : EReal := Ideal.ofBits .f32 0x3E000000#32
/-- The value a row maximum starts from: the f32 word of −∞. -/
def negInf : EReal := Ideal.ofBits .f32 0xFF800000#32

/-- Column of the fused projection holding coordinate `d` of head `h` of part `p` (0 queries, 1 keys, 2 values). -/
def col (p : Fin 3) (h : Fin 12) (d : Fin 64) : Fin 2304 := ⟨p.val * 768 + h.val * 64 + d.val, by omega⟩

theorem col_val (p : Fin 3) (h : Fin 12) (d : Fin 64) : (col p h d).val = p.val * 768 + h.val * 64 + d.val := rfl

/-- The fused projection: row (b, n) of `x` against row `o` of the weight, plus the bias. -/
def qkv (x : Fin 8 → Fin 1024 → Fin 768 → EReal) (w : Fin 2304 → Fin 768 → EReal) (β : Fin 2304 → EReal)
    (b : Fin 8) (n : Fin 1024) (o : Fin 2304) : EReal :=
  (∑ c : Fin 768, x b n c * w o c) + β o

/-- The scaled score of query row `n` against key row `m` in head `h` of batch `b`. -/
def score (Q : Fin 8 → Fin 1024 → Fin 2304 → EReal) (b : Fin 8) (h : Fin 12) (n m : Fin 1024) : EReal :=
  (∑ d : Fin 64, Q b n (col 0 h d) * Q b m (col 1 h d)) * eighth

/-- A row's maximum: the fold of `max` from −∞. -/
def rowMax (s : Fin 1024 → EReal) : EReal := (Finset.univ : Finset (Fin 1024)).fold max negInf s

/-- The row's shifted exponentials. -/
def expRow (s : Fin 1024 → EReal) (m : Fin 1024) : EReal := Ideal.exp (s m - rowMax s)

/-- Softmax of a row at `m`. -/
def softmax (s : Fin 1024 → EReal) (m : Fin 1024) : EReal := Ideal.div (expRow s m) (∑ m' : Fin 1024, expRow s m')

/-- The attention weights. -/
def attn (Q : Fin 8 → Fin 1024 → Fin 2304 → EReal) (b : Fin 8) (h : Fin 12) (n m : Fin 1024) : EReal :=
  softmax (score Q b h n) m

/-- The attended values of head `h`, coordinate `d`. -/
def ctx (Q : Fin 8 → Fin 1024 → Fin 2304 → EReal) (b : Fin 8) (n : Fin 1024) (h : Fin 12) (d : Fin 64) : EReal :=
  ∑ m : Fin 1024, attn Q b h n m * Q b m (col 2 h d)

/-- The heads laid side by side: column `c` is coordinate `c % 64` of head `c / 64`. -/
def ctxFlat (Q : Fin 8 → Fin 1024 → Fin 2304 → EReal) (b : Fin 8) (n : Fin 1024) (c : Fin 768) : EReal :=
  ctx Q b n ⟨c.val / 64, by omega⟩ ⟨c.val % 64, Nat.mod_lt _ (by decide)⟩

/-- The output projection. -/
def out (Q : Fin 8 → Fin 1024 → Fin 2304 → EReal) (pw : Fin 768 → Fin 768 → EReal) (pb : Fin 768 → EReal)
    (b : Fin 8) (n : Fin 1024) (o : Fin 768) : EReal :=
  (∑ c : Fin 768, ctxFlat Q b n c * pw o c) + pb o

/-! ## The same over arrays: what each result array holds, as a function of the argument arrays -/

abbrev SX : Shape := ⟨3, ![8, 1024, 768]⟩
abbrev SW : Shape := ⟨2, ![2304, 768]⟩
abbrev SB : Shape := ⟨1, ![2304]⟩
abbrev SPW : Shape := ⟨2, ![768, 768]⟩
abbrev SPB : Shape := ⟨1, ![768]⟩
abbrev SATT : Shape := ⟨4, ![8, 12, 1024, 1024]⟩

/-- The fused projection of the argument arrays. -/
def Qof (x : SX.Idx → EReal) (w : SW.Idx → EReal) (β : SB.Idx → EReal) : Fin 8 → Fin 1024 → Fin 2304 → EReal :=
  qkv (fun b n c => x (ix3 b n c)) (fun o c => w (ix2 o c)) (fun o => β (ix1 o))

/-- The attention-weights result, [8, 12, 1024, 1024]. -/
def attnArr (x : SX.Idx → EReal) (w : SW.Idx → EReal) (β : SB.Idx → EReal) : SATT.Idx → EReal :=
  fun i => attn (Qof x w β) (i 0) (i 1) (i 2) (i 3)

/-- The projected result, [8, 1024, 768]. -/
def outArr (x : SX.Idx → EReal) (w : SW.Idx → EReal) (β : SB.Idx → EReal) (pw : SPW.Idx → EReal) (pb : SPB.Idx → EReal) :
    SX.Idx → EReal :=
  fun i => out (Qof x w β) (fun o c => pw (ix2 o c)) (fun o => pb (ix1 o)) (i 0) (i 1) (i 2)

end Cert.Spec

end
-- ==== Proof.RefValue.lean ====
/-
  The reference program's two results, read index by index, are the specification's arrays.

  Stage by stage, at coordinates: the fused projection x·wᵀ + β; the split of its 2304 columns into
  (part, head, coordinate) — column p·768 + h·64 + d — and the transpose that brings part and head to the front;
  the scores (Σ_d q·k)·1/8; the row maximum, a fold of max from −∞ (a further max with −∞ changes nothing: −∞ is
  the bottom of the extended reals); the shifted exponentials, their sum from zero, and the quotient; the attended
  values Σ_m attn·v; the heads laid side by side, column c holding coordinate c % 64 of head c / 64; the output
  projection Σ_c ctx·pw + pb.  Each layout stage is an equation between source indices, by arithmetic on the
  row-major positions.
-/
import proofs.«402962_j1709396984003_3_alg».proof.Proof.Gen.ReferenceIdeal.Run
import proofs.«402962_j1709396984003_3_alg».proof.Proof.Gen.ReferenceIdeal.Read
import proofs.«402962_j1709396984003_3_alg».proof.Proof.Spec

noncomputable section

namespace Cert.ReferenceIdeal.RefValue

open Cert.ReferenceIdeal Idealize.ShloMosaic Idealize.ShloMosaic.ValueIdx Idealize.ShloMosaic.TcCoe Idealize.SL.Sem

variable (x0 : (⟨S8x1024x768, .f32⟩ : BufTy).Contents (Elt Ideal)) (x1 : (⟨S2304x768, .f32⟩ : BufTy).Contents (Elt Ideal))
  (x2 : (⟨S2304, .f32⟩ : BufTy).Contents (Elt Ideal)) (x3 : (⟨S768x768, .f32⟩ : BufTy).Contents (Elt Ideal))
  (x4 : (⟨S768, .f32⟩ : BufTy).Contents (Elt Ideal))

/-! ## Index equations: each layout stage's source index, at coordinates -/

/-- The split [8,1024,2304] → [8,1024,3,12,64]: entry (b, n, p, h, d) comes from column p·768 + h·64 + d of row (b, n). -/
theorem split_idx (b : Fin 8) (n : Fin 1024) (p : Fin 3) (h : Fin 12) (d : Fin 64) :
    Read.idx_main_v4 (ix5 b n p h d) = ix3 b n (Spec.col p h d) := by
  funext a
  apply Fin.ext
  have hb := b.isLt; have hn := n.isLt; have hp := p.isLt; have hh := h.isLt; have hd := d.isLt
  match a with
  | ⟨0, _⟩ =>
    show ((((b.val * 1024 + n.val) * 3 + p.val) * 12 + h.val) * 64 + d.val) / 2359296 = b.val
    omega
  | ⟨1, _⟩ =>
    show ((((b.val * 1024 + n.val) * 3 + p.val) * 12 + h.val) * 64 + d.val) / 2304 % 1024 = n.val
    omega
  | ⟨2, _⟩ =>
    show ((((b.val * 1024 + n.val) * 3 + p.val) * 12 + h.val) * 64 + d.val) % 2304 = p.val * 768 + h.val * 64 + d.val
    omega

/-- The transpose to [3,8,12,1024,64]: entry (p, b, h, n, d) comes from (b, n, p, h, d). -/
theorem transpose_idx (p : Fin 3) (b : Fin 8) (h : Fin 12) (n : Fin 1024) (d : Fin 64) :
    Read.idx_main_v5 (ix5 p b h n d) = ix5 b n p h d :=
  funext fun a => by
    match a with
    | ⟨0, _⟩ => rfl
    | ⟨1, _⟩ => rfl
    | ⟨2, _⟩ => rfl
    | ⟨3, _⟩ => rfl
    | ⟨4, _⟩ => rfl

/-- The three unit slices along the first axis: part 0, 1, 2. -/
theorem slice0_idx (b : Fin 8) (h : Fin 12) (n : Fin 1024) (d : Fin 64) :
    Read.idx_main_v6 (ix5 (0 : Fin 1) b h n d) = ix5 (0 : Fin 3) b h n d :=
  funext fun a => by
    match a with
    | ⟨0, _⟩ => rfl
    | ⟨1, _⟩ => rfl
    | ⟨2, _⟩ => rfl
    | ⟨3, _⟩ => rfl
    | ⟨4, _⟩ => rfl

theorem slice1_idx (b : Fin 8) (h : Fin 12) (n : Fin 1024) (d : Fin 64) :
    Read.idx_main_v8 (ix5 (0 : Fin 1) b h n d) = ix5 (1 : Fin 3) b h n d :=
  funext fun a => by
    match a with
    | ⟨0, _⟩ => rfl
    | ⟨1, _⟩ => rfl
    | ⟨2, _⟩ => rfl
    | ⟨3, _⟩ => rfl
    | ⟨4, _⟩ => rfl

theorem slice2_idx (b : Fin 8) (h : Fin 12) (n : Fin 1024) (d : Fin 64) :
    Read.idx_main_v10 (ix5 (0 : Fin 1) b h n d) = ix5 (2 : Fin 3) b h n d :=
  funext fun a => by
    match a with
    | ⟨0, _⟩ => rfl
    | ⟨1, _⟩ => rfl
    | ⟨2, _⟩ => rfl
    | ⟨3, _⟩ => rfl
    | ⟨4, _⟩ => rfl

/-- Dropping the unit axis [1,8,12,1024,64] → [8,12,1024,64] keeps the four coordinates. -/
theorem unit7_idx (b : Fin 8) (h : Fin 12) (n : Fin 1024) (d : Fin 64) :
    Read.idx_main_v7 (ix4 b h n d) = ix5 (0 : Fin 1) b h n d := by
  funext a
  apply Fin.ext
  have hb := b.isLt; have hh := h.isLt; have hn := n.isLt; have hd := d.isLt
  match a with
  | ⟨0, _⟩ => rfl
  | ⟨1, _⟩ =>
    show (((b.val * 12 + h.val) * 1024 + n.val) * 64 + d.val) / 786432 % 8 = b.val
    omega
  | ⟨2, _⟩ =>
    show (((b.val * 12 + h.val) * 1024 + n.val) * 64 + d.val) / 65536 % 12 = h.val
    omega
  | ⟨3, _⟩ =>
    show (((b.val * 12 + h.val) * 1024 + n.val) * 64 + d.val) / 64 % 1024 = n.val
    omega
  | ⟨4, _⟩ =>
    show (((b.val * 12 + h.val) * 1024 + n.val) * 64 + d.val) % 64 = d.val
    omega

theorem unit9_idx (b : Fin 8) (h : Fin 12) (n : Fin 1024) (d : Fin 64) :
    Read.idx_main_v9 (ix4 b h n d) = ix5 (0 : Fin 1) b h n d := by
  funext a
  apply Fin.ext
  have hb := b.isLt; have hh := h.isLt; have hn := n.isLt; have hd := d.isLt
  match a with
  | ⟨0, _⟩ => rfl
  | ⟨1, _⟩ =>
    show (((b.val * 12 + h.val) * 1024 + n.val) * 64 + d.val) / 786432 % 8 = b.val
    omega
  | ⟨2, _⟩ =>
    show (((b.val * 12 + h.val) * 1024 + n.val) * 64 + d.val) / 65536 % 12 = h.val
    omega
  | ⟨3, _⟩ =>
    show (((b.val * 12 + h.val) * 1024 + n.val) * 64 + d.val) / 64 % 1024 = n.val
    omega
  | ⟨4, _⟩ =>
    show (((b.val * 12 + h.val) * 1024 + n.val) * 64 + d.val) % 64 = d.val
    omega

theorem unit11_idx (b : Fin 8) (h : Fin 12) (n : Fin 1024) (d : Fin 64) :
    Read.idx_main_v11 (ix4 b h n d) = ix5 (0 : Fin 1) b h n d := by
  funext a
  apply Fin.ext
  have hb := b.isLt; have hh := h.isLt; have hn := n.isLt; have hd := d.isLt
  match a with
  | ⟨0, _⟩ => rfl
  | ⟨1, _⟩ =>
    show (((b.val * 12 + h.val) * 1024 + n.val) * 64 + d.val) / 786432 % 8 = b.val
    omega
  | ⟨2, _⟩ =>
    show (((b.val * 12 + h.val) * 1024 + n.val) * 64 + d.val) / 65536 % 12 = h.val
    omega
  | ⟨3, _⟩ =>
    show (((b.val * 12 + h.val) * 1024 + n.val) * 64 + d.val) / 64 % 1024 = n.val
    omega
  | ⟨4, _⟩ =>
    show (((b.val * 12 + h.val) * 1024 + n.val) * 64 + d.val) % 64 = d.val
    omega

/-- Laying the heads side by side, [8,1024,12,64] → [8,1024,768] after the transpose of [8,12,1024,64]:
    column c of row (b, n) comes from head c / 64, coordinate c % 64. -/
theorem merge_idx (b : Fin 8) (n : Fin 1024) (c : Fin 768) :
    Read.idx_main_v27 (Read.idx_main_v28 (ix3 b n c))
      = ix4 b (⟨c.val / 64, by omega⟩ : Fin 12) n (⟨c.val % 64, Nat.mod_lt _ (by decide)⟩ : Fin 64) := by
  funext a
  apply Fin.ext
  have hb := b.isLt; have hn := n.isLt; have hc := c.isLt
  match a with
  | ⟨0, _⟩ =>
    show ((b.val * 1024 + n.val) * 768 + c.val) / 786432 = b.val
    omega
  | ⟨1, _⟩ =>
    show ((b.val * 1024 + n.val) * 768 + c.val) / 64 % 12 = c.val / 64
    omega
  | ⟨2, _⟩ =>
    show ((b.val * 1024 + n.val) * 768 + c.val) / 768 % 1024 = n.val
    omega
  | ⟨3, _⟩ =>
    show ((b.val * 1024 + n.val) * 768 + c.val) % 64 = c.val % 64
    omega

/-! ## The stages -/

/-- The fused projection: x·wᵀ + β at (b, n, o). -/
theorem qkv_at (b : Fin 8) (n : Fin 1024) (o : Fin 2304) :
    Read.val_main_v3 (F := Ideal) x0 x1 x2 (ix3 b n o) = Spec.Qof x0 x1 x2 b n o := by
  rw [Read.val_main_v3_apply, Read.val_main_v0_apply, Read.val_main_v2_apply, Read.val_main_v1_apply]
  have el : ∀ k : Fin 768, Read.lidx_main_v0 (ix3 b n o) k = ix3 b n k := fun k => funext fun a => by
    match a with
    | ⟨0, _⟩ => rfl
    | ⟨1, _⟩ => rfl
    | ⟨2, _⟩ => rfl
  have er : ∀ k : Fin 768, Read.ridx_main_v0 (ix3 b n o) k = ix2 o k := fun k => funext fun a => by
    match a with
    | ⟨0, _⟩ => rfl
    | ⟨1, _⟩ => rfl
  have eb : Read.idx_main_v1 (Read.idx_main_v2 (ix3 b n o)) = ix1 o := funext fun a => by
    match a with
    | ⟨0, _⟩ => rfl
  simp only [el, er, eb, Ideal.addf_def]
  rfl

/-- After the split into (part, head, coordinate) and the transpose, entry (p, b, h, n, d) is column p·768 + h·64 + d of row (b, n). -/
theorem parts_at (p : Fin 3) (b : Fin 8) (h : Fin 12) (n : Fin 1024) (d : Fin 64) :
    Read.val_main_v5 (F := Ideal) x0 x1 x2 (ix5 p b h n d) = Spec.Qof x0 x1 x2 b n (Spec.col p h d) := by
  rw [Read.val_main_v5_apply, transpose_idx, Read.val_main_v4_apply, split_idx, qkv_at]

/-- The queries: part 0. -/
theorem queries_at (b : Fin 8) (h : Fin 12) (n : Fin 1024) (d : Fin 64) :
    Read.val_main_v7 (F := Ideal) x0 x1 x2 (ix4 b h n d) = Spec.Qof x0 x1 x2 b n (Spec.col 0 h d) := by
  rw [Read.val_main_v7_apply, unit7_idx, Read.val_main_v6_apply, slice0_idx, parts_at]

/-- The keys: part 1. -/
theorem keys_at (b : Fin 8) (h : Fin 12) (n : Fin 1024) (d : Fin 64) :
    Read.val_main_v9 (F := Ideal) x0 x1 x2 (ix4 b h n d) = Spec.Qof x0 x1 x2 b n (Spec.col 1 h d) := by
  rw [Read.val_main_v9_apply, unit9_idx, Read.val_main_v8_apply, slice1_idx, parts_at]

/-- The values: part 2. -/
theorem values_at (b : Fin 8) (h : Fin 12) (n : Fin 1024) (d : Fin 64) :
    Read.val_main_v11 (F := Ideal) x0 x1 x2 (ix4 b h n d) = Spec.Qof x0 x1 x2 b n (Spec.col 2 h d) := by
  rw [Read.val_main_v11_apply, unit11_idx, Read.val_main_v10_apply, slice2_idx, parts_at]

/-- The scaled scores: (Σ_d q·k) · 1/8. -/
theorem score_at (b : Fin 8) (h : Fin 12) (n m : Fin 1024) :
    Read.val_main_v14 (F := Ideal) x0 x1 x2 (ix4 b h n m) = Spec.score (Spec.Qof x0 x1 x2) b h n m := by
  rw [Read.val_main_v14_apply, Read.val_main_v12_apply, Read.val_main_v13_apply, Read.val_main_cst_apply]
  have el : ∀ k : Fin 64, Read.lidx_main_v12 (ix4 b h n m) k = ix4 b h n k := fun k => funext fun a => by
    match a with
    | ⟨0, _⟩ => rfl
    | ⟨1, _⟩ => rfl
    | ⟨2, _⟩ => rfl
    | ⟨3, _⟩ => rfl
  have er : ∀ k : Fin 64, Read.ridx_main_v12 (ix4 b h n m) k = ix4 b h m k := fun k => funext fun a => by
    match a with
    | ⟨0, _⟩ => rfl
    | ⟨1, _⟩ => rfl
    | ⟨2, _⟩ => rfl
    | ⟨3, _⟩ => rfl
  simp only [el, er, queries_at, keys_at, Ideal.mulf_def, Ideal.ofBits_def]
  rfl

/-- The f32 word of −∞ denotes the bottom of the extended reals. -/
theorem negInf_eq_bot : Spec.negInf = (⊥ : EReal) := by
  simp [Spec.negInf, Ideal.ofBits, Ideal.ieee]

/-- Row (b, h, n) of a [8,12,1024,1024] array with coordinate k put back on the last axis is (b, h, n, k). -/
theorem lift_lastAxis (hr : S8x12x1024x1024.Reduces [3] S8x12x1024) (b : Fin 8) (h : Fin 12) (n : Fin 1024)
    (k : Fin (S8x12x1024x1024.size 3)) : hr.lift (ix3 b h n) k = ix4 b h n (⟨k.val, k.isLt⟩ : Fin 1024) := by
  funext c
  apply Fin.ext
  match c with
  | ⟨0, _⟩ => rfl
  | ⟨1, _⟩ => rfl
  | ⟨2, _⟩ => rfl
  | ⟨3, _⟩ => rfl

/-- The host's max-reduce along the last axis, at (b, h, n), is the fold of `max` over the row from the initial value. -/
theorem hostMax_lastAxis (x : S8x12x1024x1024.Idx → EReal) (init : S_.Idx → EReal)
    (h' : S8x12x1024x1024.ReducesTo [3] S8x12x1024) (hu : 0 < S_.numel) (b : Fin 8) (h : Fin 12) (n : Fin 1024) :
    Host.reduce (FloatOps.maximumf (F := Ideal) (φ := .f32)) x init h' hu (ix3 b h n)
      = (Finset.univ : Finset (Fin 1024)).fold max (init (Shape.Idx.first hu)) (fun m => x (ix4 b h n m)) := by
  have hr : S8x12x1024x1024.Reduces [3] S8x12x1024 := by decide
  rw [Host.reduce_eq_fold_single (FloatOps.maximumf (F := Ideal) (φ := .f32)) x init h' hr hu]
  have hf : (x ∘ hr.lift (ix3 b h n)) = fun k : Fin 1024 => x (ix4 b h n k) :=
    funext fun k => congrArg x (lift_lastAxis hr b h n k)
  exact congrArg (fun f => Finset.fold max (init (Shape.Idx.first hu)) f (Finset.univ : Finset (Fin 1024))) hf

/-- The row maximum: the host's max-reduce from −∞, then a max with −∞ again, which changes nothing. -/
theorem rowMax_at (b : Fin 8) (h : Fin 12) (n : Fin 1024) :
    Read.val_main_v17 (F := Ideal) x0 x1 x2 (ix3 b h n) = Spec.rowMax (Spec.score (Spec.Qof x0 x1 x2) b h n) := by
  rw [Read.val_main_v17_apply, Read.val_main_v16_apply, Read.val_main_cst_1_apply]
  unfold Read.val_main_v15
  rw [hostMax_lastAxis, Read.val_main_cst_0_apply]
  simp only [score_at, Ideal.maximumf_def, Ideal.ofBits_def]
  show max Spec.negInf (Spec.rowMax (Spec.score (Spec.Qof x0 x1 x2) b h n)) = _
  rw [negInf_eq_bot, bot_sup_eq]

/-- The shifted exponentials of a row. -/
theorem expRow_at (b : Fin 8) (h : Fin 12) (n m : Fin 1024) :
    Read.val_main_v21 (F := Ideal) x0 x1 x2 (ix4 b h n m) = Spec.expRow (Spec.score (Spec.Qof x0 x1 x2) b h n) m := by
  rw [Read.val_main_v21_apply, Read.val_main_v20_apply, score_at, Read.val_main_v19_apply, Read.val_main_v18_apply]
  have e : Read.idx_main_v18 (Read.idx_main_v19 (ix4 b h n m)) = ix3 b h n := funext fun a => by
    match a with
    | ⟨0, _⟩ => rfl
    | ⟨1, _⟩ => rfl
    | ⟨2, _⟩ => rfl
  rw [e, rowMax_at, Ideal.hostUnary_exp_def, Ideal.subf_def]
  rfl

/-- The row's sum of exponentials: the host's sum from the zero word. -/
theorem expSum_at (b : Fin 8) (h : Fin 12) (n : Fin 1024) :
    Read.val_main_v22 (F := Ideal) x0 x1 x2 (ix3 b h n) = ∑ m' : Fin 1024, Spec.expRow (Spec.score (Spec.Qof x0 x1 x2) b h n) m' := by
  rw [Read.val_main_v22_apply, Read.val_main_cst_2_apply]
  have e : ∀ k : Fin 1024, Read.idx_main_v22 (ix3 b h n) k = ix4 b h n k := fun k => funext fun a => by
    match a with
    | ⟨0, _⟩ => rfl
    | ⟨1, _⟩ => rfl
    | ⟨2, _⟩ => rfl
    | ⟨3, _⟩ => rfl
  simp only [e, expRow_at, Ideal.ofBits_def, Ideal.ofBits_zero_f32, zero_add]

/-- The attention weights: the quotient of a row's exponential by the row's sum. -/
theorem attn_at (b : Fin 8) (h : Fin 12) (n m : Fin 1024) :
    Read.val_main_v25 (F := Ideal) x0 x1 x2 (ix4 b h n m) = Spec.attn (Spec.Qof x0 x1 x2) b h n m := by
  rw [Read.val_main_v25_apply, expRow_at, Read.val_main_v24_apply, Read.val_main_v23_apply]
  have e : Read.idx_main_v23 (Read.idx_main_v24 (ix4 b h n m)) = ix3 b h n := funext fun a => by
    match a with
    | ⟨0, _⟩ => rfl
    | ⟨1, _⟩ => rfl
    | ⟨2, _⟩ => rfl
  rw [e, expSum_at, Ideal.hostDivf_def]
  rfl

/-- The attended values: Σ_m attn · v. -/
theorem ctx_at (b : Fin 8) (h : Fin 12) (n : Fin 1024) (d : Fin 64) :
    Read.val_main_v26 (F := Ideal) x0 x1 x2 (ix4 b h n d) = Spec.ctx (Spec.Qof x0 x1 x2) b n h d := by
  rw [Read.val_main_v26_apply]
  have el : ∀ k : Fin 1024, Read.lidx_main_v26 (ix4 b h n d) k = ix4 b h n k := fun k => funext fun a => by
    match a with
    | ⟨0, _⟩ => rfl
    | ⟨1, _⟩ => rfl
    | ⟨2, _⟩ => rfl
    | ⟨3, _⟩ => rfl
  have er : ∀ k : Fin 1024, Read.ridx_main_v26 (ix4 b h n d) k = ix4 b h k d := fun k => funext fun a => by
    match a with
    | ⟨0, _⟩ => rfl
    | ⟨1, _⟩ => rfl
    | ⟨2, _⟩ => rfl
    | ⟨3, _⟩ => rfl
  simp only [el, er, attn_at, values_at]
  rfl

/-- The heads laid side by side: column c is coordinate c % 64 of head c / 64. -/
theorem ctxFlat_at (b : Fin 8) (n : Fin 1024) (c : Fin 768) :
    Read.val_main_v28 (F := Ideal) x0 x1 x2 (ix3 b n c) = Spec.ctxFlat (Spec.Qof x0 x1 x2) b n c := by
  rw [Read.val_main_v28_apply, Read.val_main_v27_apply, merge_idx, ctx_at]
  rfl

/-- The output projection: Σ_c ctx·pw[o, c] + pb[o]. -/
theorem out_at (b : Fin 8) (n : Fin 1024) (o : Fin 768) :
    Read.val_main_v32 (F := Ideal) x0 x1 x2 x3 x4 (ix3 b n o)
      = Spec.out (Spec.Qof x0 x1 x2) (fun o c => x3 (ix2 o c)) (fun o => x4 (ix1 o)) b n o := by
  rw [Read.val_main_v32_apply, Read.val_main_v29_apply, Read.val_main_v31_apply, Read.val_main_v30_apply]
  have el : ∀ k : Fin 768, Read.lidx_main_v29 (ix3 b n o) k = ix3 b n k := fun k => funext fun a => by
    match a with
    | ⟨0, _⟩ => rfl
    | ⟨1, _⟩ => rfl
    | ⟨2, _⟩ => rfl
  have er : ∀ k : Fin 768, Read.ridx_main_v29 (ix3 b n o) k = ix2 o k := fun k => funext fun a => by
    match a with
    | ⟨0, _⟩ => rfl
    | ⟨1, _⟩ => rfl
  have eb : Read.idx_main_v30 (Read.idx_main_v31 (ix3 b n o)) = ix1 o := funext fun a => by
    match a with
    | ⟨0, _⟩ => rfl
  simp only [el, er, eb, ctxFlat_at, Ideal.addf_def]
  rfl

/-! ## The two results -/

/-- The attention-weights result is the specification's array. -/
theorem attn_is_spec (m : (ℓ : Loc nD τ sig) → Buf (Elt Ideal) ℓ) (c : Dev nD) :
    Cert.ReferenceIdeal.Value.res_out1 (F := Ideal) m c
      = Cert.Spec.attnArr (m ((c.tc : Thread nD τ).loc main_arg0)) (m ((c.tc : Thread nD τ).loc main_arg1))
          (m ((c.tc : Thread nD τ).loc main_arg2)) := by
  refine (Read.val_main_v25_eq (F := Ideal) m c).trans ?_
  funext i
  obtain ⟨b, h, n, k, rfl⟩ : ∃ (b : Fin 8) (h : Fin 12) (n : Fin 1024) (k : Fin 1024), i = ix4 b h n k :=
    ⟨i 0, i 1, i 2, i 3, eq_ix4 i⟩
  exact attn_at _ _ _ b h n k

/-- The projected result is the specification's array. -/
theorem out_is_spec (m : (ℓ : Loc nD τ sig) → Buf (Elt Ideal) ℓ) (c : Dev nD) :
    Cert.ReferenceIdeal.Value.res_out0 (F := Ideal) m c
      = Cert.Spec.outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  refine (Read.val_main_v32_eq (F := Ideal) m c).trans ?_
  funext i
  obtain ⟨b, n, o, rfl⟩ : ∃ (b : Fin 8) (n : Fin 1024) (o : Fin 768), i = ix3 b n o := ⟨i 0, i 1, i 2, eq_ix3 i⟩
  exact out_at _ _ _ _ _ b n o

end Cert.ReferenceIdeal.RefValue

end
-- ==== Proof.KSpec.lean ====
/-
  What each region's output array holds, as a function of the arrays the region reads — the specification's
  functions instantiated at the kernel's own layouts.

  Region 0 reads X [8192, 768] (the rows (b, n) flattened), the TRANSPOSED weight Wt [768, 2304] and the bias as a
  row B2 [1, 2304], and writes  X · Wt + B2  into [8192, 2304].
  Region 1 reads that array re-laid as Q5 [8, 1024, 2304], the TRANSPOSED projection weight PWt [768, 768] and the
  projection bias as a row PB2 [1, 768]; it writes the attention weights [8, 12, 1024, 1024] and the projected
  result [8, 1024, 768].
-/
import proofs.«402962_j1709396984003_3_alg».proof.Proof.Spec

noncomputable section

namespace Cert.KSpec

open Idealize.ShloMosaic Idealize.ShloMosaic.ValueIdx Cert.Spec

abbrev SX2 : Shape := ⟨2, ![8192, 768]⟩
abbrev SWt : Shape := ⟨2, ![768, 2304]⟩
abbrev SB2 : Shape := ⟨2, ![1, 2304]⟩
abbrev SQ2 : Shape := ⟨2, ![8192, 2304]⟩
abbrev SQ5 : Shape := ⟨3, ![8, 1024, 2304]⟩
abbrev SPB2 : Shape := ⟨2, ![1, 768]⟩

/-- Region 0's result: row `r` of `X` against column `o` of the transposed weight, plus the bias row. -/
def G0 (X : SX2.Idx → EReal) (Wt : SWt.Idx → EReal) (B2 : SB2.Idx → EReal) : SQ2.Idx → EReal :=
  fun i => (∑ k : Fin 768, X (ix2 (i 0) k) * Wt (ix2 k (i 1))) + B2 (ix2 (0 : Fin 1) (i 1))

/-- The fused projection as region 1 finds it. -/
def Q5of (Q5 : SQ5.Idx → EReal) : Fin 8 → Fin 1024 → Fin 2304 → EReal := fun b n o => Q5 (ix3 b n o)

/-- Region 1's first result: the attention weights of the projection it is handed. -/
def G5 (Q5 : SQ5.Idx → EReal) : SATT.Idx → EReal :=
  fun i => attn (Q5of Q5) (i 0) (i 1) (i 2) (i 3)

/-- Region 1's second result: the attended values projected through the transposed weight, plus the bias row. -/
def G6 (Q5 : SQ5.Idx → EReal) (PWt : SPW.Idx → EReal) (PB2 : SPB2.Idx → EReal) : SX.Idx → EReal :=
  fun i => out (Q5of Q5) (fun o c => PWt (ix2 c o)) (fun o => PB2 (ix2 (0 : Fin 1) o)) (i 0) (i 1) (i 2)

end Cert.KSpec

end
-- ==== Proof.Val0.lean ====
/- The value of region 0's output array over the extended reals. At each of its 8 grid points the region writes
   back a band of 1024 rows of the [8192, 2304] array; what it writes at row p, column q of the band is the inner
   product of row p of the point's activation block with column q of the weight matrix, plus entry q of the bias
   row. Each band is therefore the restriction of ONE function of the whole arrays — row r of X against column o of
   the weights plus the bias at o — and the 8 bands fill the array, so after the region the array is that function. -/
import proofs.«402962_j1709396984003_3_alg».proof.Proof.HRegion0
import proofs.«402962_j1709396984003_3_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The product's operand indices, axis by axis

The product contracts axis 1 of the activations [1024, 768] with axis 0 of the weights [768, 2304]: at output index
`j` and contraction index `q` the left operand is read at (j 0, q) and the right one at (q, j 1). -/

theorem lhs_pay_0 (j : S1024x2304.Idx) (q : dot_S1024x768_S768x2304_S1024x2304_1_0_0_1_n_n.contr.Idx) :
    (dot_S1024x768_S768x2304_S1024x2304_1_0_0_1_n_n.lhsIdx j q 0).val = (j 0).val := by
  unfold DotDims.lhsIdx
  rw [dif_neg (show ¬(0 : Fin S1024x768.rank) ∈ dot_S1024x768_S768x2304_S1024x2304_1_0_0_1_n_n.lhsBatch by decide), dif_pos (show (0 : Fin S1024x768.rank) ∈ dot_S1024x768_S768x2304_S1024x2304_1_0_0_1_n_n.lhsNonContracting by decide)]
  rfl
theorem lhs_pay_1 (j : S1024x2304.Idx) (q : dot_S1024x768_S768x2304_S1024x2304_1_0_0_1_n_n.contr.Idx) :
    (dot_S1024x768_S768x2304_S1024x2304_1_0_0_1_n_n.lhsIdx j q 1).val = (q ⟨0, by decide⟩).val :=
  dot_S1024x768_S768x2304_S1024x2304_1_0_0_1_n_n.lhsIdx_val_of_single rfl j q
theorem rhs_pay_0 (j : S1024x2304.Idx) (q : dot_S1024x768_S768x2304_S1024x2304_1_0_0_1_n_n.contr.Idx) :
    (dot_S1024x768_S768x2304_S1024x2304_1_0_0_1_n_n.rhsIdx j q 0).val = (q ⟨0, by decide⟩).val :=
  dot_S1024x768_S768x2304_S1024x2304_1_0_0_1_n_n.rhsIdx_val_of_single rfl j q
theorem rhs_pay_1 (j : S1024x2304.Idx) (q : dot_S1024x768_S768x2304_S1024x2304_1_0_0_1_n_n.contr.Idx) :
    (dot_S1024x768_S768x2304_S1024x2304_1_0_0_1_n_n.rhsIdx j q 1).val = (j 1).val := by
  unfold DotDims.rhsIdx
  rw [dif_neg (show ¬(1 : Fin S768x2304.rank) ∈ dot_S1024x768_S768x2304_S1024x2304_1_0_0_1_n_n.rhsBatch by decide), dif_pos (show (1 : Fin S768x2304.rank) ∈ dot_S1024x768_S768x2304_S1024x2304_1_0_0_1_n_n.rhsNonContracting by decide)]
  rfl

/-- The product into a zero accumulator, at (p, q): the sum over the 768 contracted coordinates. -/
theorem matmul_at (a : FVec Ideal S1024x768 .bf16) (b : FVec Ideal S768x2304 .bf16) (p : Fin 1024) (q : Fin 2304) :
    matmul dot_S1024x768_S768x2304_S1024x2304_1_0_0_1_n_n none a b (constant (F := Ideal) S1024x2304 .f32 0x00000000#32) (ix2 p q)
      = ∑ k : Fin 768, a (ix2 p k) * b (ix2 k q) := by
  simp only [matmul]
  rw [Ideal.matmul_constant_zero_apply, ← Equiv.sum_comp (contrEquiv1 dot_S1024x768_S768x2304_S1024x2304_1_0_0_1_n_n 768 rfl rfl).symm]
  refine Finset.sum_congr rfl fun k _ => ?_
  have hk := contrEquiv1_symm_val dot_S1024x768_S768x2304_S1024x2304_1_0_0_1_n_n 768 rfl rfl k
  have el : dot_S1024x768_S768x2304_S1024x2304_1_0_0_1_n_n.lhsIdx (ix2 p q) ((contrEquiv1 dot_S1024x768_S768x2304_S1024x2304_1_0_0_1_n_n 768 rfl rfl).symm k) = ix2 p k := funext fun ax => Fin.ext (by
    match ax with
    | ⟨0, _⟩ => exact lhs_pay_0 _ _
    | ⟨1, _⟩ => exact (lhs_pay_1 _ _).trans hk)
  have er : dot_S1024x768_S768x2304_S1024x2304_1_0_0_1_n_n.rhsIdx (ix2 p q) ((contrEquiv1 dot_S1024x768_S768x2304_S1024x2304_1_0_0_1_n_n 768 rfl rfl).symm k) = ix2 k q := funext fun ax => Fin.ext (by
    match ax with
    | ⟨0, _⟩ => exact (rhs_pay_0 _ _).trans hk
    | ⟨1, _⟩ => exact rhs_pay_1 _ _)
  rw [el, er]

/-! ## The payload at an index -/

/-- What the body stores at (p, q) of the output block, from the three loaded blocks: the changes of format are
    the identity on the extended reals and the casts keep the shape, so what is left is the inner product of row p
    of the activations with column q of the weights, plus the bias row at q. -/
theorem pay_at (x0 : Vec Ideal S1024x768 .f32) (x1 : Vec Ideal S768x2304 .bf16) (x2 : Vec Ideal S1x2304 .f32)
    (p : Fin 1024) (q : Fin 2304) :
    k0_pay1 (F := Ideal) x0 x1 x2 (ix2 p q) = (∑ k : Fin 768, x0 (ix2 p k) * x1 (ix2 k q)) + x2 (ix2 (0 : Fin 1) q) := by
  unfold k0_pay1
  rw [truncf_apply, addf_apply, shapeCast_self, shapeCast_self, shapeCast_self]
  refine congrArg₂ (· + ·) ?_ ?_
  · exact matmul_at _ _ p q
  · exact broadcastTo_1b_ab_apply x2 _ p q

/-! ## From the bands to the array -/

-- the buffer contents of the core when the region is entered
variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at point `t`: the activations' and the output's bands are band `t` of their
    arrays, on the row axis; the weight matrix and the bias row are the whole of theirs at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the activations' block at point `t` is row `1024·t + p` of the activations. -/
theorem xblk_at (c : Dev nD) (t : Fin cfg0.N) (p : Fin 1024) (k : Fin 768) (r : Fin 8192) (hr : r.val = 1024 * t.val + p.val) :
    (iblk0 V c 0 t : Vec Ideal S1024x768 .f32) (ix2 p k) = (V c main_call0_v3 : S8192x768.Idx → EReal) (ix2 r k) := by
  obtain ⟨e0, e1, -⟩ := index_facts t
  unfold iblk0
  rw [View.read_apply]
  show V c main_call0_v3 _ = V c main_call0_v3 _
  congr 1
  funext a
  apply Fin.ext
  match a with
  | ⟨0, _⟩ => show win0_0.index t (0 : Fin 2) * 1024 + 1 * p.val = r.val; omega
  | ⟨1, _⟩ => show win0_0.index t (1 : Fin 2) * 768 + 1 * k.val = k.val; omega

/-- The weights' block at any point is the weight matrix. -/
theorem wblk_at (c : Dev nD) (t : Fin cfg0.N) (k : Fin 768) (q : Fin 2304) (o : Fin 2304) (ho : o.val = q.val) :
    (iblk0 V c 1 t : Vec Ideal S768x2304 .bf16) (ix2 k q) = (V c main_call0_v1 : S768x2304.Idx → EReal) (ix2 k o) := by
  obtain ⟨-, -, e2, e3, -⟩ := index_facts t
  unfold iblk0
  rw [View.read_apply]
  show V c main_call0_v1 _ = V c main_call0_v1 _
  congr 1
  funext a
  apply Fin.ext
  match a with
  | ⟨0, _⟩ => show win0_1.index t (0 : Fin 2) * 768 + 1 * k.val = k.val; omega
  | ⟨1, _⟩ => show win0_1.index t (1 : Fin 2) * 2304 + 1 * q.val = o.val; omega

/-- The bias block at any point is the bias row. -/
theorem bblk_at (c : Dev nD) (t : Fin cfg0.N) (q : Fin 2304) (o : Fin 2304) (ho : o.val = q.val) :
    (iblk0 V c 2 t : Vec Ideal S1x2304 .f32) (ix2 (0 : Fin 1) q) = (V c main_call0_v2 : S1x2304.Idx → EReal) (ix2 (0 : Fin 1) o) := by
  obtain ⟨-, -, -, -, e4, e5, -⟩ := index_facts t
  unfold iblk0
  rw [View.read_apply]
  show V c main_call0_v2 _ = V c main_call0_v2 _
  congr 1
  funext a
  apply Fin.ext
  match a with
  | ⟨0, _⟩ => show win0_2.index t (0 : Fin 2) * 1 + 1 * 0 = 0; omega
  | ⟨1, _⟩ => show win0_2.index t (1 : Fin 2) * 2304 + 1 * q.val = o.val; omega

/-- What point `t` stores at (p, q) of its band is the whole-array function at the array index `i` that (p, q) of
    band `t` is: row `1024·t + p`, column `q`. -/
theorem band_at (c : Dev nD) (t : Fin cfg0.N) (p : Fin 1024) (q : Fin 2304) (i : S8192x2304.Idx)
    (hi0 : (i 0).val = 1024 * t.val + p.val) (hi1 : (i 1).val = q.val) :
    k0_pay1 (F := Ideal) (iblk0 V c 0 t) (iblk0 V c 1 t) (iblk0 V c 2 t) (ix2 p q)
      = Cert.KSpec.G0 (V c main_call0_v3) (V c main_call0_v1) (V c main_call0_v2) i := by
  refine (pay_at (iblk0 V c 0 t) (iblk0 V c 1 t) (iblk0 V c 2 t) p q).trans ?_
  unfold Cert.KSpec.G0
  refine congrArg₂ (· + ·) (Finset.sum_congr rfl fun k _ => congrArg₂ (· * ·) ?_ ?_) ?_
  · exact xblk_at V c t p k (i 0) hi0
  · exact wblk_at V c t k q (i 1) hi1
  · exact bblk_at V c t q (i 1) hi1

/-- What point `t` writes back is band `t` of the whole-array function. -/
theorem flushed3_eq (c : Dev nD) (t : Fin cfg0.N) :
    (dat0 (F := Ideal) V c).flushed 3 t
      = ((cfg0.win 3).blk t).view.read (Elt Ideal) (Cert.KSpec.G0 (V c main_call0_v3) (V c main_call0_v1) (V c main_call0_v2)) := by
  show (cfg0.win 3).cut (grid0.coords t) ((dat0 V c).after 3 t) = _
  rw [after0_3]
  unfold out0_3
  rw [View.canon_unit_zero zero_offsets]
  simp only [View.ld_unit_zero (S := S1024x768) zero_offsets, View.ld_unit_zero (S := S768x2304) zero_offsets, View.ld_unit_zero (S := S1x2304) zero_offsets]
  obtain ⟨-, -, -, -, -, -, e6, e7⟩ := index_facts t
  funext j
  obtain ⟨p, q, rfl⟩ : ∃ (p : Fin 1024) (q : Fin 2304), j = ix2 p q := ⟨j 0, j 1, eq_ix2 j⟩
  rw [View.read_apply]
  refine band_at V c t p q _ ?_ ?_
  · show win0_3.index t (0 : Fin 2) * 1024 + 1 * p.val = 1024 * t.val + p.val; omega
  · show win0_3.index t (1 : Fin 2) * 2304 + 1 * q.val = q.val; omega

/-- An index of the array lies in band `t` iff each coordinate lies in the band's range on its axis. -/
theorem mem_blk3 (t : Fin cfg0.N) (i : S8192x2304.Idx) :
    i ∈ ((cfg0.win 3).blk t).view.set ↔ ∀ a : Fin 2, win0_3.index t a * S1024x2304.size a ≤ (i a).val ∧ (i a).val < win0_3.index t a * S1024x2304.size a + S1024x2304.size a := by
  show i ∈ ((View.whole main_call0_v4).slice (win0_3.rect t)).set ↔ _
  rw [View.set_slice_whole, Rect.mem_set_unit]
  exact Iff.rfl

/-- Every index of the array lies in the band of some point that writes back: row `r` in band `r / 1024`. -/
theorem covered3 (i : S8192x2304.Idx) :
    ∃ t : Fin cfg0.N, (cfg0.win 3).flush t = true ∧ i ∈ ((cfg0.win 3).blk t).view.set := by
  have hi0 : (i 0).val < 8192 := (i 0).isLt
  have hi1 : (i 1).val < 2304 := (i 1).isLt
  have hN : cfg0.N = 8 := N_0
  let t : Fin cfg0.N := ⟨(i 0).val / 1024, by omega⟩
  obtain ⟨-, -, -, -, -, -, e6, e7⟩ := index_facts t
  have ht : t.val = (i 0).val / 1024 := rfl
  refine ⟨t, flush0_3 t, ?_⟩
  rw [mem_blk3]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2304 ≤ (i 1).val ∧ (i 1).val < win0_3.index t (1 : Fin 2) * 2304 + 2304; omega

/-- After the region the output array is the whole-array function of the arrays the region read. -/
theorem final0 (c : Dev nD) :
    (dat0 (F := Ideal) V c).arrAt 3 cfg0.N = Cert.KSpec.G0 (V c main_call0_v3) (V c main_call0_v1) (V c main_call0_v2) :=
  (dat0 (F := Ideal) V c).arrAt_eq_of_cover 3 (Cert.KSpec.G0 (V c main_call0_v3) (V c main_call0_v1) (V c main_call0_v2))
    (fun t _ => flushed3_eq V c t) covered3

end Cert.KernelIdeal.Val

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.Val1Attn.lean ====
/-
  The attention weights the kernel leaves, read entry by entry on the extended reals.

  The query and key blocks of a grid point are [1, 1024, 128]: two heads side by side, 64 columns each, the first from
  column 0 and the second from column 64.  For one head, entry (n, m) of the weights is

      exp (s n m − max_m' s n m') / ∑_m' exp (s n m' − max_m' s n m'),
      s n m' = (∑_{d < 64} q[0, n, o + d] · k[0, m', o + d]) · 1/8,

  with o the head's column offset: the softmax, evaluated at m, of row n's scaled scores against every key row.  The
  steps below read each stage at an index: the block viewed [1024, 128] and cut to the head's columns; the product into
  zero contracting those columns; the scale; the row maximum from −∞ and the row sum, each kept as a column and spread
  back along the row; the quotient.
-/
import proofs.«402962_j1709396984003_3_alg».proof.Proof.HRegion1Kernel
import proofs.«402962_j1709396984003_3_alg».proof.Proof.KSpec
import proofs.«402962_j1709396984003_3_alg».proof.Proof.LibKeepdims
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.ValueIdx

/-- Row n of the q block against every row of the k block over the 64 columns from o, scaled: the score row. -/
def srow (x0 x1 : Vec Ideal S1x1024x128 .bf16) (o : ℕ) (ho : o + 64 ≤ 128) (n : Fin 1024) : Fin 1024 → EReal :=
  fun m' => (∑ d : Fin 64, x0 (ix3 (0 : Fin 1) n ⟨o + d.val, by omega⟩) * x1 (ix3 (0 : Fin 1) m' ⟨o + d.val, by omega⟩)) * Cert.Spec.eighth

/-! ## The layout reads -/

/-- A [1, 1024, 128] block viewed [1024, 128] and cut to the 64 columns from o reads, at (n, d), the block at (0, n, o + d). -/
theorem head_cols (v : Vec Ideal S1x1024x128 .bf16) (o : ℕ) (ho : o + 64 ≤ 128) (h : S1024x128.Slices ![0, o] S1024x64)
    (n : Fin 1024) (d : Fin 64) :
    extractStridedSlice S1024x64 ![0, o] (shapeCast S1024x128 v shapeCasts_S1x1024x128_S1024x128) h (ix2 n d)
      = v (ix3 (0 : Fin 1) n ⟨o + d.val, by omega⟩) := by
  refine (extractStridedSlice_apply ![0, o] _ h (ix2 n d) (ix2 n (⟨o + d.val, by omega⟩ : Fin 128)) fun a => ?_).trans ?_
  · match a with
    | ⟨0, _⟩ => show n.val = 0 + n.val; omega
    | ⟨1, _⟩ => rfl
  · refine shapeCast_apply v _ _ _ ?_
    rw [Shape.rowMajor_val_three, Shape.rowMajor_val_two]
    show (0 * 1024 + n.val) * 128 + (o + d.val) = n.val * 128 + (o + d.val)
    omega

/-! ## The scores: a product into zero contracting the 64 columns, then the scale -/

/-- The first operand is read on row `i 0` … -/
theorem lhs_qk_0 (i : S1024x1024.Idx) (q : dot_S1024x64_S1024x64_S1024x1024_1_1_0_0_n_n.contr.Idx) :
    (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
/-- … at the contracted column. -/
theorem lhs_qk_1 (i : S1024x1024.Idx) (q : dot_S1024x64_S1024x64_S1024x1024_1_1_0_0_n_n.contr.Idx) :
    (dot_S1024x64_S1024x64_S1024x1024_1_1_0_0_n_n.lhsIdx i q 1).val = (q ⟨0, by decide⟩).val :=
  dot_S1024x64_S1024x64_S1024x1024_1_1_0_0_n_n.lhsIdx_val_of_single rfl i q
/-- The second operand is read on row `i 1` (both operands contract their columns) … -/
theorem rhs_qk_0 (i : S1024x1024.Idx) (q : dot_S1024x64_S1024x64_S1024x1024_1_1_0_0_n_n.contr.Idx) :
    (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
/-- … at the same contracted column. -/
theorem rhs_qk_1 (i : S1024x1024.Idx) (q : dot_S1024x64_S1024x64_S1024x1024_1_1_0_0_n_n.contr.Idx) :
    (dot_S1024x64_S1024x64_S1024x1024_1_1_0_0_n_n.rhsIdx i q 1).val = (q ⟨0, by decide⟩).val :=
  dot_S1024x64_S1024x64_S1024x1024_1_1_0_0_n_n.rhsIdx_val_of_single rfl i q

/-- Entry (n, m) of the product of two [1024, 64] operands contracting their columns, into zero: the sum over the 64
    columns of row n of the first times row m of the second. -/
theorem qk_apply (a b : FVec Ideal S1024x64 .bf16) (n m : Fin 1024) :
    matmul dot_S1024x64_S1024x64_S1024x1024_1_1_0_0_n_n none a b (constant (F := Ideal) S1024x1024 .f32 0x00000000#32) (ix2 n m)
      = ∑ d : Fin 64, a (ix2 n d) * b (ix2 m d) := by
  refine (Ideal.matmul_constant_zero_apply dot_S1024x64_S1024x64_S1024x1024_1_1_0_0_n_n none a b (ix2 n m)).trans ?_
  rw [← Equiv.sum_comp (ValueIdx.contrEquiv1 dot_S1024x64_S1024x64_S1024x1024_1_1_0_0_n_n 64 rfl rfl).symm]
  refine Finset.sum_congr rfl fun k _ => ?_
  have hk := ValueIdx.contrEquiv1_symm_val dot_S1024x64_S1024x64_S1024x1024_1_1_0_0_n_n 64 rfl rfl k
  have el : dot_S1024x64_S1024x64_S1024x1024_1_1_0_0_n_n.lhsIdx (ix2 n m) ((ValueIdx.contrEquiv1 dot_S1024x64_S1024x64_S1024x1024_1_1_0_0_n_n 64 rfl rfl).symm k) = ix2 n k := funext fun ax => Fin.ext (by
    match ax with
    | ⟨0, _⟩ => exact lhs_qk_0 _ _
    | ⟨1, _⟩ => exact (lhs_qk_1 _ _).trans hk)
  have er : dot_S1024x64_S1024x64_S1024x1024_1_1_0_0_n_n.rhsIdx (ix2 n m) ((ValueIdx.contrEquiv1 dot_S1024x64_S1024x64_S1024x1024_1_1_0_0_n_n 64 rfl rfl).symm k) = ix2 m k := funext fun ax => Fin.ext (by
    match ax with
    | ⟨0, _⟩ => exact rhs_qk_0 _ _
    | ⟨1, _⟩ => exact (rhs_qk_1 _ _).trans hk)
  rw [el, er]

/-- The scaled score at (n, m). -/
theorem score_apply (a b : FVec Ideal S1024x64 .bf16) (n m : Fin 1024) :
    mulf (matmul dot_S1024x64_S1024x64_S1024x1024_1_1_0_0_n_n none a b (constant (F := Ideal) S1024x1024 .f32 0x00000000#32))
        (broadcast S1024x1024 (Scalar.ofBits (F := Ideal) .f32 0x3E000000#32)) (ix2 n m)
      = (∑ d : Fin 64, a (ix2 n d) * b (ix2 m d)) * Cert.Spec.eighth :=
  congrArg (· * Cert.Spec.eighth) (qk_apply a b n m)

/-! ## The softmax of a [1024, 1024] array of scores, row by row -/

/-- The inserted index of the lane reduction: row n with lane k put back is (n, k). -/
theorem lane_lift (n : Fin 1024) (k : Fin 1024) : reduces_S1024x1024_S1024.lift (ix1 n) k = ix2 n k :=
  funext fun a => Fin.ext (by match a with | ⟨0, _⟩ => rfl | ⟨1, _⟩ => rfl)

/-- The lane maximum from −∞, kept as a column and spread back along the lanes: at (n, m) it is row n's maximum. -/
theorem rowmax_apply (s : FVec Ideal S1024x1024 .f32) (n m : Fin 1024) :
    broadcastTo S1024x1024 (shapeCast S1024x1 (multiReduction (F := Ideal) .maximumf [1] S1024 s 0xFF800000#32 reduces_S1024x1024_S1024 (.inl rfl) rfl) shapeCasts_S1024_S1024x1) broadcasts_S1024x1_S1024x1024 (ix2 n m)
      = Cert.Spec.rowMax (fun m' => s (ix2 n m')) := by
  refine (Cert.Lib.keepdims_apply _ shapeCasts_S1024_S1024x1 broadcasts_S1024x1_S1024x1024 n m).trans ?_
  refine (Ideal.multiReduction_maximumf_single s _ reduces_S1024x1024_S1024 _ _ (ix1 n)).trans ?_
  have e : (s ∘ reduces_S1024x1024_S1024.lift (ix1 n)) = fun m' : Fin 1024 => s (ix2 n m') :=
    funext fun k => congrArg s (lane_lift n k)
  rw [e]
  rfl

/-- The shifted exponential at (n, m). -/
theorem exps_apply (s : FVec Ideal S1024x1024 .f32) (n m : Fin 1024) :
    exp (subf s (broadcastTo S1024x1024 (shapeCast S1024x1 (multiReduction (F := Ideal) .maximumf [1] S1024 s 0xFF800000#32 reduces_S1024x1024_S1024 (.inl rfl) rfl) shapeCasts_S1024_S1024x1) broadcasts_S1024x1_S1024x1024)) (ix2 n m)
      = Cert.Spec.expRow (fun m' => s (ix2 n m')) m :=
  congrArg (fun r => Ideal.exp (s (ix2 n m) - r)) (rowmax_apply s n m)

/-- The lane sum kept as a column and spread back along the lanes: at (n, m) it is row n's sum. -/
theorem rowsum_apply (e : FVec Ideal S1024x1024 .f32) (n m : Fin 1024) :
    broadcastTo S1024x1024 (shapeCast S1024x1 (multiReduction (F := Ideal) .add [1] S1024 e 0x00000000#32 reduces_S1024x1024_S1024 (.inl rfl) rfl) shapeCasts_S1024_S1024x1) broadcasts_S1024x1_S1024x1024 (ix2 n m)
      = ∑ m' : Fin 1024, e (ix2 n m') := by
  refine (Cert.Lib.keepdims_apply _ shapeCasts_S1024_S1024x1 broadcasts_S1024x1_S1024x1024 n m).trans ?_
  refine (Ideal.multiReduction_add_single e _ reduces_S1024x1024_S1024 _ _ (ix1 n)).trans ?_
  exact Finset.sum_congr rfl fun k _ => congrArg e (lane_lift n k)

/-- The quotient of the shifted exponential by its row sum at (n, m): the softmax of row n at m. -/
theorem softmax_apply (s : FVec Ideal S1024x1024 .f32) (n m : Fin 1024) :
    divf (exp (subf s (broadcastTo S1024x1024 (shapeCast S1024x1 (multiReduction (F := Ideal) .maximumf [1] S1024 s 0xFF800000#32 reduces_S1024x1024_S1024 (.inl rfl) rfl) shapeCasts_S1024_S1024x1) broadcasts_S1024x1_S1024x1024)))
        (broadcastTo S1024x1024 (shapeCast S1024x1 (multiReduction (F := Ideal) .add [1] S1024
          (exp (subf s (broadcastTo S1024x1024 (shapeCast S1024x1 (multiReduction (F := Ideal) .maximumf [1] S1024 s 0xFF800000#32 reduces_S1024x1024_S1024 (.inl rfl) rfl) shapeCasts_S1024_S1024x1) broadcasts_S1024x1_S1024x1024)))
          0x00000000#32 reduces_S1024x1024_S1024 (.inl rfl) rfl) shapeCasts_S1024_S1024x1) broadcasts_S1024x1_S1024x1024) (ix2 n m)
      = Cert.Spec.softmax (fun m' => s (ix2 n m')) m :=
  congrArg₂ Ideal.div (exps_apply s n m)
    ((rowsum_apply _ n m).trans (Finset.sum_congr rfl fun m' _ => exps_apply s n m'))

/-! ## The two heads of a grid point -/

/-- The first head's weights at (n, m): the softmax of the score row over columns 0..63. -/
theorem pay7_apply (x0 x1 : Vec Ideal S1x1024x128 .bf16) (n m : Fin 1024) :
    k1_pay7 (F := Ideal) x0 x1 (ix2 n m) = Cert.Spec.softmax (srow x0 x1 0 (by omega) n) m := by
  unfold k1_pay7 k1_pay3 k1_pay4
  refine (softmax_apply _ n m).trans ?_
  refine congrArg (fun r => Cert.Spec.softmax r m) (funext fun m' => ?_)
  refine (score_apply _ _ n m').trans ?_
  refine congrArg (· * Cert.Spec.eighth) (Finset.sum_congr rfl fun d _ => ?_)
  exact congrArg₂ (· * ·) (head_cols x0 0 (by omega) slices_S1024x128_o0_0_S1024x64 n d)
    (head_cols x1 0 (by omega) slices_S1024x128_o0_0_S1024x64 m' d)

/-- The second head's weights at (n, m): the softmax of the score row over columns 64..127. -/
theorem pay12_apply (x0 x1 : Vec Ideal S1x1024x128 .bf16) (n m : Fin 1024) :
    k1_pay12 (F := Ideal) (k1_pay3 x0) (k1_pay4 x1) (ix2 n m) = Cert.Spec.softmax (srow x0 x1 64 (by omega) n) m := by
  unfold k1_pay12 k1_pay3 k1_pay4
  refine (softmax_apply _ n m).trans ?_
  refine congrArg (fun r => Cert.Spec.softmax r m) (funext fun m' => ?_)
  refine (score_apply _ _ n m').trans ?_
  refine congrArg (· * Cert.Spec.eighth) (Finset.sum_congr rfl fun d _ => ?_)
  exact congrArg₂ (· * ·) (head_cols x0 64 (by omega) slices_S1024x128_o0_64_S1024x64 n d)
    (head_cols x1 64 (by omega) slices_S1024x128_o0_64_S1024x64 m' d)

end Cert.KernelIdeal.Val

end
-- ==== Proof.Val1AttnArr.lean ====
/- The value of region 1's attention-weights array over the extended reals. Grid point (b, j) of the 8 x 6 grid
   writes back the two heads 2j, 2j+1 of batch b: a [1, 2, 1024, 1024] block of the [8, 12, 1024, 1024] array. Head h
   of the pair uses columns 64h .. 64h+63 of the point's query and key blocks, which are columns 128j .. 128j+127 of
   the query third and of the key third of the fused projection of batch b; so entry (n, m) of head h of the block is
   the softmax, over the row of scaled scores of query row n of head 2j+h against every key row, taken at m. Every
   block is therefore the restriction of ONE function of the projection array, and the 48 blocks fill the array. -/
import proofs.«402962_j1709396984003_3_alg».proof.Proof.Val1Attn
import proofs.«402962_j1709396984003_3_alg».proof.Proof.HRegion1
import proofs.«402962_j1709396984003_3_alg».proof.Proof.HRegion1Kernel
import proofs.«402962_j1709396984003_3_alg».proof.Proof.KSpec
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The two heads' block as one function -/

/-- An [a, b] array cast to [1, 1, a, b] reads, at (u, v, i, j), the operand at (i, j). -/
theorem cast_to_head_block_apply {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

/-- Head `h` of the pair uses the 64 columns from `64·h` of the 128-column blocks. -/
theorem pair_head_cols (h : Fin 2) : 64 * h.val + 64 ≤ 128 := by omega

/-- The pair's attention weights as one function of the block index (0, h, n, m): the softmax of head h's score
    row of query row n, at m. -/
def pairW (x0 x1 : Vec Ideal S1x1024x128 .bf16) : Vec Ideal S1x2x1024x1024 .f32 :=
  fun y => Cert.Spec.softmax (srow x0 x1 (64 * (y 1).val) (pair_head_cols (y 1)) (y 2)) (y 3)

/-- The second head's store, over [0, 1, :, :], holds that function there. -/
theorem second_head_piece (x0 x1 : Vec Ideal S1x1024x128 .bf16) (x : S1x1x1024x1024.Idx) :
    k1_pay13 (F := Ideal) (k1_pay3 x0) (k1_pay4 x1) x = pairW x0 x1 (r1a1.emb x) := by
  obtain ⟨u, v, n, m, rfl⟩ : ∃ (u v : Fin 1) (n m : Fin 1024), x = ix4 u v n m := ⟨x 0, x 1, x 2, x 3, eq_ix4 x⟩
  have hu : u.val = 0 := by omega
  have hv : v.val = 0 := by omega
  have e : r1a1.emb (ix4 u v n m) = ix4 (0 : Fin 1) (1 : Fin 2) n m := funext fun a => Fin.ext (by
    match a with
    | ⟨0, _⟩ => show 0 + 1 * u.val = 0; omega
    | ⟨1, _⟩ => show 1 + 1 * v.val = 1; omega
    | ⟨2, _⟩ => show 0 + 1 * n.val = n.val; omega
    | ⟨3, _⟩ => show 0 + 1 * m.val = m.val; omega)
  rw [e]
  unfold k1_pay13
  exact (cast_to_head_block_apply _ _ u v n m).trans (pay12_apply x0 x1 n m)

/-- The first head's store, over [0, 0, :, :], holds it there. -/
theorem first_head_piece (x0 x1 : Vec Ideal S1x1024x128 .bf16) (x : S1x1x1024x1024.Idx) :
    k1_pay8 (F := Ideal) x0 x1 x = pairW x0 x1 (r1a0.emb x) := by
  obtain ⟨u, v, n, m, rfl⟩ : ∃ (u v : Fin 1) (n m : Fin 1024), x = ix4 u v n m := ⟨x 0, x 1, x 2, x 3, eq_ix4 x⟩
  have hu : u.val = 0 := by omega
  have hv : v.val = 0 := by omega
  have e : r1a0.emb (ix4 u v n m) = ix4 (0 : Fin 1) (0 : Fin 2) n m := funext fun a => Fin.ext (by
    match a with
    | ⟨0, _⟩ => show 0 + 1 * u.val = 0; omega
    | ⟨1, _⟩ => show 0 + 1 * v.val = 0; omega
    | ⟨2, _⟩ => show 0 + 1 * n.val = n.val; omega
    | ⟨3, _⟩ => show 0 + 1 * m.val = m.val; omega)
  rw [e]
  unfold k1_pay8
  exact (cast_to_head_block_apply _ _ u v n m).trans (pay7_apply x0 x1 n m)

/-- The block the body leaves — the two stores laid over one another — is that function: each store holds it on its
    own half and the two halves fill the block. -/
theorem attn1_eq_pairW (x0 x1 : Vec Ideal S1x1024x128 .bf16) : attn1 (F := Ideal) x0 x1 = pairW x0 x1 := by
  funext y
  rw [attn1_eq]
  refine View.canon_apply_of_pieces (Val := Elt Ideal) (pairW x0 x1) _ (fun p hp x => ?_) y (cover7 _ _ y)
  rcases List.mem_cons.mp hp with rfl | hp
  · exact second_head_piece x0 x1 x
  · rcases List.mem_cons.mp hp with rfl | hp
    · exact first_head_piece x0 x1 x
    · exact absurd hp List.not_mem_nil

/-! ## From the blocks to the array -/

-- the buffer contents of the core when the region is entered
variable (V : (c : Dev nD) → (b : Ref sig .tc) → Buf (Elt Ideal) ((c : Thread nD τ).loc b))

/-- Where the query, key and attention blocks sit at point `t`, whose batch is `t / 6` and head pair `t % 6`: the
    query block is column block `t % 6` of batch `t / 6`, the key block column block `6 + t % 6`, and the attention
    block is head-pair block `t % 6` of batch `t / 6`. -/
theorem attn_index_facts : ∀ t : Fin cfg1.N,
    win1_0.index t (0 : Fin 3) = t.val / 6 ∧ win1_0.index t (1 : Fin 3) = 0 ∧ win1_0.index t (2 : Fin 3) = t.val % 6
    ∧ win1_1.index t (0 : Fin 3) = t.val / 6 ∧ win1_1.index t (1 : Fin 3) = 0 ∧ win1_1.index t (2 : Fin 3) = 6 + t.val % 6
    ∧ win1_5.index t (0 : Fin 4) = t.val / 6 ∧ win1_5.index t (1 : Fin 4) = t.val % 6
    ∧ win1_5.index t (2 : Fin 4) = 0 ∧ win1_5.index t (3 : Fin 4) = 0 :=
  (by decide +kernel : ∀ t : Fin grid1.N, _)

/-- Column `e` of row `n` of the query block at point `t` is column `128·(t % 6) + e` of row `n` of batch `t / 6`. -/
theorem query_block_at (c : Dev nD) (t : Fin cfg1.N) (n : Fin 1024) (e : Fin 128) (b : Fin 8) (o : Fin 2304)
    (hb : b.val = t.val / 6) (ho : o.val = 128 * (t.val % 6) + e.val) :
    (iblk1 V c 0 t : Vec Ideal S1x1024x128 .bf16) (ix3 (0 : Fin 1) n e) = (V c main_call0_v5 : S8x1024x2304.Idx → EReal) (ix3 b n o) := by
  obtain ⟨e0, e1, e2, -⟩ := attn_index_facts t
  unfold iblk1
  rw [View.read_apply]
  show V c main_call0_v5 _ = V c main_call0_v5 _
  congr 1
  funext a
  apply Fin.ext
  match a with
  | ⟨0, _⟩ => show win1_0.index t (0 : Fin 3) * 1 + 1 * 0 = b.val; omega
  | ⟨1, _⟩ => show win1_0.index t (1 : Fin 3) * 1024 + 1 * n.val = n.val; omega
  | ⟨2, _⟩ => show win1_0.index t (2 : Fin 3) * 128 + 1 * e.val = o.val; omega

/-- The same of the key block, whose columns lie 768 further on. -/
theorem key_block_at (c : Dev nD) (t : Fin cfg1.N) (n : Fin 1024) (e : Fin 128) (b : Fin 8) (o : Fin 2304)
    (hb : b.val = t.val / 6) (ho : o.val = 768 + 128 * (t.val % 6) + e.val) :
    (iblk1 V c 1 t : Vec Ideal S1x1024x128 .bf16) (ix3 (0 : Fin 1) n e) = (V c main_call0_v5 : S8x1024x2304.Idx → EReal) (ix3 b n o) := by
  obtain ⟨-, -, -, e3, e4, e5, -⟩ := attn_index_facts t
  unfold iblk1
  rw [View.read_apply]
  show V c main_call0_v5 _ = V c main_call0_v5 _
  congr 1
  funext a
  apply Fin.ext
  match a with
  | ⟨0, _⟩ => show win1_1.index t (0 : Fin 3) * 1 + 1 * 0 = b.val; omega
  | ⟨1, _⟩ => show win1_1.index t (1 : Fin 3) * 1024 + 1 * n.val = n.val; omega
  | ⟨2, _⟩ => show win1_1.index t (2 : Fin 3) * 128 + 1 * e.val = o.val; omega

/-- Head `h` of the pair at point `t` is head `2·(t % 6) + h` of batch `t / 6`: its score row of query row `n`,
    computed from the point's blocks, is the score row of the projection array. -/
theorem score_row_at (c : Dev nD) (t : Fin cfg1.N) (h : Fin 2) (n : Fin 1024) (b : Fin 8) (hh : Fin 12)
    (hb : b.val = t.val / 6) (hhh : hh.val = 2 * (t.val % 6) + h.val) :
    srow (iblk1 V c 0 t) (iblk1 V c 1 t) (64 * h.val) (pair_head_cols h) n
      = Cert.Spec.score (Cert.KSpec.Q5of (V c main_call0_v5)) b hh n := by
  funext m'
  unfold srow Cert.Spec.score Cert.KSpec.Q5of
  refine congrArg (· * Cert.Spec.eighth) (Finset.sum_congr rfl fun d _ => congrArg₂ (· * ·) ?_ ?_)
  · refine query_block_at V c t n _ b (Cert.Spec.col 0 hh d) hb ?_
    rw [Cert.Spec.col_val]
    show (0 : Fin 3).val * 768 + hh.val * 64 + d.val = 128 * (t.val % 6) + (64 * h.val + d.val)
    have : (0 : Fin 3).val = 0 := rfl
    omega
  · refine key_block_at V c t m' _ b (Cert.Spec.col 1 hh d) hb ?_
    rw [Cert.Spec.col_val]
    show (1 : Fin 3).val * 768 + hh.val * 64 + d.val = 768 + 128 * (t.val % 6) + (64 * h.val + d.val)
    have : (1 : Fin 3).val = 1 := rfl
    omega

/-- What point `t` leaves at (0, h, n, m) of its block is the whole-array function at batch `t / 6`, head
    `2·(t % 6) + h`, row n, column m. -/
theorem pair_entry_at (c : Dev nD) (t : Fin cfg1.N) (h : Fin 2) (n m : Fin 1024) (b : Fin 8) (hh : Fin 12)
    (hb : b.val = t.val / 6) (hhh : hh.val = 2 * (t.val % 6) + h.val) :
    attn1 (F := Ideal) (iblk1 V c 0 t) (iblk1 V c 1 t) (ix4 (0 : Fin 1) h n m)
      = Cert.KSpec.G5 (V c main_call0_v5) (ix4 b hh n m) := by
  rw [attn1_eq_pairW]
  show Cert.Spec.softmax (srow (iblk1 V c 0 t) (iblk1 V c 1 t) (64 * h.val) (pair_head_cols h) n) m
    = Cert.Spec.softmax (Cert.Spec.score (Cert.KSpec.Q5of (V c main_call0_v5)) b hh n) m
  rw [score_row_at V c t h n b hh hb hhh]

/-- What point `t` writes back is block `t` of the whole-array function. -/
theorem flushed5_eq (c : Dev nD) (t : Fin cfg1.N) :
    (dat1 (F := Ideal) V c).flushed 5 t
      = ((cfg1.win 5).blk t).view.read (Elt Ideal) (Cert.KSpec.G5 (V c main_call0_v5)) := by
  show (cfg1.win 5).cut (grid1.coords t) ((dat1 V c).after 5 t) = _
  rw [after1_5]
  obtain ⟨-, -, -, -, -, -, e6, e7, e8, e9⟩ := attn_index_facts t
  have hN : cfg1.N = 48 := N_1
  have ht : t.val < 48 := hN ▸ t.isLt
  funext j
  obtain ⟨u, h, n, m, rfl⟩ : ∃ (u : Fin 1) (h : Fin 2) (n m : Fin 1024), j = ix4 u h n m := ⟨j 0, j 1, j 2, j 3, eq_ix4 j⟩
  obtain rfl : u = 0 := Subsingleton.elim _ _
  rw [View.read_apply]
  have e : ((cfg1.win 5).blk t).view.emb (ix4 (0 : Fin 1) h n m)
      = (ix4 (⟨t.val / 6, by omega⟩ : Fin 8) (⟨2 * (t.val % 6) + h.val, by omega⟩ : Fin 12) n m : S8x12x1024x1024.Idx) := by
    funext a
    apply Fin.ext
    match a with
    | ⟨0, _⟩ => show win1_5.index t (0 : Fin 4) * 1 + 1 * 0 = t.val / 6; omega
    | ⟨1, _⟩ => show win1_5.index t (1 : Fin 4) * 2 + 1 * h.val = 2 * (t.val % 6) + h.val; omega
    | ⟨2, _⟩ => show win1_5.index t (2 : Fin 4) * 1024 + 1 * n.val = n.val; omega
    | ⟨3, _⟩ => show win1_5.index t (3 : Fin 4) * 1024 + 1 * m.val = m.val; omega
  exact (pair_entry_at V c t h n m ⟨t.val / 6, by omega⟩ ⟨2 * (t.val % 6) + h.val, by omega⟩ rfl rfl).trans
    (congrArg (Cert.KSpec.G5 (V c main_call0_v5)) e.symm)

/-- An index of the array lies in block `t` iff each coordinate lies in the block's range on its axis. -/
theorem mem_blk5 (t : Fin cfg1.N) (i : S8x12x1024x1024.Idx) :
    i ∈ ((cfg1.win 5).blk t).view.set ↔ ∀ a : Fin 4, win1_5.index t a * S1x2x1024x1024.size a ≤ (i a).val ∧ (i a).val < win1_5.index t a * S1x2x1024x1024.size a + S1x2x1024x1024.size a := by
  show i ∈ ((View.whole main_v0_1).slice (win1_5.rect t)).set ↔ _
  rw [View.set_slice_whole, Rect.mem_set_unit]
  exact Iff.rfl

/-- Every index of the array lies in the block of some point that writes back: batch b, head hh in the block of
    point `6·b + hh / 2`. -/
theorem covered5 (i : S8x12x1024x1024.Idx) :
    ∃ t : Fin cfg1.N, (cfg1.win 5).flush t = true ∧ i ∈ ((cfg1.win 5).blk t).view.set := by
  have hi0 : (i 0).val < 8 := (i 0).isLt
  have hi1 : (i 1).val < 12 := (i 1).isLt
  have hi2 : (i 2).val < 1024 := (i 2).isLt
  have hi3 : (i 3).val < 1024 := (i 3).isLt
  have hN : cfg1.N = 48 := N_1
  let t : Fin cfg1.N := ⟨6 * (i 0).val + (i 1).val / 2, by omega⟩
  obtain ⟨-, -, -, -, -, -, e6, e7, e8, e9⟩ := attn_index_facts t
  have ht : t.val = 6 * (i 0).val + (i 1).val / 2 := rfl
  refine ⟨t, flush1_5 t, ?_⟩
  rw [mem_blk5]
  intro a
  match a with
  | ⟨0, _⟩ => show win1_5.index t (0 : Fin 4) * 1 ≤ (i 0).val ∧ (i 0).val < win1_5.index t (0 : Fin 4) * 1 + 1; omega
  | ⟨1, _⟩ => show win1_5.index t (1 : Fin 4) * 2 ≤ (i 1).val ∧ (i 1).val < win1_5.index t (1 : Fin 4) * 2 + 2; omega
  | ⟨2, _⟩ => show win1_5.index t (2 : Fin 4) * 1024 ≤ (i 2).val ∧ (i 2).val < win1_5.index t (2 : Fin 4) * 1024 + 1024; omega
  | ⟨3, _⟩ => show win1_5.index t (3 : Fin 4) * 1024 ≤ (i 3).val ∧ (i 3).val < win1_5.index t (3 : Fin 4) * 1024 + 1024; omega

/-- After the region the attention-weights array is the whole-array function of the projection array. -/
theorem final1_5 (c : Dev nD) :
    (dat1 (F := Ideal) V c).arrAt 5 cfg1.N = Cert.KSpec.G5 (V c main_call0_v5) :=
  (dat1 (F := Ideal) V c).arrAt_eq_of_cover 5 (Cert.KSpec.G5 (V c main_call0_v5))
    (fun t _ => flushed5_eq V c t) covered5

end Cert.KernelIdeal.Val

end
-- ==== Proof.Val1Out.lean ====
/-
  The projected result the kernel leaves, read entry by entry on the extended reals.

  Part 1: what one grid point adds to the accumulator.  A point handles two heads; each head's softmax weights
  [1024, 1024] multiply the head's 64 value columns, and the [1024, 64] product multiplies the head's 64 rows of the
  projection-weight block [128, 768].  Entry (n, q) of the accumulator therefore gains, per head,
      ∑ d < 64, (∑ m < 1024, softmax(score row n)(m) · v(m, o + d)) · w(o + d, q)
  with o = 0 for the first head of the pair and o = 64 for the second.  At the first pair of a batch the accumulator
  starts from zero instead of from what it held; at the last pair the bias row is added to it on the way out.

  Part 2: the accumulator after each point.  Point t of the walk has batch t / 6 and head pair t % 6; its blocks are
  columns of the fused projection and rows of the transposed projection weight, so the head at offset 64 · h of the
  pair is head 2 · (t % 6) + h of the batch in the specification's numbering, and its contribution is
      ∑ d < 64, ctx(b, n, head, d) · PWt(head · 64 + d, q).
  By induction on the point, after point t entry (n, q) of the accumulator is the sum of these over the first
  2 · (t % 6 + 1) heads of batch t / 6: two after a batch's first pair, all twelve after its last.
-/
import proofs.«402962_j1709396984003_3_alg».proof.Proof.Val1Attn
import proofs.«402962_j1709396984003_3_alg».proof.Proof.HRegion1Kernel
import proofs.«402962_j1709396984003_3_alg».proof.Proof.HRegion1
import proofs.«402962_j1709396984003_3_alg».proof.Proof.KSpec

set_option maxRecDepth 16384

noncomputable section

namespace Cert.KernelIdeal.Val

open Cert.KernelIdeal Cert.KernelIdeal.Gen Cert.KernelIdeal.Hand
open Idealize.ShloMosaic Idealize.ShloMosaic.ValueIdx Idealize.ShloMosaic.TcCoe

/-! ## The two contractions of a head, read at an entry

The weights [1024, 1024] against the value columns [1024, 64] contract the key row; the product [1024, 64] against the
weight rows [64, 768] contracts the head coordinate.  Neither has a batch axis: the left operand's free axis is the
result's first, the right operand's free axis the result's second. -/

theorem lhs_av_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_av_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_av_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_av_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Weights times value columns into zero, at (n, d): the sum over the key row m. -/
theorem matmul_av_apply (A : FVec Ideal S1024x1024 .bf16) (B : FVec Ideal S1024x64 .bf16) (n : Fin 1024) (d : Fin 64) :
    matmul dot_S1024x1024_S1024x64_S1024x64_1_0_0_1_n_n none A B (constant (F := Ideal) S1024x64 .f32 0x00000000#32) (ix2 n d)
      = ∑ m : Fin 1024, A (ix2 n m) * B (ix2 m d) := by
  simp only [matmul]
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 n d) ((ValueIdx.contrEquiv1 dot_S1024x1024_S1024x64_S1024x64_1_0_0_1_n_n 1024 rfl rfl).symm k) = ix2 n k := funext fun a => Fin.ext (by
    match a with
    | ⟨0, _⟩ => exact lhs_av_0 _ _
    | ⟨1, _⟩ => exact (lhs_av_1 _ _).trans hk)
  have er : dot_S1024x1024_S1024x64_S1024x64_1_0_0_1_n_n.rhsIdx (ix2 n d) ((ValueIdx.contrEquiv1 dot_S1024x1024_S1024x64_S1024x64_1_0_0_1_n_n 1024 rfl rfl).symm k) = ix2 k d := funext fun a => Fin.ext (by
    match a with
    | ⟨0, _⟩ => exact (rhs_av_0 _ _).trans hk
    | ⟨1, _⟩ => exact rhs_av_1 _ _)
  rw [el, er]

theorem lhs_op_0 (i : S1024x768.Idx) (q : dot_S1024x64_S64x768_S1024x768_1_0_0_1_n_n.contr.Idx) :
    (dot_S1024x64_S64x768_S1024x768_1_0_0_1_n_n.lhsIdx i q 0).val = (i 0).val := by
  unfold DotDims.lhsIdx
  rw [dif_neg (show ¬(0 : Fin S1024x64.rank) ∈ dot_S1024x64_S64x768_S1024x768_1_0_0_1_n_n.lhsBatch by decide), dif_pos (show (0 : Fin S1024x64.rank) ∈ dot_S1024x64_S64x768_S1024x768_1_0_0_1_n_n.lhsNonContracting by decide)]
  rfl
theorem lhs_op_1 (i : S1024x768.Idx) (q : dot_S1024x64_S64x768_S1024x768_1_0_0_1_n_n.contr.Idx) :
    (dot_S1024x64_S64x768_S1024x768_1_0_0_1_n_n.lhsIdx i q 1).val = (q ⟨0, by decide⟩).val :=
  dot_S1024x64_S64x768_S1024x768_1_0_0_1_n_n.lhsIdx_val_of_single rfl i q
theorem rhs_op_0 (i : S1024x768.Idx) (q : dot_S1024x64_S64x768_S1024x768_1_0_0_1_n_n.contr.Idx) :
    (dot_S1024x64_S64x768_S1024x768_1_0_0_1_n_n.rhsIdx i q 0).val = (q ⟨0, by decide⟩).val :=
  dot_S1024x64_S64x768_S1024x768_1_0_0_1_n_n.rhsIdx_val_of_single rfl i q
theorem rhs_op_1 (i : S1024x768.Idx) (q : dot_S1024x64_S64x768_S1024x768_1_0_0_1_n_n.contr.Idx) :
    (dot_S1024x64_S64x768_S1024x768_1_0_0_1_n_n.rhsIdx i q 1).val = (i 1).val := by
  unfold DotDims.rhsIdx
  rw [dif_neg (show ¬(1 : Fin S64x768.rank) ∈ dot_S1024x64_S64x768_S1024x768_1_0_0_1_n_n.rhsBatch by decide), dif_pos (show (1 : Fin S64x768.rank) ∈ dot_S1024x64_S64x768_S1024x768_1_0_0_1_n_n.rhsNonContracting by decide)]
  rfl

/-- Attended values times weight rows into zero, at (n, q): the sum over the head coordinate d. -/
theorem matmul_op_apply (A : FVec Ideal S1024x64 .bf16) (B : FVec Ideal S64x768 .bf16) (n : Fin 1024) (q : Fin 768) :
    matmul dot_S1024x64_S64x768_S1024x768_1_0_0_1_n_n none A B (constant (F := Ideal) S1024x768 .f32 0x00000000#32) (ix2 n q)
      = ∑ d : Fin 64, A (ix2 n d) * B (ix2 d q) := by
  simp only [matmul]
  rw [Ideal.matmul_constant_zero_apply, ← Equiv.sum_comp (ValueIdx.contrEquiv1 dot_S1024x64_S64x768_S1024x768_1_0_0_1_n_n 64 rfl rfl).symm]
  refine Finset.sum_congr rfl fun k _ => ?_
  have hk := ValueIdx.contrEquiv1_symm_val dot_S1024x64_S64x768_S1024x768_1_0_0_1_n_n 64 rfl rfl k
  have el : dot_S1024x64_S64x768_S1024x768_1_0_0_1_n_n.lhsIdx (ix2 n q) ((ValueIdx.contrEquiv1 dot_S1024x64_S64x768_S1024x768_1_0_0_1_n_n 64 rfl rfl).symm k) = ix2 n k := funext fun a => Fin.ext (by
    match a with
    | ⟨0, _⟩ => exact lhs_op_0 _ _
    | ⟨1, _⟩ => exact (lhs_op_1 _ _).trans hk)
  have er : dot_S1024x64_S64x768_S1024x768_1_0_0_1_n_n.rhsIdx (ix2 n q) ((ValueIdx.contrEquiv1 dot_S1024x64_S64x768_S1024x768_1_0_0_1_n_n 64 rfl rfl).symm k) = ix2 k q := funext fun a => Fin.ext (by
    match a with
    | ⟨0, _⟩ => exact (rhs_op_0 _ _).trans hk
    | ⟨1, _⟩ => exact rhs_op_1 _ _)
  rw [el, er]

/-! ## Slices and the leading unit axis -/

/-- The 64 columns from `o` of a [1024, 128] block, at (m, d): column o + d. -/
theorem sliceCols_apply (o : ℕ) (ho : o + 64 ≤ 128) (v : FVec Ideal S1024x128 .bf16) (h : S1024x128.Slices ![0, o] S1024x64)
    (m : Fin 1024) (d : Fin 64) :
    extractStridedSlice S1024x64 ![0, o] v h (ix2 m d) = v (ix2 m (⟨o + d.val, by omega⟩ : Fin 128)) :=
  extractStridedSlice_apply ![0, o] v h (ix2 m d) (ix2 m (⟨o + d.val, by omega⟩ : Fin 128)) (fun a => by
    match a with
    | ⟨0, _⟩ => exact (Nat.zero_add _).symm
    | ⟨1, _⟩ => rfl)

/-- The 64 rows from `o` of the [128, 768] weight block, at (d, q): row o + d. -/
theorem sliceRows_apply (o : ℕ) (ho : o + 64 ≤ 128) (v : FVec Ideal S128x768 .bf16) (h : S128x768.Slices ![o, 0] S64x768)
    (d : Fin 64) (q : Fin 768) :
    extractStridedSlice S64x768 ![o, 0] v h (ix2 d q) = v (ix2 (⟨o + d.val, by omega⟩ : Fin 128) q) :=
  extractStridedSlice_apply ![o, 0] v h (ix2 d q) (ix2 (⟨o + d.val, by omega⟩ : Fin 128) q) (fun a => by
    match a with
    | ⟨0, _⟩ => rfl
    | ⟨1, _⟩ => exact (Nat.zero_add _).symm)

/-- A [1, 1024, 128] block viewed [1024, 128], at (m, c): the block at (0, m, c). -/
theorem dropUnit_apply (x : Vec Ideal S1x1024x128 .bf16) (h : S1x1024x128.ShapeCasts S1024x128) (m : Fin 1024) (c : Fin 128) :
    shapeCast S1024x128 x h (ix2 m c) = x (ix3 (0 : Fin 1) m c) := by
  refine (shapeCast_dropUnit_apply ![1024, 128] x h (ix2 m c)).trans (congrArg x ?_)
  funext a; match a with | ⟨0, _⟩ => rfl | ⟨1, _⟩ => rfl | ⟨2, _⟩ => rfl

/-! ## One head's contribution -/

/-- What the head at column offset `o` of the pair adds to entry (n, q): its attended values, coordinate by
    coordinate, against the matching rows of the weight block. -/
def headTerm (x0 x1 x2 : Vec Ideal S1x1024x128 .bf16) (x3 : Vec Ideal S128x768 .bf16) (o : ℕ) (ho : o + 64 ≤ 128)
    (n : Fin 1024) (q : Fin 768) : EReal :=
  ∑ d : Fin 64, (∑ m : Fin 1024, Cert.Spec.softmax (srow x0 x1 o ho n) m * x2 (ix3 (0 : Fin 1) m ⟨o + d.val, by omega⟩))
    * x3 (ix2 (⟨o + d.val, by omega⟩ : Fin 128) q)

/-- The value block viewed [1024, 128], at (m, c). -/
theorem pay5_apply (x2 : Vec Ideal S1x1024x128 .bf16) (m : Fin 1024) (c : Fin 128) :
    k1_pay5 (F := Ideal) x2 (ix2 m c) = x2 (ix3 (0 : Fin 1) m c) := by
  unfold k1_pay5
  exact dropUnit_apply x2 _ m c

/-- The weight block as the body names it is the block itself. -/
theorem pay6_eq (x3 : Vec Ideal S128x768 .bf16) : k1_pay6 (F := Ideal) x3 = x3 := by
  unfold k1_pay6
  exact shapeCast_self x3 _

/-- The first head's attended values at (n, d): its weights along the key row against value column d. -/
theorem pay9_apply (x0 x1 x2 : Vec Ideal S1x1024x128 .bf16) (n : Fin 1024) (d : Fin 64) :
    k1_pay9 (F := Ideal) x0 x1 x2 (ix2 n d)
      = ∑ m : Fin 1024, Cert.Spec.softmax (srow x0 x1 0 (by omega) n) m * x2 (ix3 (0 : Fin 1) m ⟨0 + d.val, by omega⟩) := by
  unfold k1_pay9
  refine (matmul_av_apply _ _ n d).trans ?_
  refine Finset.sum_congr rfl fun m _ => ?_
  refine congrArg₂ (· * ·) ?_ ?_
  · exact (truncf_apply (ψ := .bf16) (k1_pay7 (F := Ideal) x0 x1) bitsLt_bf16_f32 (ix2 n m)).trans (pay7_apply x0 x1 n m)
  · exact (sliceCols_apply 0 (by omega) _ _ m d).trans (pay5_apply x2 m _)

/-- The first head's weight rows at (d, q): row d of the block. -/
theorem pay10_apply (x3 : Vec Ideal S128x768 .bf16) (d : Fin 64) (q : Fin 768) :
    k1_pay10 (F := Ideal) x3 (ix2 d q) = x3 (ix2 (⟨0 + d.val, by omega⟩ : Fin 128) q) := by
  unfold k1_pay10
  refine (sliceRows_apply 0 (by omega) _ _ d q).trans ?_
  rw [pay6_eq]

/-- The accumulator after the first head: what it held plus that head's contribution. -/
theorem pay11_apply (x0 x1 x2 : Vec Ideal S1x1024x128 .bf16) (x3 : Vec Ideal S128x768 .bf16) (s : Vec Ideal S1024x768 .f32)
    (n : Fin 1024) (q : Fin 768) :
    k1_pay11 (F := Ideal) (k1_pay9 x0 x1 x2) (k1_pay10 x3) s (ix2 n q) = s (ix2 n q) + headTerm x0 x1 x2 x3 0 (by omega) n q := by
  unfold k1_pay11
  refine (congrFun (shapeCast_self _ _) (ix2 n q)).trans ?_
  refine (addf_apply _ _ _).trans ?_
  refine congrArg (s (ix2 n q) + ·) ?_
  refine (matmul_op_apply _ _ n q).trans ?_
  unfold headTerm
  refine Finset.sum_congr rfl fun d _ => ?_
  refine congrArg₂ (· * ·) ?_ (pay10_apply x3 d q)
  exact (truncf_apply (ψ := .bf16) (k1_pay9 (F := Ideal) x0 x1 x2) bitsLt_bf16_f32 (ix2 n d)).trans (pay9_apply x0 x1 x2 n d)

/-- The accumulator after the second head. -/
theorem pay14_apply (x0 x1 x2 : Vec Ideal S1x1024x128 .bf16) (x3 : Vec Ideal S128x768 .bf16) (s : Vec Ideal S1024x768 .f32)
    (n : Fin 1024) (q : Fin 768) :
    k1_pay14 (F := Ideal) (k1_pay3 x0) (k1_pay4 x1) (k1_pay5 x2) (k1_pay6 x3) s (ix2 n q)
      = s (ix2 n q) + headTerm x0 x1 x2 x3 64 (by omega) n q := by
  unfold k1_pay14
  refine (congrFun (shapeCast_self _ _) (ix2 n q)).trans ?_
  refine (addf_apply _ _ _).trans ?_
  refine congrArg (s (ix2 n q) + ·) ?_
  refine (matmul_op_apply _ _ n q).trans ?_
  unfold headTerm
  refine Finset.sum_congr rfl fun d _ => ?_
  refine congrArg₂ (· * ·) ?_ ?_
  · refine (truncf_apply (ψ := .bf16) _ bitsLt_bf16_f32 (ix2 n d)).trans ?_
    refine (matmul_av_apply _ _ n d).trans ?_
    refine Finset.sum_congr rfl fun m _ => ?_
    refine congrArg₂ (· * ·) ?_ ?_
    · exact (truncf_apply (ψ := .bf16) (k1_pay12 (F := Ideal) (k1_pay3 x0) (k1_pay4 x1)) bitsLt_bf16_f32 (ix2 n m)).trans (pay12_apply x0 x1 n m)
    · exact (sliceCols_apply 64 (by omega) _ _ m d).trans (pay5_apply x2 m _)
  · refine (sliceRows_apply 64 (by omega) _ _ d q).trans ?_
    rw [pay6_eq]

/-! ## One point's contribution -/

/-- The zero block the accumulator is reset to, at an entry. -/
theorem pay2_apply (j : S1024x768.Idx) : (k1_pay2 (F := Ideal)) j = 0 := by
  unfold k1_pay2
  refine (congrFun (shapeCast_self _ _) j).trans ?_
  exact Ideal.ofBits_zero_f32

/-- The accumulator after a point: zero in place of its old contents at the first pair of a batch, then both heads. -/
theorem acc1_apply (i : grid1.Coords) (x0 x1 x2 : Vec Ideal S1x1024x128 .bf16) (x3 : Vec Ideal S128x768 .bf16)
    (s : Vec Ideal S1024x768 .f32) (n : Fin 1024) (q : Fin 768) :
    acc1 (F := Ideal) i x0 x1 x2 x3 s (ix2 n q)
      = (if k1_cond1 i = 1#1 then 0 else s (ix2 n q)) + headTerm x0 x1 x2 x3 0 (by omega) n q + headTerm x0 x1 x2 x3 64 (by omega) n q := by
  rw [acc1_eq, pay14_apply, pay11_apply]
  refine congrArg (· + headTerm x0 x1 x2 x3 0 (by omega) n q + headTerm x0 x1 x2 x3 64 (by omega) n q) ?_
  by_cases hc : k1_cond1 i = 1#1
  · rw [if_pos hc, if_pos hc]; exact pay2_apply _
  · rw [if_neg hc, if_neg hc]

/-- The block written out: the accumulator plus the bias row, under a leading unit axis. -/
theorem pay1_apply (a : Vec Ideal S1024x768 .f32) (x4 : Vec Ideal S1x768 .f32) (n : Fin 1024) (q : Fin 768) :
    k1_pay1 (F := Ideal) a x4 (ix3 (0 : Fin 1) n q) = a (ix2 n q) + x4 (ix2 (0 : Fin 1) q) := by
  unfold k1_pay1
  refine (shapeCast_addUnit_apply ![1024, 768] _ _ (ix3 (0 : Fin 1) n q)).trans ?_
  have e : (fun a : Fin 2 => (ix3 (0 : Fin 1) n q) a.succ) = ix2 n q := by
    funext a; match a with | ⟨0, _⟩ => rfl | ⟨1, _⟩ => rfl
  rw [e, addf_apply, shapeCast_self]
  refine congrArg (a (ix2 n q) + ·) ?_
  exact broadcastTo_apply x4 _ (ix2 n q) (ix2 (0 : Fin 1) q) (fun a => by
    match a with
    | ⟨0, _⟩ => rfl
    | ⟨1, _⟩ => rfl)

/-! ## The blocks of a point, read in the arrays

Point t of the walk has batch t / 6 and head pair t % 6.  Its query, key and value blocks are the 128 columns of the
fused projection from (t % 6) · 128, 768 + (t % 6) · 128 and 1536 + (t % 6) · 128, all 1024 rows of batch t / 6; its
weight block is the 128 rows of the transposed projection weight from (t % 6) · 128. -/

/-- The windows' block indices at every point, decided over the grid. -/
theorem idx1_facts : ∀ t : Fin cfg1.N,
    win1_0.index t (0 : Fin 3) = t.val / 6 ∧ win1_0.index t (1 : Fin 3) = 0 ∧ win1_0.index t (2 : Fin 3) = t.val % 6
  ∧ win1_1.index t (0 : Fin 3) = t.val / 6 ∧ win1_1.index t (1 : Fin 3) = 0 ∧ win1_1.index t (2 : Fin 3) = 6 + t.val % 6
  ∧ win1_2.index t (0 : Fin 3) = t.val / 6 ∧ win1_2.index t (1 : Fin 3) = 0 ∧ win1_2.index t (2 : Fin 3) = 12 + t.val % 6
  ∧ win1_3.index t (0 : Fin 2) = t.val % 6 ∧ win1_3.index t (1 : Fin 2) = 0 :=
  (by decide +kernel : ∀ t : Fin grid1.N, _)

/-- A point's batch is one of the eight. -/
theorem batch_lt (t : Fin cfg1.N) : t.val / 6 < 8 := by
  have h : t.val < 48 := lt_of_lt_of_eq t.isLt N_1
  omega

section Blocks
variable (V : (c : Dev nD) → (b : Ref sig .tc) → Buf (Elt Ideal) ((c : Thread nD τ).loc b)) (c : Dev nD)

/-- The query block at (0, n, k). -/
theorem iblk1_0_apply (t : Fin cfg1.N) (n : Fin 1024) (k : Fin 128) :
    iblk1 (F := Ideal) V c 0 t (ix3 (0 : Fin 1) n k)
      = V c main_call0_v5 (ix3 (⟨t.val / 6, batch_lt t⟩ : Fin 8) n (⟨t.val % 6 * 128 + k.val, by have := k.isLt; omega⟩ : Fin 2304)) := by
  obtain ⟨e0, e1, e2, -⟩ := idx1_facts t
  unfold iblk1
  rw [View.read_apply]
  refine congrArg (V c main_call0_v5) (funext fun a => Fin.ext ?_)
  match a with
  | ⟨0, _⟩ => show win1_0.index t (0 : Fin 3) * 1 + 1 * 0 = t.val / 6; omega
  | ⟨1, _⟩ => show win1_0.index t (1 : Fin 3) * 1024 + 1 * n.val = n.val; omega
  | ⟨2, _⟩ => show win1_0.index t (2 : Fin 3) * 128 + 1 * k.val = t.val % 6 * 128 + k.val; omega

/-- The key block at (0, m, k). -/
theorem iblk1_1_apply (t : Fin cfg1.N) (m : Fin 1024) (k : Fin 128) :
    iblk1 (F := Ideal) V c 1 t (ix3 (0 : Fin 1) m k)
      = V c main_call0_v5 (ix3 (⟨t.val / 6, batch_lt t⟩ : Fin 8) m (⟨768 + t.val % 6 * 128 + k.val, by have := k.isLt; omega⟩ : Fin 2304)) := by
  obtain ⟨-, -, -, e0, e1, e2, -⟩ := idx1_facts t
  unfold iblk1
  rw [View.read_apply]
  refine congrArg (V c main_call0_v5) (funext fun a => Fin.ext ?_)
  match a with
  | ⟨0, _⟩ => show win1_1.index t (0 : Fin 3) * 1 + 1 * 0 = t.val / 6; omega
  | ⟨1, _⟩ => show win1_1.index t (1 : Fin 3) * 1024 + 1 * m.val = m.val; omega
  | ⟨2, _⟩ => show win1_1.index t (2 : Fin 3) * 128 + 1 * k.val = 768 + t.val % 6 * 128 + k.val; omega

/-- The value block at (0, m, k). -/
theorem iblk1_2_apply (t : Fin cfg1.N) (m : Fin 1024) (k : Fin 128) :
    iblk1 (F := Ideal) V c 2 t (ix3 (0 : Fin 1) m k)
      = V c main_call0_v5 (ix3 (⟨t.val / 6, batch_lt t⟩ : Fin 8) m (⟨1536 + t.val % 6 * 128 + k.val, by have := k.isLt; omega⟩ : Fin 2304)) := by
  obtain ⟨-, -, -, -, -, -, e0, e1, e2, -⟩ := idx1_facts t
  unfold iblk1
  rw [View.read_apply]
  refine congrArg (V c main_call0_v5) (funext fun a => Fin.ext ?_)
  match a with
  | ⟨0, _⟩ => show win1_2.index t (0 : Fin 3) * 1 + 1 * 0 = t.val / 6; omega
  | ⟨1, _⟩ => show win1_2.index t (1 : Fin 3) * 1024 + 1 * m.val = m.val; omega
  | ⟨2, _⟩ => show win1_2.index t (2 : Fin 3) * 128 + 1 * k.val = 1536 + t.val % 6 * 128 + k.val; omega

/-- The weight block at (r, o). -/
theorem iblk1_3_apply (t : Fin cfg1.N) (r : Fin 128) (o : Fin 768) :
    iblk1 (F := Ideal) V c 3 t (ix2 r o)
      = V c main_call0_v7 (ix2 (⟨t.val % 6 * 128 + r.val, by have := r.isLt; omega⟩ : Fin 768) o) := by
  obtain ⟨-, -, -, -, -, -, -, -, -, e0, e1⟩ := idx1_facts t
  unfold iblk1
  rw [View.read_apply]
  refine congrArg (V c main_call0_v7) (funext fun a => Fin.ext ?_)
  match a with
  | ⟨0, _⟩ => show win1_3.index t (0 : Fin 2) * 128 + 1 * r.val = t.val % 6 * 128 + r.val; omega
  | ⟨1, _⟩ => show win1_3.index t (1 : Fin 2) * 768 + 1 * o.val = o.val; omega

end Blocks

/-! ## The heads of a batch, summed so far -/

/-- What head `hh` of batch `b` contributes to entry (n, o) of the projected result: its attended values against its
    64 rows of the transposed projection weight. -/
def headProj (Q : Fin 8 → Fin 1024 → Fin 2304 → EReal) (PWt : Cert.Spec.SPW.Idx → EReal) (b : Fin 8) (n : Fin 1024) (o : Fin 768)
    (hh : Fin 12) : EReal :=
  ∑ d : Fin 64, Cert.Spec.ctx Q b n hh d * PWt (ix2 (⟨hh.val * 64 + d.val, by have := hh.isLt; have := d.isLt; omega⟩ : Fin 768) o)

/-- The first `K` heads' contributions. -/
def partialHeads (Q : Fin 8 → Fin 1024 → Fin 2304 → EReal) (PWt : Cert.Spec.SPW.Idx → EReal) (b : Fin 8) (n : Fin 1024) (o : Fin 768)
    (K : ℕ) : EReal :=
  ∑ hh : Fin 12, if hh.val < K then headProj Q PWt b n o hh else 0

theorem partialHeads_zero (Q : Fin 8 → Fin 1024 → Fin 2304 → EReal) (PWt : Cert.Spec.SPW.Idx → EReal) (b : Fin 8) (n : Fin 1024) (o : Fin 768) :
    partialHeads Q PWt b n o 0 = 0 := by
  unfold partialHeads
  exact Finset.sum_eq_zero fun hh _ => if_neg (Nat.not_lt_zero _)

/-- One more head. -/
theorem partialHeads_succ (Q : Fin 8 → Fin 1024 → Fin 2304 → EReal) (PWt : Cert.Spec.SPW.Idx → EReal) (b : Fin 8) (n : Fin 1024) (o : Fin 768)
    (K : ℕ) (hK : K < 12) :
    partialHeads Q PWt b n o (K + 1) = partialHeads Q PWt b n o K + headProj Q PWt b n o ⟨K, hK⟩ := by
  unfold partialHeads
  have key : ∀ hh : Fin 12, (if hh.val < K + 1 then headProj Q PWt b n o hh else 0)
      = (if hh.val < K then headProj Q PWt b n o hh else 0) + (if hh = (⟨K, hK⟩ : Fin 12) then headProj Q PWt b n o hh else 0) := by
    intro hh
    by_cases h1 : hh.val < K
    · rw [if_pos (Nat.lt_succ_of_lt h1), if_pos h1, if_neg (fun e => by rw [e] at h1; exact lt_irrefl _ h1), add_zero]
    · by_cases h2 : hh.val = K
      · rw [if_pos (by omega), if_neg h1, if_pos (Fin.ext h2), zero_add]
      · rw [if_neg (by omega), if_neg h1, if_neg (fun e => h2 (congrArg Fin.val e)), add_zero]
  rw [Finset.sum_congr rfl fun hh _ => key hh, Finset.sum_add_distrib, Finset.sum_ite_eq' Finset.univ (⟨K, hK⟩ : Fin 12), if_pos (Finset.mem_univ _)]

/-! ## A point's two heads are heads 2 · (t % 6) and 2 · (t % 6) + 1 of its batch -/

section AfterPoint
variable (V : (c : Dev nD) → (b : Ref sig .tc) → Buf (Elt Ideal) ((c : Thread nD τ).loc b)) (c : Dev nD)

/-- The score row of a point's blocks over the 64 columns from 64 · h is the specification's score row of head
    2 · (t % 6) + h: column (t % 6) · 128 + 64 · h + d of the queries is column (2 · (t % 6) + h) · 64 + d, and the keys
    sit 768 columns on. -/
theorem srow_iblk (t : Fin cfg1.N) (off : ℕ) (hoff : off + 64 ≤ 128) (h : ℕ) (hh : h < 2) (e : off = 64 * h) (n : Fin 1024) :
    srow (iblk1 (F := Ideal) V c 0 t) (iblk1 (F := Ideal) V c 1 t) off hoff n
      = Cert.Spec.score (Cert.KSpec.Q5of (V c main_call0_v5)) ⟨t.val / 6, batch_lt t⟩ ⟨2 * (t.val % 6) + h, by omega⟩ n := by
  subst e
  funext m'
  unfold srow Cert.Spec.score
  refine congrArg (· * Cert.Spec.eighth) (Finset.sum_congr rfl fun d _ => ?_)
  refine congrArg₂ (· * ·) ?_ ?_
  · refine (iblk1_0_apply V c t n _).trans ?_
    refine congrArg (V c main_call0_v5) (congrArg (ix3 _ n) (Fin.ext ?_))
    show t.val % 6 * 128 + (64 * h + d.val) = 0 * 768 + (2 * (t.val % 6) + h) * 64 + d.val
    omega
  · refine (iblk1_1_apply V c t m' _).trans ?_
    refine congrArg (V c main_call0_v5) (congrArg (ix3 _ m') (Fin.ext ?_))
    show 768 + t.val % 6 * 128 + (64 * h + d.val) = 1 * 768 + (2 * (t.val % 6) + h) * 64 + d.val
    omega

/-- So the head at offset 64 · h of a point's blocks contributes what head 2 · (t % 6) + h of the batch does. -/
theorem headTerm_iblk (t : Fin cfg1.N) (off : ℕ) (hoff : off + 64 ≤ 128) (h : ℕ) (hh : h < 2) (e : off = 64 * h) (n : Fin 1024) (o : Fin 768) :
    headTerm (iblk1 (F := Ideal) V c 0 t) (iblk1 (F := Ideal) V c 1 t) (iblk1 (F := Ideal) V c 2 t) (iblk1 (F := Ideal) V c 3 t) off hoff n o
      = headProj (Cert.KSpec.Q5of (V c main_call0_v5)) (V c main_call0_v7) ⟨t.val / 6, batch_lt t⟩ n o ⟨2 * (t.val % 6) + h, by omega⟩ := by
  unfold headTerm headProj
  refine Finset.sum_congr rfl fun d _ => ?_
  refine congrArg₂ (· * ·) ?_ ?_
  · unfold Cert.Spec.ctx Cert.Spec.attn
    rw [srow_iblk V c t off hoff h hh e n]
    subst e
    refine Finset.sum_congr rfl fun m _ => ?_
    refine congrArg (Cert.Spec.softmax _ m * ·) ?_
    refine (iblk1_2_apply V c t m _).trans ?_
    refine congrArg (V c main_call0_v5) (congrArg (ix3 _ m) (Fin.ext ?_))
    show 1536 + t.val % 6 * 128 + (64 * h + d.val) = 2 * 768 + (2 * (t.val % 6) + h) * 64 + d.val
    omega
  · subst e
    refine (iblk1_3_apply V c t _ o).trans ?_
    refine congrArg (V c main_call0_v7) (congrArg (fun r : Fin 768 => ix2 r o) (Fin.ext ?_))
    show t.val % 6 * 128 + (64 * h + d.val) = (2 * (t.val % 6) + h) * 64 + d.val
    omega

/-- The accumulator after the body at a point, from the accumulator before it. -/
theorem acc1_point (t : Fin cfg1.N) (s : Vec Ideal S1024x768 .f32) (n : Fin 1024) (o : Fin 768) :
    acc1 (F := Ideal) (grid1.coords t) (iblk1 V c 0 t) (iblk1 V c 1 t) (iblk1 V c 2 t) (iblk1 V c 3 t) s (ix2 n o)
      = (if t.val % 6 = 0 then 0 else s (ix2 n o))
        + headProj (Cert.KSpec.Q5of (V c main_call0_v5)) (V c main_call0_v7) ⟨t.val / 6, batch_lt t⟩ n o ⟨2 * (t.val % 6) + 0, by omega⟩
        + headProj (Cert.KSpec.Q5of (V c main_call0_v5)) (V c main_call0_v7) ⟨t.val / 6, batch_lt t⟩ n o ⟨2 * (t.val % 6) + 1, by omega⟩ := by
  rw [acc1_apply, headTerm_iblk V c t 0 (by omega) 0 (by omega) rfl, headTerm_iblk V c t 64 (by omega) 1 (by omega) rfl]
  exact congrArg (· + _ + _) (if_congr (cond1_mod t) rfl rfl)

/-- If the accumulator before a point holds the heads of the batch handled so far — nothing is asked of it at the first
    pair of a batch, where it is zeroed —, after the point it holds two more. -/
theorem point_sum (t : ℕ) (ht : t < cfg1.N) (b : Fin 8) (hb : b.val = t / 6) (s : Vec Ideal S1024x768 .f32) (n : Fin 1024) (o : Fin 768)
    (hs : t % 6 ≠ 0 → s (ix2 n o) = partialHeads (Cert.KSpec.Q5of (V c main_call0_v5)) (V c main_call0_v7) b n o (2 * (t % 6))) :
    acc1 (F := Ideal) (grid1.coords ⟨t, ht⟩) (iblk1 V c 0 ⟨t, ht⟩) (iblk1 V c 1 ⟨t, ht⟩) (iblk1 V c 2 ⟨t, ht⟩) (iblk1 V c 3 ⟨t, ht⟩) s (ix2 n o)
      = partialHeads (Cert.KSpec.Q5of (V c main_call0_v5)) (V c main_call0_v7) b n o (2 * (t % 6 + 1)) := by
  obtain rfl : b = ⟨t / 6, batch_lt ⟨t, ht⟩⟩ := Fin.ext hb
  refine (acc1_point V c ⟨t, ht⟩ s n o).trans ?_
  rw [show 2 * (t % 6 + 1) = 2 * (t % 6) + 0 + 1 + 1 from by omega,
    partialHeads_succ _ _ _ _ _ (2 * (t % 6) + 0 + 1) (by omega), partialHeads_succ _ _ _ _ _ (2 * (t % 6) + 0) (by omega)]
  refine congrArg₂ (· + ·) (congrArg₂ (· + ·) ?_ rfl) rfl
  show (if t % 6 = 0 then (0 : EReal) else s (ix2 n o)) = partialHeads _ _ _ n o (2 * (t % 6) + 0)
  by_cases h0 : t % 6 = 0
  · rw [if_pos h0, h0]; exact (partialHeads_zero _ _ _ n o).symm
  · rw [if_neg h0]; exact hs h0

/-- The accumulator after each point, by induction on the point. -/
theorem accAt1_inv (n : Fin 1024) (o : Fin 768) : ∀ (t : ℕ) (ht : t < cfg1.N) (b : Fin 8) (hb : b.val = t / 6),
    accAt1 (F := Ideal) V c t ht (ix2 n o)
      = partialHeads (Cert.KSpec.Q5of (V c main_call0_v5)) (V c main_call0_v7) b n o (2 * (t % 6 + 1))
  | 0, ht, b, hb => by
    rw [accAt1_zero]
    exact point_sum V c 0 ht b hb (k1_pay2 (F := Ideal)) n o (fun h => absurd rfl h)
  | t + 1, ht, b, hb => by
    rw [accAt1_succ]
    refine point_sum V c (t + 1) ht b hb _ n o (fun h => ?_)
    have hN : cfg1.N = 48 := N_1
    rw [accAt1_inv n o t (by omega) b (by omega)]
    exact congrArg (partialHeads _ _ b n o) (by omega)

end AfterPoint

/-! ## The accumulator after each point -/

/-- Entry (n, o) of the accumulator after point t of the walk (batch t / 6, head pair t % 6): the heads of the batch
    handled so far — the first 2 · (t % 6 + 1) of the twelve — each contributing its attended values against its 64
    rows of the transposed projection weight. -/
theorem accAt1_apply (V : (c : Dev nD) → (b : Ref sig .tc) → Buf (Elt Ideal) ((c : Thread nD τ).loc b)) (c : Dev nD) (t : Fin cfg1.N) (n : Fin 1024) (o : Fin 768) :
    accAt1 (F := Ideal) V c t.val t.isLt (ix2 n o)
      = ∑ hh : Fin 12, if hh.val < 2 * (t.val % 6 + 1) then
          ∑ d : Fin 64, Cert.Spec.ctx (Cert.KSpec.Q5of (V c main_call0_v5)) ⟨t.val / 6, batch_lt t⟩ n hh d
            * (V c main_call0_v7) (ix2 (⟨hh.val * 64 + d.val, by have := hh.isLt; have := d.isLt; omega⟩ : Fin 768) o)
        else 0 := by
  exact accAt1_inv V c n o t.val t.isLt ⟨t.val / 6, batch_lt t⟩ rfl

end Cert.KernelIdeal.Val

end
-- ==== Proof.Val1OutArr.lean ====
/- The value of region 1's projected output array over the extended reals. The region writes a band of that
   [8, 1024, 768] array back only at the last head pair of each batch: band b, rows and columns whole, from point
   6·b + 5. What the body has left in the band's buffer there is the accumulator after that point plus the bias
   row, and by then the accumulator holds the contributions of all twelve heads of the batch: at (n, o) the sum over
   heads h and coordinates d of the attended value (b, n, h, d) times row 64·h + d, column o of the transposed
   projection weight. Taken column by column, c = 64·h + d, that is the specification's output projection, so every
   written band is the restriction of one function of the arrays the region reads, and the eight bands fill the array. -/
import proofs.«402962_j1709396984003_3_alg».proof.Proof.Val1Out
import proofs.«402962_j1709396984003_3_alg».proof.Proof.HRegion1
import proofs.«402962_j1709396984003_3_alg».proof.Proof.KSpec
import Idealize.ShloMosaic.Lib.Pipeline.Value
import Idealize.ShloMosaic.Lib.ValueIdx
import Idealize.ShloMosaic.PureOps.Ideal.Laws
import Mathlib.Logic.Equiv.Fin.Basic
import Mathlib.Data.Fintype.BigOperators

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The columns, head by head -/

/-- A sum over the 768 columns, taken head by head: column `64·h + d` is coordinate `d` of head `h`. -/
theorem sum_cols_by_head (g : Fin 768 → EReal) :
    ∑ c : Fin 768, g c = ∑ hh : Fin 12, ∑ d : Fin 64, g ⟨hh.val * 64 + d.val, by have := hh.isLt; have := d.isLt; omega⟩ := by
  rw [← Equiv.sum_comp (finProdFinEquiv (m := 12) (n := 64)) g, Fintype.sum_prod_type]
  refine Finset.sum_congr rfl fun hh _ => Finset.sum_congr rfl fun d _ => congrArg g (Fin.ext ?_)
  show d.val + 64 * hh.val = hh.val * 64 + d.val
  omega

/-- The heads laid side by side, read at column `64·h + d`, are head `h` at coordinate `d`. -/
theorem ctxFlat_at (Q : Fin 8 → Fin 1024 → Fin 2304 → EReal) (b : Fin 8) (n : Fin 1024) (hh : Fin 12) (d : Fin 64)
    (h : hh.val * 64 + d.val < 768) :
    Cert.Spec.ctxFlat Q b n ⟨hh.val * 64 + d.val, h⟩ = Cert.Spec.ctx Q b n hh d := by
  unfold Cert.Spec.ctxFlat
  congr 1
  · apply Fin.ext; show (hh.val * 64 + d.val) / 64 = hh.val; have := d.isLt; omega
  · apply Fin.ext; show (hh.val * 64 + d.val) % 64 = d.val; have := d.isLt; omega

/-! ## From the bands to the array -/

-- the buffer contents of the core when the region is entered
variable (V : (c : Dev nD) → (b : Ref sig .tc) → Buf (Elt Ideal) ((c : Thread nD τ).loc b))

/-- Where the two windows' blocks sit at point `t`: the bias row is the whole of its array at every point; the
    output's band is band `t / 6` of its array on the batch axis, rows and columns whole. -/
theorem index_facts1 : ∀ t : Fin cfg1.N,
    win1_4.index t (0 : Fin 2) = 0 ∧ win1_4.index t (1 : Fin 2) = 0
    ∧ win1_6.index t (0 : Fin 3) = t.val / 6 ∧ win1_6.index t (1 : Fin 3) = 0 ∧ win1_6.index t (2 : Fin 3) = 0 :=
  (by decide +kernel : ∀ t : Fin grid1.N, _)

/-- The bias block at any point is the bias row. -/
theorem bias1_at (c : Dev nD) (t : Fin cfg1.N) (o : Fin 768) :
    (iblk1 V c 4 t : Vec Ideal S1x768 .f32) (ix2 (0 : Fin 1) o) = (V c main_call0_v8 : S1x768.Idx → EReal) (ix2 (0 : Fin 1) o) := by
  obtain ⟨e0, e1, -⟩ := index_facts1 t
  unfold iblk1
  rw [View.read_apply]
  show V c main_call0_v8 _ = V c main_call0_v8 _
  congr 1
  funext a
  apply Fin.ext
  match a with
  | ⟨0, _⟩ => show win1_4.index t (0 : Fin 2) * 1 + 1 * 0 = 0; omega
  | ⟨1, _⟩ => show win1_4.index t (1 : Fin 2) * 768 + 1 * o.val = o.val; omega

/-- At the last head pair of batch `b` the body stores at (n, o) of the band the specification's output at
    (b, n, o): every head has been added in, the double sum over heads and coordinates is the sum over columns, and
    the bias row is added last. -/
theorem band1_at (c : Dev nD) (t : Fin cfg1.N) (h5 : t.val % 6 = 5) (b : Fin 8) (hb : b.val = t.val / 6) (n : Fin 1024) (o : Fin 768) :
    k1_pay1 (F := Ideal) (accAt1 V c t.val t.isLt) (iblk1 V c 4 t) (ix3 (0 : Fin 1) n o)
      = Cert.KSpec.G6 (V c main_call0_v5) (V c main_call0_v7) (V c main_call0_v8) (ix3 b n o) := by
  rw [pay1_apply, accAt1_apply, bias1_at]
  show _ = (∑ cc : Fin 768, Cert.Spec.ctxFlat (Cert.KSpec.Q5of (V c main_call0_v5)) b n cc * (V c main_call0_v7) (ix2 cc o))
      + (V c main_call0_v8) (ix2 (0 : Fin 1) o)
  rw [sum_cols_by_head]
  refine congrArg (· + (V c main_call0_v8) (ix2 (0 : Fin 1) o)) ?_
  refine Finset.sum_congr rfl fun hh _ => ?_
  rw [if_pos (by have := hh.isLt; omega)]
  refine Finset.sum_congr rfl fun d _ => ?_
  rw [ctxFlat_at]
  have eb : (⟨t.val / 6, batch_lt t⟩ : Fin 8) = b := Fin.ext hb.symm
  rw [eb]

/-- What a point at the last head pair of a batch writes back is its band of the whole-array function. -/
theorem flushed6_eq (c : Dev nD) (t : Fin cfg1.N) (h5 : t.val % 6 = 5) :
    (dat1 (F := Ideal) V c).flushed 6 t
      = ((cfg1.win 6).blk t).view.read (Elt Ideal) (Cert.KSpec.G6 (V c main_call0_v5) (V c main_call0_v7) (V c main_call0_v8)) := by
  show (cfg1.win 6).cut (grid1.coords t) ((dat1 V c).after 6 t) = _
  rw [after1_6]
  obtain ⟨-, -, e0, e1, e2⟩ := index_facts1 t
  funext j
  obtain ⟨z, n, o, rfl⟩ : ∃ (z : Fin 1) (n : Fin 1024) (o : Fin 768), j = ix3 z n o := ⟨j 0, j 1, j 2, eq_ix3 j⟩
  obtain rfl : z = 0 := Subsingleton.elim _ _
  rw [View.read_apply]
  refine (band1_at V c t h5 ⟨t.val / 6, batch_lt t⟩ rfl n o).trans ?_
  congr 1
  funext a
  apply Fin.ext
  match a with
  | ⟨0, _⟩ => show t.val / 6 = win1_6.index t (0 : Fin 3) * 1 + 1 * 0; omega
  | ⟨1, _⟩ => show n.val = win1_6.index t (1 : Fin 3) * 1024 + 1 * n.val; omega
  | ⟨2, _⟩ => show o.val = win1_6.index t (2 : Fin 3) * 768 + 1 * o.val; omega

/-- An index of the array lies in the band of point `t` iff each coordinate lies in the band's range on its axis. -/
theorem mem_blk6 (t : Fin cfg1.N) (i : S8x1024x768.Idx) :
    i ∈ ((cfg1.win 6).blk t).view.set ↔ ∀ a : Fin 3, win1_6.index t a * S1x1024x768.size a ≤ (i a).val ∧ (i a).val < win1_6.index t a * S1x1024x768.size a + S1x1024x768.size a := by
  show i ∈ ((View.whole main_v0_0).slice (win1_6.rect t)).set ↔ _
  rw [View.set_slice_whole, Rect.mem_set_unit]
  exact Iff.rfl

/-- Every index of the array lies in the band of a point that writes back: batch `b` in the band of point `6·b + 5`. -/
theorem covered6 (i : S8x1024x768.Idx) :
    ∃ t : Fin cfg1.N, (cfg1.win 6).flush t = true ∧ i ∈ ((cfg1.win 6).blk t).view.set := by
  have hi0 : (i 0).val < 8 := (i 0).isLt
  have hi1 : (i 1).val < 1024 := (i 1).isLt
  have hi2 : (i 2).val < 768 := (i 2).isLt
  have hN : cfg1.N = 48 := N_1
  let t : Fin cfg1.N := ⟨6 * (i 0).val + 5, by omega⟩
  obtain ⟨-, -, e0, e1, e2⟩ := index_facts1 t
  have ht : t.val = 6 * (i 0).val + 5 := rfl
  refine ⟨t, (flush1_6 t).mpr (by omega), ?_⟩
  rw [mem_blk6]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 768 ≤ (i 2).val ∧ (i 2).val < win1_6.index t (2 : Fin 3) * 768 + 768; omega

/-- After the region the projected output array is the specification's output of the arrays the region read. -/
theorem final1_6 (c : Dev nD) :
    (dat1 (F := Ideal) V c).arrAt 6 cfg1.N = Cert.KSpec.G6 (V c main_call0_v5) (V c main_call0_v7) (V c main_call0_v8) :=
  (dat1 (F := Ideal) V c).arrAt_eq_of_cover 6 (Cert.KSpec.G6 (V c main_call0_v5) (V c main_call0_v7) (V c main_call0_v8))
    (fun t hf => flushed6_eq V c t ((flush1_6 t).mp hf)) covered6

end Cert.KernelIdeal.Val

end
-- ==== Proof.Plumb.lean ====
/-
  The arrays the two regions are handed, read entry by entry in terms of the arguments, and from that the two result
  arrays as the specification's functions of the arguments.

  Between the launch and the first region the arguments are re-laid: the activations [8, 1024, 768] become one matrix
  of 8192 rows (row 1024·b + n is row n of batch b), the weight [2304, 768] is transposed, the bias [2304] becomes a
  row [1, 2304]. Between the two regions the first region's result [8192, 2304] becomes a batch [8, 1024, 2304] by the
  same row rule, the projection weight [768, 768] is transposed and the projection bias [768] becomes a row. The
  change of number format that follows each transpose is the identity on the extended reals. None of these steps
  computes anything: each entry of a re-laid array is one entry of the array it came from, and the first part says
  which one.

  The second part chains these readings with the three value theorems. Row 1024·b + n of the first region's result
  is  ∑ₖ x(b, n, k) · w(o, k) + β(o),  the fused projection itself, so the batch the second region reads is the
  specification's projection, and its two results are the specification's attention weights and projected output.
-/
import proofs.«402962_j1709396984003_3_alg».proof.Proof.HRun
import proofs.«402962_j1709396984003_3_alg».proof.Proof.KSpec
import proofs.«402962_j1709396984003_3_alg».proof.Proof.Spec
import proofs.«402962_j1709396984003_3_alg».proof.Proof.Val0
import proofs.«402962_j1709396984003_3_alg».proof.Proof.Val1AttnArr
import proofs.«402962_j1709396984003_3_alg».proof.Proof.Val1OutArr
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)

variable (m : (ℓ : Loc nD τ sig) → Buf (Elt Ideal) ℓ) (ρ : Dev nD → PrngReg) (c : Dev nD)

/-- The first stretch's reshape of the activations, whole. -/
theorem V1_v3_eq :
    (V1 m ρ c main_call0_v3 : S8192x768.Idx → EReal)
      = shapeCast S8192x768 (m ((c : Thread nD τ).loc main_arg0) : S8x1024x768.Idx → EReal) shapeCasts_S8x1024x768_S8192x768 := by
  show StableHlo.after hostOps0 _ (Proc.devRef .tc main_call0_v3) = _
  after_results
  rfl

theorem V1_v3_apply (b : Fin 8) (n : Fin 1024) (k : Fin 768) :
    (V1 m ρ c main_call0_v3 : S8192x768.Idx → EReal) (ix2 ⟨1024 * b.val + n.val, by omega⟩ k)
      = (m ((c : Thread nD τ).loc main_arg0) : S8x1024x768.Idx → EReal) (ix3 b n k) := by
  rw [V1_v3_eq]
  refine shapeCast_apply (s := S8x1024x768) (t := S8192x768) _ _ _ _ ?_
  show (S8x1024x768.rowMajor (ix3 b n k)).val = (S8192x768.rowMajor (ix2 ⟨1024 * b.val + n.val, by omega⟩ k)).val
  rw [Shape.rowMajor_val_three, Shape.rowMajor_val_two]
  show (b.val * 1024 + n.val) * 768 + k.val = (1024 * b.val + n.val) * 768 + k.val
  omega

/-- The first stretch's transpose and format change of the weight, whole. -/
theorem V1_v1_eq :
    (V1 m ρ c main_call0_v1 : S768x2304.Idx → EReal)
      = (truncf (F := Ideal) .bf16 (transpose S768x2304 [1, 0] (m ((c : Thread nD τ).loc main_arg1) : FVec Ideal S2304x768 .f32) transposes_S2304x768_S768x2304_1_0) bitsLt_bf16_f32 : FVec Ideal S768x2304 .bf16) := by
  show StableHlo.after hostOps0 _ (Proc.devRef .tc main_call0_v1) = _
  after_results
  rfl

theorem V1_v1_apply (k : Fin 768) (o : Fin 2304) :
    (V1 m ρ c main_call0_v1 : S768x2304.Idx → EReal) (ix2 k o)
      = (m ((c : Thread nD τ).loc main_arg1) : S2304x768.Idx → EReal) (ix2 o k) := by
  rw [V1_v1_eq, truncf_apply]
  exact transpose_ix2_apply (a := 2304) (b := 768) _ _ k o

/-- The first stretch's reshape of the bias, whole. -/
theorem V1_v2_eq :
    (V1 m ρ c main_call0_v2 : S1x2304.Idx → EReal)
      = shapeCast S1x2304 (m ((c : Thread nD τ).loc main_arg2) : S2304.Idx → EReal) shapeCasts_S2304_S1x2304 := by
  show StableHlo.after hostOps0 _ (Proc.devRef .tc main_call0_v2) = _
  after_results
  rfl

theorem V1_v2_apply (o : Fin 2304) :
    (V1 m ρ c main_call0_v2 : S1x2304.Idx → EReal) (ix2 (0 : Fin 1) o)
      = (m ((c : Thread nD τ).loc main_arg2) : S2304.Idx → EReal) (ix1 o) := by
  rw [V1_v2_eq]
  exact shapeCast_a_1a_apply (a := 2304) _ _ (0 : Fin 1) o

/-- Neither the first stretch nor the linear layer's region writes the projection weight. -/
theorem W2_arg3 : W2 m ρ c (Proc.devRef .tc main_arg3) = m ((c : Thread nD τ).loc main_arg3) := by
  rw [W2_of_ne m ρ c main_arg3 (by decide)]
  show StableHlo.after hostOps0 _ (Proc.devRef .tc main_arg3) = _
  after_results

/-- Nor the projection bias. -/
theorem W2_arg4 : W2 m ρ c (Proc.devRef .tc main_arg4) = m ((c : Thread nD τ).loc main_arg4) := by
  rw [W2_of_ne m ρ c main_arg4 (by decide)]
  show StableHlo.after hostOps0 _ (Proc.devRef .tc main_arg4) = _
  after_results

/-- The second stretch's reshape of the layer's output, whole. -/
theorem V3_v5_eq :
    (V3 m ρ c main_call0_v5 : S8x1024x2304.Idx → EReal)
      = shapeCast S8x1024x2304 (W2 m ρ c (Proc.devRef .tc main_call0_v4) : S8192x2304.Idx → EReal) shapeCasts_S8192x2304_S8x1024x2304 := by
  show StableHlo.after hostOps1 _ (Proc.devRef .tc main_call0_v5) = _
  after_results
  rfl

theorem V3_v5_apply (b : Fin 8) (n : Fin 1024) (o : Fin 2304) :
    (V3 m ρ c main_call0_v5 : S8x1024x2304.Idx → EReal) (ix3 b n o)
      = (W2 m ρ c (Proc.devRef .tc main_call0_v4) : S8192x2304.Idx → EReal) (ix2 ⟨1024 * b.val + n.val, by omega⟩ o) := by
  rw [V3_v5_eq]
  refine shapeCast_apply (s := S8192x2304) (t := S8x1024x2304) _ _ _ _ ?_
  show (S8192x2304.rowMajor (ix2 ⟨1024 * b.val + n.val, by omega⟩ o)).val = (S8x1024x2304.rowMajor (ix3 b n o)).val
  rw [Shape.rowMajor_val_three, Shape.rowMajor_val_two]
  show (1024 * b.val + n.val) * 2304 + o.val = (b.val * 1024 + n.val) * 2304 + o.val
  omega

/-- The second stretch's transpose and format change of the projection weight, whole. -/
theorem V3_v7_eq :
    (V3 m ρ c main_call0_v7 : S768x768.Idx → EReal)
      = (truncf (F := Ideal) .bf16 (transpose S768x768 [1, 0] (W2 m ρ c (Proc.devRef .tc main_arg3) : FVec Ideal S768x768 .f32) transposes_S768x768_S768x768_1_0) bitsLt_bf16_f32 : FVec Ideal S768x768 .bf16) := by
  show StableHlo.after hostOps1 _ (Proc.devRef .tc main_call0_v7) = _
  after_results
  rfl

theorem V3_v7_apply (k : Fin 768) (o : Fin 768) :
    (V3 m ρ c main_call0_v7 : S768x768.Idx → EReal) (ix2 k o)
      = (m ((c : Thread nD τ).loc main_arg3) : S768x768.Idx → EReal) (ix2 o k) := by
  rw [V3_v7_eq, truncf_apply, W2_arg3]
  exact transpose_ix2_apply (a := 768) (b := 768) _ _ k o

/-- The second stretch's reshape of the projection bias, whole. -/
theorem V3_v8_eq :
    (V3 m ρ c main_call0_v8 : S1x768.Idx → EReal)
      = shapeCast S1x768 (W2 m ρ c (Proc.devRef .tc main_arg4) : S768.Idx → EReal) shapeCasts_S768_S1x768 := by
  show StableHlo.after hostOps1 _ (Proc.devRef .tc main_call0_v8) = _
  after_results
  rfl

theorem V3_v8_apply (o : Fin 768) :
    (V3 m ρ c main_call0_v8 : S1x768.Idx → EReal) (ix2 (0 : Fin 1) o)
      = (m ((c : Thread nD τ).loc main_arg4) : S768.Idx → EReal) (ix1 o) := by
  rw [V3_v8_eq, W2_arg4]
  exact shapeCast_a_1a_apply (a := 768) _ _ (0 : Fin 1) o

/-! ## The second region reads the specification's fused projection -/

/-- The first region's whole-array function at row `r`, column `o`. -/
theorem G0_apply (X : Cert.KSpec.SX2.Idx → EReal) (Wt : Cert.KSpec.SWt.Idx → EReal) (B2 : Cert.KSpec.SB2.Idx → EReal)
    (r : Fin 8192) (o : Fin 2304) :
    Cert.KSpec.G0 X Wt B2 (ix2 r o) = (∑ k : Fin 768, X (ix2 r k) * Wt (ix2 k o)) + B2 (ix2 (0 : Fin 1) o) := rfl

/-- The fused projection of the argument arrays at (b, n, o). -/
theorem Qof_apply (x : Cert.Spec.SX.Idx → EReal) (w : Cert.Spec.SW.Idx → EReal) (β : Cert.Spec.SB.Idx → EReal)
    (b : Fin 8) (n : Fin 1024) (o : Fin 2304) :
    Cert.Spec.Qof x w β b n o = (∑ k : Fin 768, x (ix3 b n k) * w (ix2 o k)) + β (ix1 o) := rfl

/-- The batch the second region is handed is the fused projection of the arguments. -/
theorem Q5_eq :
    Cert.KSpec.Q5of (V3 m ρ c main_call0_v5)
      = Cert.Spec.Qof (m ((c : Thread nD τ).loc main_arg0)) (m ((c : Thread nD τ).loc main_arg1))
          (m ((c : Thread nD τ).loc main_arg2)) := by
  funext b n o
  refine (V3_v5_apply m ρ c b n o).trans ?_
  rw [W2_v4, final0 (V1 m ρ) c]
  refine (G0_apply _ _ _ ⟨1024 * b.val + n.val, by omega⟩ o).trans ?_
  refine Eq.trans ?_ (Qof_apply _ _ _ b n o).symm
  exact congrArg₂ (fun (s t : EReal) => s + t)
    (Finset.sum_congr rfl fun k _ => congrArg₂ (fun (s t : EReal) => s * t) (V1_v3_apply m ρ c b n k) (V1_v1_apply m ρ c k o))
    (V1_v2_apply m ρ c o)

/-! ## The two results -/

/-- The attention weights' array is the specification's, of the arguments. -/
theorem kernel_attn :
    (dat1 (F := Ideal) (V3 m ρ) c).arrAt 5 cfg1.N
      = Cert.Spec.attnArr (m ((c : Thread nD τ).loc main_arg0)) (m ((c : Thread nD τ).loc main_arg1))
          (m ((c : Thread nD τ).loc main_arg2)) := by
  rw [final1_5 (V3 m ρ) c]
  unfold Cert.KSpec.G5 Cert.Spec.attnArr
  rw [Q5_eq]

/-- The transposed projection weight, read back as the argument. -/
theorem pw_eq :
    (fun (o k : Fin 768) => ((V3 m ρ c main_call0_v7 : S768x768.Idx → EReal) (ix2 k o) : EReal))
      = fun o k => (m ((c : Thread nD τ).loc main_arg3) : S768x768.Idx → EReal) (ix2 o k) :=
  funext fun o => funext fun k => V3_v7_apply m ρ c k o

/-- The projection bias row, read back as the argument. -/
theorem pb_eq :
    (fun (o : Fin 768) => ((V3 m ρ c main_call0_v8 : S1x768.Idx → EReal) (ix2 (0 : Fin 1) o) : EReal))
      = fun o => (m ((c : Thread nD τ).loc main_arg4) : S768.Idx → EReal) (ix1 o) :=
  funext fun o => V3_v8_apply m ρ c o

/-- The projected output's array is the specification's, of the arguments. -/
theorem kernel_out :
    (dat1 (F := Ideal) (V3 m ρ) c).arrAt 6 cfg1.N
      = Cert.Spec.outArr (m ((c : Thread nD τ).loc main_arg0)) (m ((c : Thread nD τ).loc main_arg1))
          (m ((c : Thread nD τ).loc main_arg2)) (m ((c : Thread nD τ).loc main_arg3)) (m ((c : Thread nD τ).loc main_arg4)) := by
  rw [final1_6 (V3 m ρ) c]
  unfold Cert.KSpec.G6 Cert.Spec.outArr
  rw [Q5_eq, pw_eq, pb_eq]

end Cert.KernelIdeal.Val

end
-- ==== Proof.lean ====
/-
  The certificate of a fused attention layer against its plain reference, over the extended reals.

  The kernel program runs two pipelined regions: a tiled linear layer (x · qkv_wᵀ + qkv_b, the fused q/k/v projection)
  and, per batch and pair of heads, softmax attention whose weights are a result and whose attended values are
  projected through proj_w and accumulated over the six head pairs of a batch before the bias is added. The
  reference computes the same with whole-array operations. Read at exact arithmetic (a change of float format is
  the identity) both programs end with
      attn b h n m = softmax_m ((Σ_d q·k) / 8),          out b n o = Σ_c ctx b n c · proj_w o c + proj_b o,
  the two differing only in how the sums are grouped and tiled; addition of extended reals is commutative and
  associative, so the regrouping needs no finiteness of the inputs.

  Frames: each region's body runs to the end on its staged blocks (region 0: one load-compute-store; region 1: its
  three control cases, with the accumulator carried between grid points), the regions and the host operations
  around them compose by the launch rule for several regions, and no item writes an argument array. The word-level
  program is the same text in another namespace, so its frame is the same proof laid out there. The reference has
  no kernel: its frame is its run with the results dropped.
-/
import proofs.«402962_j1709396984003_3_alg».proof.Defs
import proofs.«402962_j1709396984003_3_alg».proof.Proof.Gen.Kernel
import proofs.«402962_j1709396984003_3_alg».proof.Proof.Gen.KernelIdeal
import proofs.«402962_j1709396984003_3_alg».proof.Proof.Gen.ReferenceIdeal
import proofs.«402962_j1709396984003_3_alg».proof.Proof.Gen.Pre_finite_inputs
import proofs.«402962_j1709396984003_3_alg».proof.Proof.Gen.ReferenceIdeal.Run
import proofs.«402962_j1709396984003_3_alg».proof.Proof.HRun
import proofs.«402962_j1709396984003_3_alg».proof.Proof.BRun
import proofs.«402962_j1709396984003_3_alg».proof.Proof.RefValue
import proofs.«402962_j1709396984003_3_alg».proof.Proof.Plumb

noncomputable section

namespace Cert.Proof

open Idealize.ShloMosaic Idealize.SL.Sem

/-- The word-level program runs to the end and leaves its five argument arrays as launched. -/
theorem frame_p : Cert.frame_Kernel := fun m ρ _ => Cert.Kernel.Hand.frame m ρ

/-- So does the idealized program. -/
theorem frame_pi : Cert.frame_KernelIdeal := fun m ρ _ => Cert.KernelIdeal.Hand.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the specification's two arrays of the argument arrays, which agree. -/
theorem algebraic : Cert.algebraic_KernelIdeal_ReferenceIdeal := by
  intro m ρ m' ρ' _ hagree
  refine ⟨fun c => Cert.Spec.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => Cert.Spec.attnArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Val.kernel_out m ρ c), (h c).2.1.trans (Cert.KernelIdeal.Val.kernel_attn m ρ c), (h c).2.2⟩)
      (Cert.KernelIdeal.Hand.run_values (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · refine (Cert.ReferenceIdeal.RefValue.out_is_spec m' c).trans ?_
      rw [(hagree c).1, (hagree c).2.1, (hagree c).2.2.1, (hagree c).2.2.2.1, (hagree c).2.2.2.2]
    · refine (Cert.ReferenceIdeal.RefValue.attn_is_spec m' c).trans ?_
      rw [(hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
